-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_0) = v0 c
          ∧ r.2.mem ((c.tc : Thread Cert.ReferenceIdeal.nD Cert.ReferenceIdeal.τ).loc Cert.ReferenceIdeal.main_v22_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x128 : Shape := ⟨3, ![4, 12, 128]⟩
abbrev S1x32 : Shape := ⟨2, ![1, 32]⟩
abbrev S4x128x256 : Shape := ⟨3, ![4, 128, 256]⟩
abbrev S1x64 : Shape := ⟨2, ![1, 64]⟩
abbrev S2304x128 : Shape := ⟨2, ![2304, 128]⟩
abbrev S1x128 : Shape := ⟨2, ![1, 128]⟩
abbrev S128x84 : Shape := ⟨2, ![128, 84]⟩
abbrev S1x84 : Shape := ⟨2, ![1, 84]⟩
abbrev S84x10 : Shape := ⟨2, ![84, 10]⟩
abbrev S1x10 : Shape := ⟨2, ![1, 10]⟩
abbrev S2048x3x32x32 : Shape := ⟨4, ![2048, 3, 32, 32]⟩
abbrev S_ : Shape := ⟨0, ![]⟩

class Facts : Prop where
  bitsLt_bf16_f32 : FTy.bits .bf16 < FTy.bits .f32
  bcast_S_S4x12x128 : S_.BroadcastsInDim S4x12x128 (![] : Fin 0 → Fin S4x12x128.rank)
  reducesTo_S4x12x128_S_d0_1_2 : S4x12x128.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S4x128x256 : S_.BroadcastsInDim S4x128x256 (![] : Fin 0 → Fin S4x128x256.rank)
  reducesTo_S4x128x256_S_d0_1_2 : S4x128x256.ReducesTo [0, 1, 2] S_
  bcast_S_S1x64 : S_.BroadcastsInDim S1x64 (![] : Fin 0 → Fin S1x64.rank)
  reducesTo_S1x64_S_d0_1 : S1x64.ReducesTo [0, 1] S_
  bcast_S_S2304x128 : S_.BroadcastsInDim S2304x128 (![] : Fin 0 → Fin S2304x128.rank)
  reducesTo_S2304x128_S_d0_1 : S2304x128.ReducesTo [0, 1] S_
  bcast_S_S1x128 : S_.BroadcastsInDim S1x128 (![] : Fin 0 → Fin S1x128.rank)
  reducesTo_S1x128_S_d0_1 : S1x128.ReducesTo [0, 1] S_
  bcast_S_S128x84 : S_.BroadcastsInDim S128x84 (![] : Fin 0 → Fin S128x84.rank)
  reducesTo_S128x84_S_d0_1 : S128x84.ReducesTo [0, 1] S_
  bcast_S_S1x84 : S_.BroadcastsInDim S1x84 (![] : Fin 0 → Fin S1x84.rank)
  reducesTo_S1x84_S_d0_1 : S1x84.ReducesTo [0, 1] S_
  bcast_S_S84x10 : S_.BroadcastsInDim S84x10 (![] : Fin 0 → Fin S84x10.rank)
  reducesTo_S84x10_S_d0_1 : S84x10.ReducesTo [0, 1] S_
  bcast_S_S1x10 : S_.BroadcastsInDim S1x10 (![] : Fin 0 → Fin S1x10.rank)
  reducesTo_S1x10_S_d0_1 : S1x10.ReducesTo [0, 1] S_
  bcast_S_S2048x3x32x32 : S_.BroadcastsInDim S2048x3x32x32 (![] : Fin 0 → Fin S2048x3x32x32.rank)
  reducesTo_S2048x3x32x32_S_d0_1_2_3 : S2048x3x32x32.ReducesTo [0, 1, 2, 3] S_

variable [Facts]

def fn_part3 {F : FTy → Type} [FloatOps F] (main_arg10 : FVec F S2048x3x32x32 .f32) (main_v51 : IVec S_ 1) : IVec S_ 1 :=
  let main_v52 : FVec F S2048x3x32x32 .f32 := Host.absf main_arg10
  let main_cst_18 : FVec F S_ .f32 := constant S_ .f32 0x7F800000#32
  let main_v53 : FVec F S2048x3x32x32 .f32 := broadcastInDim S2048x3x32x32 ![] bcast_S_S2048x3x32x32 main_cst_18
  let main_v54 : IVec S2048x3x32x32 1 := cmpf .olt main_v52 main_v53
  let main_c_19 : IVec S_ 1 := constantI S_ 1 1#1
  let main_v55 : IVec S_ 1 := (fun x v => Host.reduce IntOp.andi x v reducesTo_S2048x3x32x32_S_d0_1_2_3 h_S_) main_v54 main_c_19
  let main_v56 : IVec S_ 1 := andi main_v51 main_v55
  main_v56

def fn_part2 {F : FTy → Type} [FloatOps F] (main_arg7 : FVec F S1x84 .f32) (main_arg8 : FVec F S84x10 .f32) (main_arg9 : FVec F S1x10 .f32) (main_arg10 : FVec F S2048x3x32x32 .f32) (main_v31 : IVec S_ 1) (main_v34 : IVec S128x84 1) : IVec S_ 1 :=
  let main_c_11 : IVec S_ 1 := constantI S_ 1 1#1
  let main_v35 : IVec S_ 1 := (fun x v => Host.reduce IntOp.andi x v reducesTo_S128x84_S_d0_1 h_S_) main_v34 main_c_11
  let main_v36 : IVec S_ 1 := andi main_v31 main_v35
  let main_v37 : FVec F S1x84 .f32 := Host.absf main_arg7
  let main_cst_12 : FVec F S_ .f32 := constant S_ .f32 0x7F800000#32
  let main_v38 : FVec F S1x84 .f32 := broadcastInDim S1x84 ![] bcast_S_S1x84 main_cst_12
  let main_v39 : IVec S1x84 1 := cmpf .olt main_v37 main_v38
  let main_c_13 : IVec S_ 1 := constantI S_ 1 1#1
  let main_v40 : IVec S_ 1 := (fun x v => Host.reduce IntOp.andi x v reducesTo_S1x84_S_d0_1 h_S_) main_v39 main_c_13
  let main_v41 : IVec S_ 1 := andi main_v36 main_v40
  let main_v42 : FVec F S84x10 .f32 := Host.absf main_arg8
  let main_cst_14 : FVec F S_ .f32 := constant S_ .f32 0x7F800000#32
  let main_v43 : FVec F S84x10 .f32 := broadcastInDim S84x10 ![] bcast_S_S84x10 main_cst_14
  let main_v44 : IVec S84x10 1 := cmpf .olt main_v42 main_v43
  let main_c_15 : IVec S_ 1 := constantI S_ 1 1#1
  let main_v45 : IVec S_ 1 := (fun x v => Host.reduce IntOp.andi x v reducesTo_S84x10_S_d0_1 h_S_) main_v44 main_c_15
  let main_v46 : IVec S_ 1 := andi main_v41 main_v45
  let main_v47 : FVec F S1x10 .f32 := Host.absf main_arg9
  let main_cst_16 : FVec F S_ .f32 := constant S_ .f32 0x7F800000#32
  let main_v48 : FVec F S1x10 .f32 := broadcastInDim S1x10 ![] bcast_S_S1x10 main_cst_16
  let main_v49 : IVec S1x10 1 := cmpf .olt main_v47 main_v48
  let main_c_17 : IVec S_ 1 := constantI S_ 1 1#1
  let main_v50 : IVec S_ 1 := (fun x v => Host.reduce IntOp.andi x v reducesTo_S1x10_S_d0_1 h_S_) main_v49 main_c_17
  let main_v51 : IVec S_ 1 := andi main_v46 main_v50
  fn_part3 (F := F) main_arg10 main_v51

def fn_part1 {F : FTy → Type} [FloatOps F] (main_arg4 : FVec F S2304x128 .bf16) (main_arg5 : FVec F S1x128 .f32) (main_arg6 : FVec F S128x84 .f32) (main_arg7 : FVec F S1x84 .f32) (main_arg8 : FVec F S84x10 .f32) (main_arg9 : FVec F S1x10 .f32) (main_arg10 : FVec F S2048x3x32x32 .f32) (main_v15 : IVec S_ 1) (main_v16 : FVec F S1x64 .f32) (main_cst_4 : FVec F S_ .f32) : IVec S_ 1 :=
  let main_v17 : FVec F S1x64 .f32 := broadcastInDim S1x64 ![] bcast_S_S1x64 main_cst_4
  let main_v18 : IVec S1x64 1 := cmpf .olt main_v16 main_v17
  let main_c_5 : IVec S_ 1 := constantI S_ 1 1#1
  let main_v19 : IVec S_ 1 := (fun x v => Host.reduce IntOp.andi x v reducesTo_S1x64_S_d0_1 h_S_) main_v18 main_c_5
  let main_v20 : IVec S_ 1 := andi main_v15 main_v19
  let main_v21 : FVec F S2304x128 .f32 := (extf .f32 · bitsLt_bf16_f32) main_arg4
  let main_v22 : FVec F S2304x128 .f32 := Host.absf main_v21
  let main_cst_6 : FVec F S_ .f32 := constant S_ .f32 0x7F800000#32
  let main_v23 : FVec F S2304x128 .f32 := broadcastInDim S2304x128 ![] bcast_S_S2304x128 main_cst_6
  let main_v24 : IVec S2304x128 1 := cmpf .olt main_v22 main_v23
  let main_c_7 : IVec S_ 1 := constantI S_ 1 1#1
  let main_v25 : IVec S_ 1 := (fun x v => Host.reduce IntOp.andi x v reducesTo_S2304x128_S_d0_1 h_S_) main_v24 main_c_7
  let main_v26 : IVec S_ 1 := andi main_v20 main_v25
  let main_v27 : FVec F S1x128 .f32 := Host.absf main_arg5
  let main_cst_8 : FVec F S_ .f32 := constant S_ .f32 0x7F800000#32
  let main_v28 : FVec F S1x128 .f32 := broadcastInDim S1x128 ![] bcast_S_S1x128 main_cst_8
  let main_v29 : IVec S1x128 1 := cmpf .olt main_v27 main_v28
  let main_c_9 : IVec S_ 1 := constantI S_ 1 1#1
  let main_v30 : IVec S_ 1 := (fun x v => Host.reduce IntOp.andi x v reducesTo_S1x128_S_d0_1 h_S_) main_v29 main_c_9
  let main_v31 : IVec S_ 1 := andi main_v26 main_v30
  let main_v32 : FVec F S128x84 .f32 := Host.absf main_arg6
  let main_cst_10 : FVec F S_ .f32 := constant S_ .f32 0x7F800000#32
  let main_v33 : FVec F S128x84 .f32 := broadcastInDim S128x84 ![] bcast_S_S128x84 main_cst_10
  let main_v34 : IVec S128x84 1 := cmpf .olt main_v32 main_v33
  fn_part2 (F := F) main_arg7 main_arg8 main_arg9 main_arg10 main_v31 main_v34

def fn {F : FTy → Type} [FloatOps F] (main_arg0 : FVec F S4x12x128 .bf16) (main_arg1 : FVec F S1x32 .f32) (main_arg2 : FVec F S4x128x256 .bf16) (main_arg3 : FVec F S1x64 .f32) (main_arg4 : FVec F S2304x128 .bf16) (main_arg5 : FVec F S1x128 .f32) (main_arg6 : FVec F S128x84 .f32) (main_arg7 : FVec F S1x84 .f32) (main_arg8 : FVec F S84x10 .f32) (main_arg9 : FVec F S1x10 .f32) (main_arg10 : FVec F S2048x3x32x32 .f32) : IVec S_ 1 :=
  let main_v0 : FVec F S4x12x128 .f32 := (extf .f32 · bitsLt_bf16_f32) main_arg0
  let main_v1 : FVec F S4x12x128 .f32 := Host.absf main_v0
  let main_cst : FVec F S_ .f32 := constant S_ .f32 0x7F800000#32
  let main_v2 : FVec F S4x12x128 .f32 := broadcastInDim S4x12x128 ![] bcast_S_S4x12x128 main_cst
  let main_v3 : IVec S4x12x128 1 := cmpf .olt main_v1 main_v2
  let main_c : IVec S_ 1 := constantI S_ 1 1#1
  let main_v4 : IVec S_ 1 := (fun x v => Host.reduce IntOp.andi x v reducesTo_S4x12x128_S_d0_1_2 h_S_) main_v3 main_c
  let main_v5 : FVec F S1x32 .f32 := Host.absf main_arg1
  let main_cst_0 : FVec F S_ .f32 := constant S_ .f32 0x7F800000#32
  let main_v6 : FVec F S1x32 .f32 := broadcastInDim S1x32 ![] bcast_S_S1x32 main_cst_0
  let main_v7 : IVec S1x32 1 := cmpf .olt main_v5 main_v6
  let main_c_1 : IVec S_ 1 := constantI S_ 1 1#1
  let main_v8 : IVec S_ 1 := (fun x v => Host.reduce IntOp.andi x v reducesTo_S1x32_S_d0_1 h_S_) main_v7 main_c_1
  let main_v9 : IVec S_ 1 := andi main_v4 main_v8
  let main_v10 : FVec F S4x128x256 .f32 := (extf .f32 · bitsLt_bf16_f32) main_arg2
  let main_v11 : FVec F S4x128x256 .f32 := Host.absf main_v10
  let main_cst_2 : FVec F S_ .f32 := constant S_ .f32 0x7F800000#32
  let main_v12 : FVec F S4x128x256 .f32 := broadcastInDim S4x128x256 ![] bcast_S_S4x128x256 main_cst_2
  let main_v13 : IVec S4x128x256 1 := cmpf .olt main_v11 main_v12
  let main_c_3 : IVec S_ 1 := constantI S_ 1 1#1
  let main_v14 : IVec S_ 1 := (fun x v => Host.reduce IntOp.andi x v reducesTo_S4x128x256_S_d0_1_2 h_S_) main_v13 main_c_3
  let main_v15 : IVec S_ 1 := andi main_v9 main_v14
  let main_v16 : FVec F S1x64 .f32 := Host.absf main_arg3
  let main_cst_4 : FVec F S_ .f32 := constant S_ .f32 0x7F800000#32
  fn_part1 (F := F) main_arg4 main_arg5 main_arg6 main_arg7 main_arg8 main_arg9 main_arg10 main_v15 main_v16 main_cst_4
-- ==== Kernel.lean ====
abbrev S4x12x128 : Shape := ⟨3, ![4, 12, 128]⟩
abbrev S1x32 : Shape := ⟨2, ![1, 32]⟩
abbrev S4x128x256 : Shape := ⟨3, ![4, 128, 256]⟩
abbrev S1x64 : Shape := ⟨2, ![1, 64]⟩
abbrev S2304x128 : Shape := ⟨2, ![2304, 128]⟩
abbrev S1x128 : Shape := ⟨2, ![1, 128]⟩
abbrev S128x84 : Shape := ⟨2, ![128, 84]⟩
abbrev S1x84 : Shape := ⟨2, ![1, 84]⟩
abbrev S84x10 : Shape := ⟨2, ![84, 10]⟩
abbrev S1x10 : Shape := ⟨2, ![1, 10]⟩
abbrev S2048x3x32x32 : Shape := ⟨4, ![2048, 3, 32, 32]⟩
abbrev S2048x32x32x3 : Shape := ⟨4, ![2048, 32, 32, 3]⟩
abbrev S_ : Shape := ⟨0, ![]⟩
abbrev S2048x16x2x16x2x3 : Shape := ⟨6, ![2048, 16, 2, 16, 2, 3]⟩
abbrev S2048x16x16x2x2x3 : Shape := ⟨6, ![2048, 16, 16, 2, 2, 3]⟩
abbrev S2048x16x16x12 : Shape := ⟨4, ![2048, 16, 16, 12]⟩
abbrev S2048x17x16x12 : Shape := ⟨4, ![2048, 17, 16, 12]⟩
abbrev S2048x272x12 : Shape := ⟨3, ![2048, 272, 12]⟩
abbrev S48x128 : Shape := ⟨2, ![48, 128]⟩
abbrev S2048x240x32 : Shape := ⟨3, ![2048, 240, 32]⟩
abbrev S8x272x12 : Shape := ⟨3, ![8, 272, 12]⟩
abbrev S8x240x32 : Shape := ⟨3, ![8, 240, 32]⟩
abbrev S8x240x12 : Shape := ⟨3, ![8, 240, 12]⟩
abbrev S8x240x48 : Shape := ⟨3, ![8, 240, 48]⟩
abbrev S1920x48 : Shape := ⟨2, ![1920, 48]⟩
abbrev S1920x128 : Shape := ⟨2, ![1920, 128]⟩
abbrev S8x240x128 : Shape := ⟨3, ![8, 240, 128]⟩
abbrev S1x1x32 : Shape := ⟨3, ![1, 1, 32]⟩
abbrev S2048x15x16x32 : Shape := ⟨4, ![2048, 15, 16, 32]⟩
abbrev S2048x15x15x32 : Shape := ⟨4, ![2048, 15, 15, 32]⟩
abbrev S2048x16x16x32 : Shape := ⟨4, ![2048, 16, 16, 32]⟩
abbrev S2048x8x2x8x2x32 : Shape := ⟨6, ![2048, 8, 2, 8, 2, 32]⟩
abbrev S2048x8x8x2x2x32 : Shape := ⟨6, ![2048, 8, 8, 2, 2, 32]⟩
abbrev S2048x8x8x128 : Shape := ⟨4, ![2048, 8, 8, 128]⟩
abbrev S2048x9x8x128 : Shape := ⟨4, ![2048, 9, 8, 128]⟩
abbrev S2048x72x128 : Shape := ⟨3, ![2048, 72, 128]⟩
abbrev S512x256 : Shape := ⟨2, ![512, 256]⟩
abbrev S2048x48x64 : Shape := ⟨3, ![2048, 48, 64]⟩
abbrev S8x72x128 : Shape := ⟨3, ![8, 72, 128]⟩
abbrev S8x48x64 : Shape := ⟨3, ![8, 48, 64]⟩
abbrev S8x48x128 : Shape := ⟨3, ![8, 48, 128]⟩
abbrev S8x48x512 : Shape := ⟨3, ![8, 48, 512]⟩
abbrev S384x512 : Shape := ⟨2, ![384, 512]⟩
abbrev S384x256 : Shape := ⟨2, ![384, 256]⟩
abbrev S8x48x256 : Shape := ⟨3, ![8, 48, 256]⟩
abbrev S1x1x64 : Shape := ⟨3, ![1, 1, 64]⟩
abbrev S2048x6x8x64 : Shape := ⟨4, ![2048, 6, 8, 64]⟩
abbrev S2048x6x6x64 : Shape := ⟨4, ![2048, 6, 6, 64]⟩
abbrev S2048x2304 : Shape := ⟨2, ![2048, 2304]⟩
abbrev S2048x84 : Shape := ⟨2, ![2048, 84]⟩
abbrev S2048x10 : Shape := ⟨2, ![2048, 10]⟩
abbrev S256x2304 : Shape := ⟨2, ![256, 2304]⟩
abbrev S256x84 : Shape := ⟨2, ![256, 84]⟩
abbrev S256x10 : Shape := ⟨2, ![256, 10]⟩
abbrev S256x128 : Shape := ⟨2, ![256, 128]⟩

abbrev nBuf : Space → Nat
  | .hbm => 47
  | .vmem => 24
  | .smem => 0
  | _ => 0

abbrev bufTy : (tb : Table) → Fin (tcTables nBuf tb) → BufTy
  | .hbm, ⟨0, _⟩ => ⟨S4x12x128, .bf16⟩
  | .hbm, ⟨1, _⟩ => ⟨S1x32, .f32⟩
  | .hbm, ⟨2, _⟩ => ⟨S4x128x256, .bf16⟩
  | .hbm, ⟨3, _⟩ => ⟨S1x64, .f32⟩
  | .hbm, ⟨4, _⟩ => ⟨S2304x128, .bf16⟩
  | .hbm, ⟨5, _⟩ => ⟨S1x128, .f32⟩
  | .hbm, ⟨6, _⟩ => ⟨S128x84, .f32⟩
  | .hbm, ⟨7, _⟩ => ⟨S1x84, .f32⟩
  | .hbm, ⟨8, _⟩ => ⟨S84x10, .f32⟩
  | .hbm, ⟨9, _⟩ => ⟨S1x10, .f32⟩
  | .hbm, ⟨10, _⟩ => ⟨S2048x3x32x32, .f32⟩
  | .hbm, ⟨11, _⟩ => ⟨S2048x3x32x32, .bf16⟩
  | .hbm, ⟨12, _⟩ => ⟨S2048x32x32x3, .bf16⟩
  | .hbm, ⟨13, _⟩ => ⟨S_, .i32⟩
  | .hbm, ⟨14, _⟩ => ⟨S_, .bf16⟩
  | .hbm, ⟨15, _⟩ => ⟨S2048x32x32x3, .bf16⟩
  | .hbm, ⟨16, _⟩ => ⟨S2048x16x2x16x2x3, .bf16⟩
  | .hbm, ⟨17, _⟩ => ⟨S2048x16x16x2x2x3, .bf16⟩
  | .hbm, ⟨18, _⟩ => ⟨S2048x16x16x12, .bf16⟩
  | .hbm, ⟨19, _⟩ => ⟨S_, .i32⟩
  | .hbm, ⟨20, _⟩ => ⟨S_, .bf16⟩
  | .hbm, ⟨21, _⟩ => ⟨S2048x17x16x12, .bf16⟩
  | .hbm, ⟨22, _⟩ => ⟨S2048x272x12, .bf16⟩
  | .hbm, ⟨23, _⟩ => ⟨S48x128, .bf16⟩
  | .hbm, ⟨24, _⟩ => ⟨S2048x240x32, .bf16⟩
  | .hbm, ⟨25, _⟩ => ⟨S2048x15x16x32, .bf16⟩
  | .hbm, ⟨26, _⟩ => ⟨S2048x15x15x32, .bf16⟩
  | .hbm, ⟨27, _⟩ => ⟨S_, .i32⟩
  | .hbm, ⟨28, _⟩ => ⟨S_, .bf16⟩
  | .hbm, ⟨29, _⟩ => ⟨S2048x16x16x32, .bf16⟩
  | .hbm, ⟨30, _⟩ => ⟨S2048x8x2x8x2x32, .bf16⟩
  | .hbm, ⟨31, _⟩ => ⟨S2048x8x8x2x2x32, .bf16⟩
  | .hbm, ⟨32, _⟩ => ⟨S2048x8x8x128, .bf16⟩
  | .hbm, ⟨33, _⟩ => ⟨S_, .i32⟩
  | .hbm, ⟨34, _⟩ => ⟨S_, .bf16⟩
  | .hbm, ⟨35, _⟩ => ⟨S2048x9x8x128, .bf16⟩
  | .hbm, ⟨36, _⟩ => ⟨S2048x72x128, .bf16⟩
  | .hbm, ⟨37, _⟩ => ⟨S512x256, .bf16⟩
  | .hbm, ⟨38, _⟩ => ⟨S2048x48x64, .bf16⟩
  | .hbm, ⟨39, _⟩ => ⟨S2048x6x8x64, .bf16⟩
  | .hbm, ⟨40, _⟩ => ⟨S2048x6x6x64, .bf16⟩
  | .hbm, ⟨41, _⟩ => ⟨S2048x2304, .bf16⟩
  | .hbm, ⟨42, _⟩ => ⟨S_, .i32⟩
  | .hbm, ⟨43, _⟩ => ⟨S_, .bf16⟩
  | .hbm, ⟨44, _⟩ => ⟨S2048x2304, .bf16⟩
  | .hbm, ⟨45, _⟩ => ⟨S2048x84, .f32⟩
  | .hbm, ⟨46, _⟩ => ⟨S2048x10, .f32⟩
  | .local _ .vmem, ⟨0, _⟩ => ⟨S8x272x12, .bf16⟩
  | .local _ .vmem, ⟨1, _⟩ => ⟨S8x272x12, .bf16⟩
  | .local _ .vmem, ⟨2, _⟩ => ⟨S48x128, .bf16⟩
  | .local _ .vmem, ⟨3, _⟩ => ⟨S1x32, .f32⟩
  | .local _ .vmem, ⟨4, _⟩ => ⟨S8x240x32, .bf16⟩
  | .local _ .vmem, ⟨5, _⟩ => ⟨S8x240x32, .bf16⟩
  | .local _ .vmem, ⟨6, _⟩ => ⟨S8x72x128, .bf16⟩
  | .local _ .vmem, ⟨7, _⟩ => ⟨S8x72x128, .bf16⟩
  | .local _ .vmem, ⟨8, _⟩ => ⟨S512x256, .bf16⟩
  | .local _ .vmem, ⟨9, _⟩ => ⟨S1x64, .f32⟩
  | .local _ .vmem, ⟨10, _⟩ => ⟨S8x48x64, .bf16⟩
  | .local _ .vmem, ⟨11, _⟩ => ⟨S8x48x64, .bf16⟩
  | .local _ .vmem, ⟨12, _⟩ => ⟨S256x2304, .bf16⟩
  | .local _ .vmem, ⟨13, _⟩ => ⟨S256x2304, .bf16⟩
  | .local _ .vmem, ⟨14, _⟩ => ⟨S2304x128, .bf16⟩
  | .local _ .vmem, ⟨15, _⟩ => ⟨S1x128, .f32⟩
  | .local _ .vmem, ⟨16, _⟩ => ⟨S128x84, .f32⟩
  | .local _ .vmem, ⟨17, _⟩ => ⟨S1x84, .f32⟩
  | .local _ .vmem, ⟨18, _⟩ => ⟨S84x10, .f32⟩
  | .local _ .vmem, ⟨19, _⟩ => ⟨S1x10, .f32⟩
  | .local _ .vmem, ⟨20, _⟩ => ⟨S256x84, .f32⟩
  | .local _ .vmem, ⟨21, _⟩ => ⟨S256x84, .f32⟩
  | .local _ .vmem, ⟨22, _⟩ => ⟨S256x10, .f32⟩
  | .local _ .vmem, ⟨23, _⟩ => ⟨S256x10, .f32⟩
  | _, _ => ⟨S4x12x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_call2_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_call3_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_call4_v0 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x272x12 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x240x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![256], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x72x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x48x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2304 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2304x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x84 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x84 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S84x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x84 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x10 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bitsLt_bf16_f32 : FTy.bits .bf16 < FTy.bits .f32
  transposes_S2048x3x32x32_S2048x32x32x3_0_2_3_1 : S2048x3x32x32.Transposes [0, 2, 3, 1] S2048x32x32x3
  pads_S2048x32x32x3_S2048x32x32x3_000_000_000_000 : S2048x32x32x3.Pads (![0, 0, 0, 0] : Fin 4 → Nat) ![0, 0, 0, 0] ![0, 0, 0, 0] S2048x32x32x3
  h_S_ : 0 < S_.numel
  shapeCasts_S2048x32x32x3_S2048x16x2x16x2x3 : S2048x32x32x3.ShapeCasts S2048x16x2x16x2x3
  transposes_S2048x16x2x16x2x3_S2048x16x16x2x2x3_0_1_3_2_4_5 : S2048x16x2x16x2x3.Transposes [0, 1, 3, 2, 4, 5] S2048x16x16x2x2x3
  shapeCasts_S2048x16x16x2x2x3_S2048x16x16x12 : S2048x16x16x2x2x3.ShapeCasts S2048x16x16x12
  pads_S2048x16x16x12_S2048x17x16x12_000_010_000_000 : S2048x16x16x12.Pads (![0, 0, 0, 0] : Fin 4 → Nat) ![0, 1, 0, 0] ![0, 0, 0, 0] S2048x17x16x12
  shapeCasts_S2048x17x16x12_S2048x272x12 : S2048x17x16x12.ShapeCasts S2048x272x12
  shapeCasts_S4x12x128_S48x128 : S4x12x128.ShapeCasts S48x128
  inb_S8x272x12_S8x240x12_0_0_0 : ∀ a, (![0, 0, 0] : Fin 3 → Nat) a + S8x240x12.size a ≤ S8x272x12.size a
  h_S8x240x12 : 0 < S8x240x12.numel
  shapeCasts_S8x240x12_S8x240x12 : S8x240x12.ShapeCasts S8x240x12
  inb_S8x272x12_S8x240x12_0_1_0 : ∀ a, (![0, 1, 0] : Fin 3 → Nat) a + S8x240x12.size a ≤ S8x272x12.size a
  inb_S8x272x12_S8x240x12_0_16_0 : ∀ a, (![0, 16, 0] : Fin 3 → Nat) a + S8x240x12.size a ≤ S8x272x12.size a
  inb_S8x272x12_S8x240x12_0_17_0 : ∀ a, (![0, 17, 0] : Fin 3 → Nat) a + S8x240x12.size a ≤ S8x272x12.size a
  concatenates_S8x240x12_S8x240x12_S8x240x12_S8x240x12_S8x240x48_d2 : Shape.Concatenates [S8x240x12, S8x240x12, S8x240x12, S8x240x12] S8x240x48 2
  shapeCasts_S8x240x48_S1920x48 : S8x240x48.ShapeCasts S1920x48
  inb_S48x128_S48x128_0_0 : ∀ a, (![0, 0] : Fin 2 → Nat) a + S48x128.size a ≤ S48x128.size a
  h_S48x128 : 0 < S48x128.numel
  shapeCasts_S48x128_S48x128 : S48x128.ShapeCasts S48x128
  shapeCasts_S1920x128_S8x240x128 : S1920x128.ShapeCasts S8x240x128
  slices_S8x240x128_o0_0_0_S8x240x32 : S8x240x128.Slices ![0, 0, 0] S8x240x32
  slices_S8x240x128_o0_0_32_S8x240x32 : S8x240x128.Slices ![0, 0, 32] S8x240x32
  slices_S8x240x128_o0_0_64_S8x240x32 : S8x240x128.Slices ![0, 0, 64] S8x240x32
  slices_S8x240x128_o0_0_96_S8x240x32 : S8x240x128.Slices ![0, 0, 96] S8x240x32
  inb_S1x32_S1x32_0_0 : ∀ a, (![0, 0] : Fin 2 → Nat) a + S1x32.size a ≤ S1x32.size a
  h_S1x32 : 0 < S1x32.numel
  shapeCasts_S1x32_S1x1x32 : S1x32.ShapeCasts S1x1x32
  broadcasts_S1x1x32_S8x240x32 : S1x1x32.Broadcasts S8x240x32
  inb_S8x240x32_S8x240x32_0_0_0 : ∀ a, (![0, 0, 0] : Fin 3 → Nat) a + S8x240x32.size a ≤ S8x240x32.size a
  h_S8x240x32 : 0 < S8x240x32.numel
  packedbf16_S8x240x32_S8x240x32_0_0_0 : (Rect.unit (s := S8x240x32) ![0, 0, 0] S8x240x32.size inb_S8x240x32_S8x240x32_0_0_0).PackedRows (EltTy.packing .bf16)
  shapeCasts_S2048x240x32_S2048x15x16x32 : S2048x240x32.ShapeCasts S2048x15x16x32
  slices_S2048x15x16x32_S2048x15x15x32_0_0_0_0 : S2048x15x16x32.Slices ![0, 0, 0, 0] S2048x15x15x32
  pads_S2048x15x15x32_S2048x16x16x32_000_010_010_000 : S2048x15x15x32.Pads (![0, 0, 0, 0] : Fin 4 → Nat) ![0, 1, 1, 0] ![0, 0, 0, 0] S2048x16x16x32
  shapeCasts_S2048x16x16x32_S2048x8x2x8x2x32 : S2048x16x16x32.ShapeCasts S2048x8x2x8x2x32
  transposes_S2048x8x2x8x2x32_S2048x8x8x2x2x32_0_1_3_2_4_5 : S2048x8x2x8x2x32.Transposes [0, 1, 3, 2, 4, 5] S2048x8x8x2x2x32
  shapeCasts_S2048x8x8x2x2x32_S2048x8x8x128 : S2048x8x8x2x2x32.ShapeCasts S2048x8x8x128
  pads_S2048x8x8x128_S2048x9x8x128_000_010_000_000 : S2048x8x8x128.Pads (![0, 0, 0, 0] : Fin 4 → Nat) ![0, 1, 0, 0] ![0, 0, 0, 0] S2048x9x8x128
  shapeCasts_S2048x9x8x128_S2048x72x128 : S2048x9x8x128.ShapeCasts S2048x72x128
  shapeCasts_S4x128x256_S512x256 : S4x128x256.ShapeCasts S512x256
  inb_S8x72x128_S8x48x128_0_0_0 : ∀ a, (![0, 0, 0] : Fin 3 → Nat) a + S8x48x128.size a ≤ S8x72x128.size a
  h_S8x48x128 : 0 < S8x48x128.numel
  shapeCasts_S8x48x128_S8x48x128 : S8x48x128.ShapeCasts S8x48x128
  inb_S8x72x128_S8x48x128_0_1_0 : ∀ a, (![0, 1, 0] : Fin 3 → Nat) a + S8x48x128.size a ≤ S8x72x128.size a
  inb_S8x72x128_S8x48x128_0_8_0 : ∀ a, (![0, 8, 0] : Fin 3 → Nat) a + S8x48x128.size a ≤ S8x72x128.size a
  inb_S8x72x128_S8x48x128_0_9_0 : ∀ a, (![0, 9, 0] : Fin 3 → Nat) a + S8x48x128.size a ≤ S8x72x128.size a
  concatenates_S8x48x128_S8x48x128_S8x48x128_S8x48x128_S8x48x512_d2 : Shape.Concatenates [S8x48x128, S8x48x128, S8x48x128, S8x48x128] S8x48x512 2
  shapeCasts_S8x48x512_S384x512 : S8x48x512.ShapeCasts S384x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S384x256_S8x48x256 : S384x256.ShapeCasts S8x48x256
  slices_S8x48x256_o0_0_0_S8x48x64 : S8x48x256.Slices ![0, 0, 0] S8x48x64
  slices_S8x48x256_o0_0_64_S8x48x64 : S8x48x256.Slices ![0, 0, 64] S8x48x64
  slices_S8x48x256_o0_0_128_S8x48x64 : S8x48x256.Slices ![0, 0, 128] S8x48x64
  slices_S8x48x256_o0_0_192_S8x48x64 : S8x48x256.Slices ![0, 0, 192] S8x48x64
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  broadcasts_S1x1x64_S8x48x64 : S1x1x64.Broadcasts S8x48x64
  inb_S8x48x64_S8x48x64_0_0_0 : ∀ a, (![0, 0, 0] : Fin 3 → Nat) a + S8x48x64.size a ≤ S8x48x64.size a
  h_S8x48x64 : 0 < S8x48x64.numel
  packedbf16_S8x48x64_S8x48x64_0_0_0 : (Rect.unit (s := S8x48x64) ![0, 0, 0] S8x48x64.size inb_S8x48x64_S8x48x64_0_0_0).PackedRows (EltTy.packing .bf16)
  shapeCasts_S2048x48x64_S2048x6x8x64 : S2048x48x64.ShapeCasts S2048x6x8x64
  slices_S2048x6x8x64_S2048x6x6x64_0_0_0_0 : S2048x6x8x64.Slices ![0, 0, 0, 0] S2048x6x6x64
  shapeCasts_S2048x6x6x64_S2048x2304 : S2048x6x6x64.ShapeCasts S2048x2304
  pads_S2048x2304_S2048x2304_000_000 : S2048x2304.Pads (![0, 0] : Fin 2 → Nat) ![0, 0] ![0, 0] S2048x2304
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  inb_S2304x128_S2304x128_0_0 : ∀ a, (![0, 0] : Fin 2 → Nat) a + S2304x128.size a ≤ S2304x128.size a
  h_S2304x128 : 0 < S2304x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S128x84_S128x84_0_0 : ∀ a, (![0, 0] : Fin 2 → Nat) a + S128x84.size a ≤ S128x84.size a
  h_S128x84 : 0 < S128x84.numel
  inb_S1x84_S1x84_0_0 : ∀ a, (![0, 0] : Fin 2 → Nat) a + S1x84.size a ≤ S1x84.size a
  h_S1x84 : 0 < S1x84.numel
  broadcasts_S1x84_S256x84 : S1x84.Broadcasts S256x84
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  broadcasts_S1x10_S256x10 : S1x10.Broadcasts S256x10
  inb_S256x84_S256x84_0_0 : ∀ a, (![0, 0] : Fin 2 → Nat) a + S256x84.size a ≤ S256x84.size a
  h_S256x84 : 0 < S256x84.numel
  inb_S256x10_S256x10_0_0 : ∀ a, (![0, 0] : Fin 2 → Nat) a + S256x10.size a ≤ S256x10.size a
  h_S256x10 : 0 < S256x10.numel
  dot_S1920x48_S48x128_S1920x128_1_0_0_1_n_n_wf : DotDims.WF S1920x48 S48x128 S1920x128 [1] [0] [0] [1] [] []
  dot_S384x512_S512x256_S384x256_1_0_0_1_n_n_wf : DotDims.WF S384x512 S512x256 S384x256 [1] [0] [0] [1] [] []
  dot_S256x2304_S2304x128_S256x128_1_0_0_1_n_n_wf : DotDims.WF S256x2304 S2304x128 S256x128 [1] [0] [0] [1] [] []
  dot_S256x128_S128x84_S256x84_1_0_0_1_n_n_wf : DotDims.WF S256x128 S128x84 S256x84 [1] [0] [0] [1] [] []
  dot_S256x84_S84x10_S256x10_1_0_0_1_n_n_wf : DotDims.WF S256x84 S84x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x272x12.size a ≤ S2048x272x12.size a
  hwx0_0 : ∀ i : grid0.Coords, EltTy.bits .bf16 = 32 ∨ (Rect.block (s := S2048x272x12) S8x272x12.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x128.size a ≤ S48x128.size a
  hwx0_1 : ∀ i : grid0.Coords, EltTy.bits .bf16 = 32 ∨ (Rect.block (s := S48x128) S48x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x240x32.size a ≤ S2048x240x32.size a
  hwx0_3 : ∀ i : grid0.Coords, EltTy.bits .bf16 = 32 ∨ (Rect.block (s := S2048x240x32) S8x240x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x72x128.size a ≤ S2048x72x128.size a
  hwx1_0 : ∀ i : grid1.Coords, EltTy.bits .bf16 = 32 ∨ (Rect.block (s := S2048x72x128) S8x72x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x48x64.size a ≤ S2048x48x64.size a
  hwx1_3 : ∀ i : grid1.Coords, EltTy.bits .bf16 = 32 ∨ (Rect.block (s := S2048x48x64) S8x48x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2304.size a ≤ S2048x2304.size a
  hwx2_0 : ∀ i : grid2.Coords, EltTy.bits .bf16 = 32 ∨ (Rect.block (s := S2048x2304) S256x2304.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2304x128.size a ≤ S2304x128.size a
  hwx2_1 : ∀ i : grid2.Coords, EltTy.bits .bf16 = 32 ∨ (Rect.block (s := S2304x128) S2304x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x84.size a ≤ S128x84.size a
  hwx2_3 : ∀ i : grid2.Coords, EltTy.bits .f32 = 32 ∨ (Rect.block (s := S128x84) S128x84.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x84.size a ≤ S1x84.size a
  hwx2_4 : ∀ i : grid2.Coords, EltTy.bits .f32 = 32 ∨ (Rect.block (s := S1x84) S1x84.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S84x10.size a ≤ S84x10.size a
  hwx2_5 : ∀ i : grid2.Coords, EltTy.bits .f32 = 32 ∨ (Rect.block (s := S84x10) S84x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x84.size a ≤ S2048x84.size a
  hwx2_7 : ∀ i : grid2.Coords, EltTy.bits .f32 = 32 ∨ (Rect.block (s := S2048x84) S256x84.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x10.size a ≤ S2048x10.size a
  hwx2_8 : ∀ i : grid2.Coords, EltTy.bits .f32 = 32 ∨ (Rect.block (s := S2048x10) S256x10.size (cc2_transform_8 i) (hinb2_8 i)).WholeWords (EltTy.packing .f32)

variable [Facts₀]

def dot_S1920x48_S48x128_S1920x128_1_0_0_1_n_n : DotDims S1920x48 S48x128 S1920x128 where
  lhsContracting := [1]
  rhsContracting := [0]
  lhsNonContracting := [0]
  rhsNonContracting := [1]
  lhsBatch := []
  rhsBatch := []
  wf := dot_S1920x48_S48x128_S1920x128_1_0_0_1_n_n_wf
def dot_S384x512_S512x256_S384x256_1_0_0_1_n_n : DotDims S384x512 S512x256 S384x256 where
  lhsContracting := [1]
  rhsContracting := [0]
  lhsNonContracting := [0]
  rhsNonContracting := [1]
  lhsBatch := []
  rhsBatch := []
  wf := dot_S384x512_S512x256_S384x256_1_0_0_1_n_n_wf
def dot_S256x2304_S2304x128_S256x128_1_0_0_1_n_n : DotDims S256x2304 S2304x128 S256x128 where
  lhsContracting := [1]
  rhsContracting := [0]
  lhsNonContracting := [0]
  rhsNonContracting := [1]
  lhsBatch := []
  rhsBatch := []
  wf := dot_S256x2304_S2304x128_S256x128_1_0_0_1_n_n_wf
def dot_S256x128_S128x84_S256x84_1_0_0_1_n_n : DotDims S256x128 S128x84 S256x84 where
  lhsContracting := [1]
  rhsContracting := [0]
  lhsNonContracting := [0]
  rhsNonContracting := [1]
  lhsBatch := []
  rhsBatch := []
  wf := dot_S256x128_S128x84_S256x84_1_0_0_1_n_n_wf
def dot_S256x84_S84x10_S256x10_1_0_0_1_n_n : DotDims S256x84 S84x10 S256x10 where
  lhsContracting := [1]
  rhsContracting := [0]
  lhsNonContracting := [0]
  rhsNonContracting := [1]
  lhsBatch := []
  rhsBatch := []
  wf := dot_S256x84_S84x10_S256x10_1_0_0_1_n_n_wf

abbrev win0_0 : Pipeline.Window sig grid0 :=
  Pipeline.Window.ofSpec (Memref.whole main_v7) S8x272x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S48x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x240x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S8x72x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S8x48x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S256x2304.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S2304x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x84.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1x84.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S84x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v24_0) S256x84.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v24_1) S256x10.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4x12x128 : Shape := ⟨3, ![4, 12, 128]⟩
abbrev S1x32 : Shape := ⟨2, ![1, 32]⟩
abbrev S4x128x256 : Shape := ⟨3, ![4, 128, 256]⟩
abbrev S1x64 : Shape := ⟨2, ![1, 64]⟩
abbrev S2304x128 : Shape := ⟨2, ![2304, 128]⟩
abbrev S1x128 : Shape := ⟨2, ![1, 128]⟩
abbrev S128x84 : Shape := ⟨2, ![128, 84]⟩
abbrev S1x84 : Shape := ⟨2, ![1, 84]⟩
abbrev S84x10 : Shape := ⟨2, ![84, 10]⟩
abbrev S1x10 : Shape := ⟨2, ![1, 10]⟩
abbrev S2048x3x32x32 : Shape := ⟨4, ![2048, 3, 32, 32]⟩
abbrev S2048x32x32x3 : Shape := ⟨4, ![2048, 32, 32, 3]⟩
abbrev S_ : Shape := ⟨0, ![]⟩
abbrev S2048x16x2x16x2x3 : Shape := ⟨6, ![2048, 16, 2, 16, 2, 3]⟩
abbrev S2048x16x16x2x2x3 : Shape := ⟨6, ![2048, 16, 16, 2, 2, 3]⟩
abbrev S2048x16x16x12 : Shape := ⟨4, ![2048, 16, 16, 12]⟩
abbrev S2048x17x16x12 : Shape := ⟨4, ![2048, 17, 16, 12]⟩
abbrev S2048x272x12 : Shape := ⟨3, ![2048, 272, 12]⟩
abbrev S2048x240x32 : Shape := ⟨3, ![2048, 240, 32]⟩
abbrev S1x272x12 : Shape := ⟨3, ![1, 272, 12]⟩
abbrev S1x240x32 : Shape := ⟨3, ![1, 240, 32]⟩
abbrev S1x240x12 : Shape := ⟨3, ![1, 240, 12]⟩
abbrev S240x12 : Shape := ⟨2, ![240, 12]⟩
abbrev S1x12x128 : Shape := ⟨3, ![1, 12, 128]⟩
abbrev S12x128 : Shape := ⟨2, ![12, 128]⟩
abbrev S240x128 : Shape := ⟨2, ![240, 128]⟩
abbrev S240x32 : Shape := ⟨2, ![240, 32]⟩
abbrev S2048x15x16x32 : Shape := ⟨4, ![2048, 15, 16, 32]⟩
abbrev S2048x15x15x32 : Shape := ⟨4, ![2048, 15, 15, 32]⟩
abbrev S2048x16x16x32 : Shape := ⟨4, ![2048, 16, 16, 32]⟩
abbrev S2048x8x2x8x2x32 : Shape := ⟨6, ![2048, 8, 2, 8, 2, 32]⟩
abbrev S2048x8x8x2x2x32 : Shape := ⟨6, ![2048, 8, 8, 2, 2, 32]⟩
abbrev S2048x8x8x128 : Shape := ⟨4, ![2048, 8, 8, 128]⟩
abbrev S2048x9x8x128 : Shape := ⟨4, ![2048, 9, 8, 128]⟩
abbrev S2048x72x128 : Shape := ⟨3, ![2048, 72, 128]⟩
abbrev S2048x48x64 : Shape := ⟨3, ![2048, 48, 64]⟩
abbrev S1x72x128 : Shape := ⟨3, ![1, 72, 128]⟩
abbrev S1x48x64 : Shape := ⟨3, ![1, 48, 64]⟩
abbrev S1x48x128 : Shape := ⟨3, ![1, 48, 128]⟩
abbrev S48x128 : Shape := ⟨2, ![48, 128]⟩
abbrev S1x128x256 : Shape := ⟨3, ![1, 128, 256]⟩
abbrev S128x256 : Shape := ⟨2, ![128, 256]⟩
abbrev S48x256 : Shape := ⟨2, ![48, 256]⟩
abbrev S48x64 : Shape := ⟨2, ![48, 64]⟩
abbrev S2048x6x8x64 : Shape := ⟨4, ![2048, 6, 8, 64]⟩
abbrev S2048x6x6x64 : Shape := ⟨4, ![2048, 6, 6, 64]⟩
abbrev S2048x2304 : Shape := ⟨2, ![2048, 2304]⟩
abbrev S2048x84 : Shape := ⟨2, ![2048, 84]⟩
abbrev S2048x10 : Shape := ⟨2, ![2048, 10]⟩
abbrev S128x2304 : Shape := ⟨2, ![128, 2304]⟩
abbrev S128x10 : Shape := ⟨2, ![128, 10]⟩
abbrev S128x128 : Shape := ⟨2, ![128, 128]⟩

abbrev nBuf : Space → Nat
  | .hbm => 45
  | .vmem => 24
  | .smem => 0
  | _ => 0

abbrev bufTy : (tb : Table) → Fin (tcTables nBuf tb) → BufTy
  | .hbm, ⟨0, _⟩ => ⟨S4x12x128, .bf16⟩
  | .hbm, ⟨1, _⟩ => ⟨S1x32, .f32⟩
  | .hbm, ⟨2, _⟩ => ⟨S4x128x256, .bf16⟩
  | .hbm, ⟨3, _⟩ => ⟨S1x64, .f32⟩
  | .hbm, ⟨4, _⟩ => ⟨S2304x128, .bf16⟩
  | .hbm, ⟨5, _⟩ => ⟨S1x128, .f32⟩
  | .hbm, ⟨6, _⟩ => ⟨S128x84, .f32⟩
  | .hbm, ⟨7, _⟩ => ⟨S1x84, .f32⟩
  | .hbm, ⟨8, _⟩ => ⟨S84x10, .f32⟩
  | .hbm, ⟨9, _⟩ => ⟨S1x10, .f32⟩
  | .hbm, ⟨10, _⟩ => ⟨S2048x3x32x32, .f32⟩
  | .hbm, ⟨11, _⟩ => ⟨S2048x32x32x3, .f32⟩
  | .hbm, ⟨12, _⟩ => ⟨S2048x32x32x3, .bf16⟩
  | .hbm, ⟨13, _⟩ => ⟨S_, .i32⟩
  | .hbm, ⟨14, _⟩ => ⟨S_, .bf16⟩
  | .hbm, ⟨15, _⟩ => ⟨S2048x32x32x3, .bf16⟩
  | .hbm, ⟨16, _⟩ => ⟨S2048x16x2x16x2x3, .bf16⟩
  | .hbm, ⟨17, _⟩ => ⟨S2048x16x16x2x2x3, .bf16⟩
  | .hbm, ⟨18, _⟩ => ⟨S2048x16x16x12, .bf16⟩
  | .hbm, ⟨19, _⟩ => ⟨S_, .i32⟩
  | .hbm, ⟨20, _⟩ => ⟨S_, .bf16⟩
  | .hbm, ⟨21, _⟩ => ⟨S2048x17x16x12, .bf16⟩
  | .hbm, ⟨22, _⟩ => ⟨S2048x272x12, .bf16⟩
  | .hbm, ⟨23, _⟩ => ⟨S2048x240x32, .bf16⟩
  | .hbm, ⟨24, _⟩ => ⟨S2048x15x16x32, .bf16⟩
  | .hbm, ⟨25, _⟩ => ⟨S2048x15x15x32, .bf16⟩
  | .hbm, ⟨26, _⟩ => ⟨S_, .i32⟩
  | .hbm, ⟨27, _⟩ => ⟨S_, .bf16⟩
  | .hbm, ⟨28, _⟩ => ⟨S2048x16x16x32, .bf16⟩
  | .hbm, ⟨29, _⟩ => ⟨S2048x8x2x8x2x32, .bf16⟩
  | .hbm, ⟨30, _⟩ => ⟨S2048x8x8x2x2x32, .bf16⟩
  | .hbm, ⟨31, _⟩ => ⟨S2048x8x8x128, .bf16⟩
  | .hbm, ⟨32, _⟩ => ⟨S_, .i32⟩
  | .hbm, ⟨33, _⟩ => ⟨S_, .bf16⟩
  | .hbm, ⟨34, _⟩ => ⟨S2048x9x8x128, .bf16⟩
  | .hbm, ⟨35, _⟩ => ⟨S2048x72x128, .bf16⟩
  | .hbm, ⟨36, _⟩ => ⟨S2048x48x64, .bf16⟩
  | .hbm, ⟨37, _⟩ => ⟨S2048x6x8x64, .bf16⟩
  | .hbm, ⟨38, _⟩ => ⟨S2048x6x6x64, .bf16⟩
  | .hbm, ⟨39, _⟩ => ⟨S2048x2304, .bf16⟩
  | .hbm, ⟨40, _⟩ => ⟨S_, .i32⟩
  | .hbm, ⟨41, _⟩ => ⟨S_, .bf16⟩
  | .hbm, ⟨42, _⟩ => ⟨S2048x2304, .bf16⟩
  | .hbm, ⟨43, _⟩ => ⟨S2048x84, .f32⟩
  | .hbm, ⟨44, _⟩ => ⟨S2048x10, .f32⟩
  | .local _ .vmem, ⟨0, _⟩ => ⟨S1x272x12, .bf16⟩
  | .local _ .vmem, ⟨1, _⟩ => ⟨S1x272x12, .bf16⟩
  | .local _ .vmem, ⟨2, _⟩ => ⟨S4x12x128, .bf16⟩
  | .local _ .vmem, ⟨3, _⟩ => ⟨S1x32, .f32⟩
  | .local _ .vmem, ⟨4, _⟩ => ⟨S1x240x32, .bf16⟩
  | .local _ .vmem, ⟨5, _⟩ => ⟨S1x240x32, .bf16⟩
  | .local _ .vmem, ⟨6, _⟩ => ⟨S1x72x128, .bf16⟩
  | .local _ .vmem, ⟨7, _⟩ => ⟨S1x72x128, .bf16⟩
  | .local _ .vmem, ⟨8, _⟩ => ⟨S4x128x256, .bf16⟩
  | .local _ .vmem, ⟨9, _⟩ => ⟨S1x64, .f32⟩
  | .local _ .vmem, ⟨10, _⟩ => ⟨S1x48x64, .bf16⟩
  | .local _ .vmem, ⟨11, _⟩ => ⟨S1x48x64, .bf16⟩
  | .local _ .vmem, ⟨12, _⟩ => ⟨S128x2304, .bf16⟩
  | .local _ .vmem, ⟨13, _⟩ => ⟨S128x2304, .bf16⟩
  | .local _ .vmem, ⟨14, _⟩ => ⟨S2304x128, .bf16⟩
  | .local _ .vmem, ⟨15, _⟩ => ⟨S1x128, .f32⟩
  | .local _ .vmem, ⟨16, _⟩ => ⟨S128x84, .f32⟩
  | .local _ .vmem, ⟨17, _⟩ => ⟨S1x84, .f32⟩
  | .local _ .vmem, ⟨18, _⟩ => ⟨S84x10, .f32⟩
  | .local _ .vmem, ⟨19, _⟩ => ⟨S1x10, .f32⟩
  | .local _ .vmem, ⟨20, _⟩ => ⟨S128x84, .f32⟩
  | .local _ .vmem, ⟨21, _⟩ => ⟨S128x84, .f32⟩
  | .local _ .vmem, ⟨22, _⟩ => ⟨S128x10, .f32⟩
  | .local _ .vmem, ⟨23, _⟩ => ⟨S128x10, .f32⟩
  | _, _ => ⟨S4x12x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_call3_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_call4_v0 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x272x12 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x240x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2048], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x72x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x48x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2304 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2304x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x84 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x84 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S84x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x84 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S128x10 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  transposes_S2048x3x32x32_S2048x32x32x3_0_2_3_1 : S2048x3x32x32.Transposes [0, 2, 3, 1] S2048x32x32x3
  bitsLt_bf16_f32 : FTy.bits .bf16 < FTy.bits .f32
  pads_S2048x32x32x3_S2048x32x32x3_000_000_000_000 : S2048x32x32x3.Pads (![0, 0, 0, 0] : Fin 4 → Nat) ![0, 0, 0, 0] ![0, 0, 0, 0] S2048x32x32x3
  h_S_ : 0 < S_.numel
  shapeCasts_S2048x32x32x3_S2048x16x2x16x2x3 : S2048x32x32x3.ShapeCasts S2048x16x2x16x2x3
  transposes_S2048x16x2x16x2x3_S2048x16x16x2x2x3_0_1_3_2_4_5 : S2048x16x2x16x2x3.Transposes [0, 1, 3, 2, 4, 5] S2048x16x16x2x2x3
  shapeCasts_S2048x16x16x2x2x3_S2048x16x16x12 : S2048x16x16x2x2x3.ShapeCasts S2048x16x16x12
  pads_S2048x16x16x12_S2048x17x16x12_000_010_000_000 : S2048x16x16x12.Pads (![0, 0, 0, 0] : Fin 4 → Nat) ![0, 1, 0, 0] ![0, 0, 0, 0] S2048x17x16x12
  shapeCasts_S2048x17x16x12_S2048x272x12 : S2048x17x16x12.ShapeCasts S2048x272x12
  inb_S1x272x12_S1x240x12_0_0_0 : ∀ a, (![0, 0, 0] : Fin 3 → Nat) a + S1x240x12.size a ≤ S1x272x12.size a
  h_S1x240x12 : 0 < S1x240x12.numel
  shapeCasts_S1x240x12_S240x12 : S1x240x12.ShapeCasts S240x12
  inb_S4x12x128_S1x12x128_0_0_0 : ∀ a, (![0, 0, 0] : Fin 3 → Nat) a + S1x12x128.size a ≤ S4x12x128.size a
  h_S1x12x128 : 0 < S1x12x128.numel
  shapeCasts_S1x12x128_S12x128 : S1x12x128.ShapeCasts S12x128
  inb_S1x272x12_S1x240x12_0_1_0 : ∀ a, (![0, 1, 0] : Fin 3 → Nat) a + S1x240x12.size a ≤ S1x272x12.size a
  inb_S4x12x128_S1x12x128_1_0_0 : ∀ a, (![1, 0, 0] : Fin 3 → Nat) a + S1x12x128.size a ≤ S4x12x128.size a
  inb_S1x272x12_S1x240x12_0_16_0 : ∀ a, (![0, 16, 0] : Fin 3 → Nat) a + S1x240x12.size a ≤ S1x272x12.size a
  inb_S4x12x128_S1x12x128_2_0_0 : ∀ a, (![2, 0, 0] : Fin 3 → Nat) a + S1x12x128.size a ≤ S4x12x128.size a
  inb_S1x272x12_S1x240x12_0_17_0 : ∀ a, (![0, 17, 0] : Fin 3 → Nat) a + S1x240x12.size a ≤ S1x272x12.size a
  inb_S4x12x128_S1x12x128_3_0_0 : ∀ a, (![3, 0, 0] : Fin 3 → Nat) a + S1x12x128.size a ≤ S4x12x128.size a
  slices_S240x128_o0_0_S240x32 : S240x128.Slices ![0, 0] S240x32
  slices_S240x128_o0_32_S240x32 : S240x128.Slices ![0, 32] S240x32
  slices_S240x128_o0_64_S240x32 : S240x128.Slices ![0, 64] S240x32
  slices_S240x128_o0_96_S240x32 : S240x128.Slices ![0, 96] S240x32
  inb_S1x32_S1x32_0_0 : ∀ a, (![0, 0] : Fin 2 → Nat) a + S1x32.size a ≤ S1x32.size a
  h_S1x32 : 0 < S1x32.numel
  broadcasts_S1x32_S240x32 : S1x32.Broadcasts S240x32
  inb_S1x240x32_S1x240x32_0_0_0 : ∀ a, (![0, 0, 0] : Fin 3 → Nat) a + S1x240x32.size a ≤ S1x240x32.size a
  h_S1x240x32 : 0 < S1x240x32.numel
  shapeCasts_S1x240x32_S240x32 : S1x240x32.ShapeCasts S240x32
  shapeCasts_S240x32_S1x240x32 : S240x32.ShapeCasts S1x240x32
  packedbf16_S1x240x32_S1x240x32_0_0_0 : (Rect.unit (s := S1x240x32) ![0, 0, 0] S1x240x32.size inb_S1x240x32_S1x240x32_0_0_0).PackedRows (EltTy.packing .bf16)
  shapeCasts_S2048x240x32_S2048x15x16x32 : S2048x240x32.ShapeCasts S2048x15x16x32
  slices_S2048x15x16x32_S2048x15x15x32_0_0_0_0 : S2048x15x16x32.Slices ![0, 0, 0, 0] S2048x15x15x32
  pads_S2048x15x15x32_S2048x16x16x32_000_010_010_000 : S2048x15x15x32.Pads (![0, 0, 0, 0] : Fin 4 → Nat) ![0, 1, 1, 0] ![0, 0, 0, 0] S2048x16x16x32
  shapeCasts_S2048x16x16x32_S2048x8x2x8x2x32 : S2048x16x16x32.ShapeCasts S2048x8x2x8x2x32
  transposes_S2048x8x2x8x2x32_S2048x8x8x2x2x32_0_1_3_2_4_5 : S2048x8x2x8x2x32.Transposes [0, 1, 3, 2, 4, 5] S2048x8x8x2x2x32
  shapeCasts_S2048x8x8x2x2x32_S2048x8x8x128 : S2048x8x8x2x2x32.ShapeCasts S2048x8x8x128
  pads_S2048x8x8x128_S2048x9x8x128_000_010_000_000 : S2048x8x8x128.Pads (![0, 0, 0, 0] : Fin 4 → Nat) ![0, 1, 0, 0] ![0, 0, 0, 0] S2048x9x8x128
  shapeCasts_S2048x9x8x128_S2048x72x128 : S2048x9x8x128.ShapeCasts S2048x72x128
  inb_S1x72x128_S1x48x128_0_0_0 : ∀ a, (![0, 0, 0] : Fin 3 → Nat) a + S1x48x128.size a ≤ S1x72x128.size a
  h_S1x48x128 : 0 < S1x48x128.numel
  shapeCasts_S1x48x128_S48x128 : S1x48x128.ShapeCasts S48x128
  inb_S4x128x256_S1x128x256_0_0_0 : ∀ a, (![0, 0, 0] : Fin 3 → Nat) a + S1x128x256.size a ≤ S4x128x256.size a
  h_S1x128x256 : 0 < S1x128x256.numel
  shapeCasts_S1x128x256_S128x256 : S1x128x256.ShapeCasts S128x256
  inb_S1x72x128_S1x48x128_0_1_0 : ∀ a, (![0, 1, 0] : Fin 3 → Nat) a + S1x48x128.size a ≤ S1x72x128.size a
  inb_S4x128x256_S1x128x256_1_0_0 : ∀ a, (![1, 0, 0] : Fin 3 → Nat) a + S1x128x256.size a ≤ S4x128x256.size a
  inb_S1x72x128_S1x48x128_0_8_0 : ∀ a, (![0, 8, 0] : Fin 3 → Nat) a + S1x48x128.size a ≤ S1x72x128.size a
  inb_S4x128x256_S1x128x256_2_0_0 : ∀ a, (![2, 0, 0] : Fin 3 → Nat) a + S1x128x256.size a ≤ S4x128x256.size a
  inb_S1x72x128_S1x48x128_0_9_0 : ∀ a, (![0, 9, 0] : Fin 3 → Nat) a + S1x48x128.size a ≤ S1x72x128.size a
  inb_S4x128x256_S1x128x256_3_0_0 : ∀ a, (![3, 0, 0] : Fin 3 → Nat) a + S1x128x256.size a ≤ S4x128x256.size a
  slices_S48x256_o0_0_S48x64 : S48x256.Slices ![0, 0] S48x64
  slices_S48x256_o0_64_S48x64 : S48x256.Slices ![0, 64] S48x64
  slices_S48x256_o0_128_S48x64 : S48x256.Slices ![0, 128] S48x64
  slices_S48x256_o0_192_S48x64 : S48x256.Slices ![0, 192] S48x64
  inb_S1x64_S1x64_0_0 : ∀ a, (![0, 0] : Fin 2 → Nat) a + S1x64.size a ≤ S1x64.size a
  h_S1x64 : 0 < S1x64.numel
  broadcasts_S1x64_S48x64 : S1x64.Broadcasts S48x64
  inb_S1x48x64_S1x48x64_0_0_0 : ∀ a, (![0, 0, 0] : Fin 3 → Nat) a + S1x48x64.size a ≤ S1x48x64.size a
  h_S1x48x64 : 0 < S1x48x64.numel
  shapeCasts_S1x48x64_S48x64 : S1x48x64.ShapeCasts S48x64
  shapeCasts_S48x64_S1x48x64 : S48x64.ShapeCasts S1x48x64
  packedbf16_S1x48x64_S1x48x64_0_0_0 : (Rect.unit (s := S1x48x64) ![0, 0, 0] S1x48x64.size inb_S1x48x64_S1x48x64_0_0_0).PackedRows (EltTy.packing .bf16)
  shapeCasts_S2048x48x64_S2048x6x8x64 : S2048x48x64.ShapeCasts S2048x6x8x64
  slices_S2048x6x8x64_S2048x6x6x64_0_0_0_0 : S2048x6x8x64.Slices ![0, 0, 0, 0] S2048x6x6x64
  shapeCasts_S2048x6x6x64_S2048x2304 : S2048x6x6x64.ShapeCasts S2048x2304
  pads_S2048x2304_S2048x2304_000_000 : S2048x2304.Pads (![0, 0] : Fin 2 → Nat) ![0, 0] ![0, 0] S2048x2304
  inb_S128x2304_S128x2304_0_0 : ∀ a, (![0, 0] : Fin 2 → Nat) a + S128x2304.size a ≤ S128x2304.size a
  h_S128x2304 : 0 < S128x2304.numel
  shapeCasts_S128x2304_S128x2304 : S128x2304.ShapeCasts S128x2304
  inb_S2304x128_S2304x128_0_0 : ∀ a, (![0, 0] : Fin 2 → Nat) a + S2304x128.size a ≤ S2304x128.size a
  h_S2304x128 : 0 < S2304x128.numel
  inb_S1x128_S1x128_0_0 : ∀ a, (![0, 0] : Fin 2 → Nat) a + S1x128.size a ≤ S1x128.size a
  h_S1x128 : 0 < S1x128.numel
  broadcasts_S1x128_S128x128 : S1x128.Broadcasts S128x128
  inb_S128x84_S128x84_0_0 : ∀ a, (![0, 0] : Fin 2 → Nat) a + S128x84.size a ≤ S128x84.size a
  h_S128x84 : 0 < S128x84.numel
  inb_S1x84_S1x84_0_0 : ∀ a, (![0, 0] : Fin 2 → Nat) a + S1x84.size a ≤ S1x84.size a
  h_S1x84 : 0 < S1x84.numel
  broadcasts_S1x84_S128x84 : S1x84.Broadcasts S128x84
  inb_S84x10_S84x10_0_0 : ∀ a, (![0, 0] : Fin 2 → Nat) a + S84x10.size a ≤ S84x10.size a
  h_S84x10 : 0 < S84x10.numel
  inb_S1x10_S1x10_0_0 : ∀ a, (![0, 0] : Fin 2 → Nat) a + S1x10.size a ≤ S1x10.size a
  h_S1x10 : 0 < S1x10.numel
  broadcasts_S1x10_S128x10 : S1x10.Broadcasts S128x10
  inb_S128x10_S128x10_0_0 : ∀ a, (![0, 0] : Fin 2 → Nat) a + S128x10.size a ≤ S128x10.size a
  h_S128x10 : 0 < S128x10.numel
  dot_S240x12_S12x128_S240x128_1_0_0_1_n_n_wf : DotDims.WF S240x12 S12x128 S240x128 [1] [0] [0] [1] [] []
  dot_S48x128_S128x256_S48x256_1_0_0_1_n_n_wf : DotDims.WF S48x128 S128x256 S48x256 [1] [0] [0] [1] [] []
  dot_S128x2304_S2304x128_S128x128_1_0_0_1_n_n_wf : DotDims.WF S128x2304 S2304x128 S128x128 [1] [0] [0] [1] [] []
  dot_S128x128_S128x84_S128x84_1_0_0_1_n_n_wf : DotDims.WF S128x128 S128x84 S128x84 [1] [0] [0] [1] [] []
  dot_S128x84_S84x10_S128x10_1_0_0_1_n_n_wf : DotDims.WF S128x84 S84x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x272x12.size a ≤ S2048x272x12.size a
  hwx0_0 : ∀ i : grid0.Coords, EltTy.bits .bf16 = 32 ∨ (Rect.block (s := S2048x272x12) S1x272x12.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x12x128.size a ≤ S4x12x128.size a
  hwx0_1 : ∀ i : grid0.Coords, EltTy.bits .bf16 = 32 ∨ (Rect.block (s := S4x12x128) S4x12x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x240x32.size a ≤ S2048x240x32.size a
  hwx0_3 : ∀ i : grid0.Coords, EltTy.bits .bf16 = 32 ∨ (Rect.block (s := S2048x240x32) S1x240x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x72x128.size a ≤ S2048x72x128.size a
  hwx1_0 : ∀ i : grid1.Coords, EltTy.bits .bf16 = 32 ∨ (Rect.block (s := S2048x72x128) S1x72x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128x256.size a ≤ S4x128x256.size a
  hwx1_1 : ∀ i : grid1.Coords, EltTy.bits .bf16 = 32 ∨ (Rect.block (s := S4x128x256) S4x128x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x48x64.size a ≤ S2048x48x64.size a
  hwx1_3 : ∀ i : grid1.Coords, EltTy.bits .bf16 = 32 ∨ (Rect.block (s := S2048x48x64) S1x48x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2304.size a ≤ S2048x2304.size a
  hwx2_0 : ∀ i : grid2.Coords, EltTy.bits .bf16 = 32 ∨ (Rect.block (s := S2048x2304) S128x2304.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2304x128.size a ≤ S2304x128.size a
  hwx2_1 : ∀ i : grid2.Coords, EltTy.bits .bf16 = 32 ∨ (Rect.block (s := S2304x128) S2304x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x84.size a ≤ S128x84.size a
  hwx2_3 : ∀ i : grid2.Coords, EltTy.bits .f32 = 32 ∨ (Rect.block (s := S128x84) S128x84.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x84.size a ≤ S1x84.size a
  hwx2_4 : ∀ i : grid2.Coords, EltTy.bits .f32 = 32 ∨ (Rect.block (s := S1x84) S1x84.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S84x10.size a ≤ S84x10.size a
  hwx2_5 : ∀ i : grid2.Coords, EltTy.bits .f32 = 32 ∨ (Rect.block (s := S84x10) S84x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x84.size a ≤ S2048x84.size a
  hwx2_7 : ∀ i : grid2.Coords, EltTy.bits .f32 = 32 ∨ (Rect.block (s := S2048x84) S128x84.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S128x10.size a ≤ S2048x10.size a
  hwx2_8 : ∀ i : grid2.Coords, EltTy.bits .f32 = 32 ∨ (Rect.block (s := S2048x10) S128x10.size (cc2_transform_8 i) (hinb2_8 i)).WholeWords (EltTy.packing .f32)

variable [Facts₀]

def dot_S240x12_S12x128_S240x128_1_0_0_1_n_n : DotDims S240x12 S12x128 S240x128 where
  lhsContracting := [1]
  rhsContracting := [0]
  lhsNonContracting := [0]
  rhsNonContracting := [1]
  lhsBatch := []
  rhsBatch := []
  wf := dot_S240x12_S12x128_S240x128_1_0_0_1_n_n_wf
def dot_S48x128_S128x256_S48x256_1_0_0_1_n_n : DotDims S48x128 S128x256 S48x256 where
  lhsContracting := [1]
  rhsContracting := [0]
  lhsNonContracting := [0]
  rhsNonContracting := [1]
  lhsBatch := []
  rhsBatch := []
  wf := dot_S48x128_S128x256_S48x256_1_0_0_1_n_n_wf
def dot_S128x2304_S2304x128_S128x128_1_0_0_1_n_n : DotDims S128x2304 S2304x128 S128x128 where
  lhsContracting := [1]
  rhsContracting := [0]
  lhsNonContracting := [0]
  rhsNonContracting := [1]
  lhsBatch := []
  rhsBatch := []
  wf := dot_S128x2304_S2304x128_S128x128_1_0_0_1_n_n_wf
def dot_S128x128_S128x84_S128x84_1_0_0_1_n_n : DotDims S128x128 S128x84 S128x84 where
  lhsContracting := [1]
  rhsContracting := [0]
  lhsNonContracting := [0]
  rhsNonContracting := [1]
  lhsBatch := []
  rhsBatch := []
  wf := dot_S128x128_S128x84_S128x84_1_0_0_1_n_n_wf
def dot_S128x84_S84x10_S128x10_1_0_0_1_n_n : DotDims S128x84 S84x10 S128x10 where
  lhsContracting := [1]
  rhsContracting := [0]
  lhsNonContracting := [0]
  rhsNonContracting := [1]
  lhsBatch := []
  rhsBatch := []
  wf := dot_S128x84_S84x10_S128x10_1_0_0_1_n_n_wf

abbrev win0_0 : Pipeline.Window sig grid0 :=
  Pipeline.Window.ofSpec (Memref.whole main_v7) S1x272x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x12x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x240x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S1x72x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4x128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x48x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S128x2304.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S2304x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x84.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1x84.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S84x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v22_0) S128x84.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v22_1) S128x10.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== Proof.Spec.lean ====
/-
  The mathematics both programs compute, stated once over whole arrays of extended reals, index by index.

  A convolution stage reads a space-to-depth packed image `x[n, ρ, k]` (flat row ρ, packed channel k) and four
  shift-group weight blocks `w[g, k, j]`. Before pooling, column `j` at virtual-grid row `r` of image `n` is
      acc n r j = Σ_g Σ_k x[n, row g r, k] · w[g, k, j],
  where `row g r` is row `r` shifted by group `g`'s offset. The pooled output takes the maximum over the four
  column blocks `col q c`, adds the bias of channel `c` and clamps at zero:
      out n r c = max (max_q (acc n r (col q c)) + b[0, c]) 0.
  The same stage with the four weight blocks stacked along the contraction axis, `wk[e⁻¹(g, k), j] = w[g, k, j]`,
  sums over the stacked axis instead; a sum over a product of finite types is the iterated sum, so the two agree
  (`convPoolFlat_eq`). Nothing here needs finiteness: only commutativity and associativity of + on the extended reals.

  The fully connected stack is row-wise: h1 = max (x·W1 + b1) 0, h2 = max (h1·W2 + b2) 0, out = h2·W3 + b3.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- A rank-2 array of extended reals. -/
abbrev Arr2 (a b : Nat) : Type := (⟨2, ![a, b]⟩ : Shape).Idx → EReal
/-- A rank-3 array of extended reals. -/
abbrev Arr3 (a b c : Nat) : Type := (⟨3, ![a, b, c]⟩ : Shape).Idx → EReal

/-! ## The convolution stage -/

section Conv
variable {N Rin K KK J C M : Nat}

/-- Column `j` at row `r` of image `n` before pooling: the four shift groups' products summed. -/
def convAcc (row : Fin 4 → Fin M → Fin Rin) (x : Arr3 N Rin K) (w : Arr3 4 K J) (n : Fin N) (r : Fin M) (j : Fin J) : EReal :=
  ∑ g : Fin 4, ∑ k : Fin K, x (ix3 n (row g r) k) * w (ix3 g k j)

/-- The same column over weights stacked along the contraction axis: position `kk` of the stacked axis is shift
    group `(e kk).1`, packed channel `(e kk).2`. -/
def convAccFlat (e : Fin KK ≃ Fin 4 × Fin K) (row : Fin 4 → Fin M → Fin Rin) (x : Arr3 N Rin K) (wk : Arr2 KK J)
    (n : Fin N) (r : Fin M) (j : Fin J) : EReal :=
  ∑ kk : Fin KK, x (ix3 n (row (e kk).1 r) (e kk).2) * wk (ix2 kk j)

/-- Four pooled candidates, the bias added, clamped at zero. -/
def pooled (a0 a1 a2 a3 bias : EReal) : EReal := max (max (max a0 a1) (max a2 a3) + bias) 0

/-- The stage's output: pooled maximum over the four column blocks, plus bias, clamped at zero. -/
def convPool (row : Fin 4 → Fin M → Fin Rin) (col : Fin 4 → Fin C → Fin J) (x : Arr3 N Rin K) (w : Arr3 4 K J) (b : Arr2 1 C) :
    Arr3 N M C := fun i =>
  pooled (convAcc row x w (i 0) (i 1) (col 0 (i 2))) (convAcc row x w (i 0) (i 1) (col 1 (i 2)))
    (convAcc row x w (i 0) (i 1) (col 2 (i 2))) (convAcc row x w (i 0) (i 1) (col 3 (i 2))) (b (ix2 0 (i 2)))

/-- The stage's output over stacked weights. -/
def convPoolFlat (e : Fin KK ≃ Fin 4 × Fin K) (row : Fin 4 → Fin M → Fin Rin) (col : Fin 4 → Fin C → Fin J) (x : Arr3 N Rin K)
    (wk : Arr2 KK J) (b : Arr2 1 C) : Arr3 N M C := fun i =>
  pooled (convAccFlat e row x wk (i 0) (i 1) (col 0 (i 2))) (convAccFlat e row x wk (i 0) (i 1) (col 1 (i 2)))
    (convAccFlat e row x wk (i 0) (i 1) (col 2 (i 2))) (convAccFlat e row x wk (i 0) (i 1) (col 3 (i 2))) (b (ix2 0 (i 2)))

/-- The weights stacked along the contraction axis. -/
def stackW (e : Fin KK ≃ Fin 4 × Fin K) (w : Arr3 4 K J) : Arr2 KK J := fun q => w (ix3 (e (q 0)).1 (e (q 0)).2 (q 1))

/-- A sum over the stacked contraction axis is the sum over shift groups of the sums over packed channels. -/
theorem convAccFlat_eq (e : Fin KK ≃ Fin 4 × Fin K) (row : Fin 4 → Fin M → Fin Rin) (x : Arr3 N Rin K) (w : Arr3 4 K J)
    (n : Fin N) (r : Fin M) (j : Fin J) : convAccFlat e row x (stackW e w) n r j = convAcc row x w n r j := by
  unfold convAccFlat convAcc stackW
  rw [← Fintype.sum_prod_type' (f := fun g k => x (ix3 n (row g r) k) * w (ix3 g k j))]
  exact Fintype.sum_equiv e _ _ fun kk => rfl

theorem convPoolFlat_eq (e : Fin KK ≃ Fin 4 × Fin K) (row : Fin 4 → Fin M → Fin Rin) (col : Fin 4 → Fin C → Fin J)
    (x : Arr3 N Rin K) (w : Arr3 4 K J) (b : Arr2 1 C) :
    convPoolFlat e row col x (stackW e w) b = convPool row col x w b := by
  funext i
  unfold convPoolFlat convPool
  have h := fun j => convAccFlat_eq e row x w (i 0) (i 1) j
  rw [h, h, h, h]

end Conv

/-! ## The fully connected stack -/

section Fc
variable {N D H P Q : Nat}

def fcH1 (x : Arr2 N D) (w1 : Arr2 D H) (b1 : Arr2 1 H) (r : Fin N) (k : Fin H) : EReal :=
  max ((∑ j : Fin D, x (ix2 r j) * w1 (ix2 j k)) + b1 (ix2 0 k)) 0

def fcH2 (x : Arr2 N D) (w1 : Arr2 D H) (b1 : Arr2 1 H) (w2 : Arr2 H P) (b2 : Arr2 1 P) (r : Fin N) (c : Fin P) : EReal :=
  max ((∑ k : Fin H, fcH1 x w1 b1 r k * w2 (ix2 k c)) + b2 (ix2 0 c)) 0

def fcOut (x : Arr2 N D) (w1 : Arr2 D H) (b1 : Arr2 1 H) (w2 : Arr2 H P) (b2 : Arr2 1 P) (w3 : Arr2 P Q) (b3 : Arr2 1 Q)
    (r : Fin N) (c : Fin Q) : EReal :=
  (∑ k : Fin P, fcH2 x w1 b1 w2 b2 r k * w3 (ix2 k c)) + b3 (ix2 0 c)

/-- The hidden activations as an array. -/
def h2Arr (x : Arr2 N D) (w1 : Arr2 D H) (b1 : Arr2 1 H) (w2 : Arr2 H P) (b2 : Arr2 1 P) : Arr2 N P :=
  fun i => fcH2 x w1 b1 w2 b2 (i 0) (i 1)

/-- The logits as an array. -/
def outArr (x : Arr2 N D) (w1 : Arr2 D H) (b1 : Arr2 1 H) (w2 : Arr2 H P) (b2 : Arr2 1 P) (w3 : Arr2 P Q) (b3 : Arr2 1 Q) :
    Arr2 N Q := fun i => fcOut x w1 b1 w2 b2 w3 b3 (i 0) (i 1)

end Fc

/-! ## The two stages' row shifts, column blocks and stacking -/

/-- Stage 1: shift group g reads flat row r + (0, 1, 16, 17)[g] of a 17×16 packed image. -/
def row0 : Fin 4 → Fin 240 → Fin 272 := fun g r => ⟨r.val + (![0, 1, 16, 17] : Fin 4 → Nat) g, by
  have := r.isLt; fin_cases g <;> simp <;> omega⟩
/-- Stage 1: pooling candidate q of channel c is column 32 q + c. -/
def col0 : Fin 4 → Fin 32 → Fin 128 := fun q c => ⟨32 * q.val + c.val, by have := q.isLt; have := c.isLt; omega⟩
/-- Stage 2: shift group g reads flat row r + (0, 1, 8, 9)[g] of a 9×8 packed image. -/
def row1 : Fin 4 → Fin 48 → Fin 72 := fun g r => ⟨r.val + (![0, 1, 8, 9] : Fin 4 → Nat) g, by
  have := r.isLt; fin_cases g <;> simp <;> omega⟩
/-- Stage 2: pooling candidate q of channel c is column 64 q + c. -/
def col1 : Fin 4 → Fin 64 → Fin 256 := fun q c => ⟨64 * q.val + c.val, by have := q.isLt; have := c.isLt; omega⟩

/-- Position kk of 48 stacked channels is group kk / 12, channel kk % 12. -/
def gk0 : Fin 48 ≃ Fin 4 × Fin 12 := (finProdFinEquiv (m := 4) (n := 12)).symm
/-- Position kk of 512 stacked channels is group kk / 128, channel kk % 128. -/
def gk1 : Fin 512 ≃ Fin 4 × Fin 128 := (finProdFinEquiv (m := 4) (n := 128)).symm

theorem gk0_fst (kk : Fin 48) : ((gk0 kk).1 : Nat) = kk.val / 12 := by simp [gk0, finProdFinEquiv, Fin.divNat]
theorem gk0_snd (kk : Fin 48) : ((gk0 kk).2 : Nat) = kk.val % 12 := by simp [gk0, finProdFinEquiv, Fin.modNat]
theorem gk1_fst (kk : Fin 512) : ((gk1 kk).1 : Nat) = kk.val / 128 := by simp [gk1, finProdFinEquiv, Fin.divNat]
theorem gk1_snd (kk : Fin 512) : ((gk1 kk).2 : Nat) = kk.val % 128 := by simp [gk1, finProdFinEquiv, Fin.modNat]

theorem row0_val (g : Fin 4) (r : Fin 240) : (row0 g r : Nat) = r.val + (![0, 1, 16, 17] : Fin 4 → Nat) g := rfl
theorem col0_val (q : Fin 4) (c : Fin 32) : (col0 q c : Nat) = 32 * q.val + c.val := rfl
theorem row1_val (g : Fin 4) (r : Fin 48) : (row1 g r : Nat) = r.val + (![0, 1, 8, 9] : Fin 4 → Nat) g := rfl
theorem col1_val (q : Fin 4) (c : Fin 64) : (col1 q c : Nat) = 64 * q.val + c.val := rfl

/-! ## The layout glue between the stages, as whole-array functions

Neither program's arithmetic lives here: a space-to-depth packing (pad to even extents, split each spatial axis in two,
bring the two parity axes next to the channels, merge them into the channel axis, append one zero row, flatten the two
spatial axes) and the inverse un-flattening that drops the over-computed columns. Both programs apply the same
operations, so each is carried as one function and never opened. -/

section Glue

/-- The padding value both programs use: the integer 0 converted. -/
def padv : FVec Ideal (⟨0, ![]⟩ : Shape) .bf16 := sitofp .bf16 (constantI (⟨0, ![]⟩ : Shape) 32 0#32)

/-- A 32×32×3 channels-last image batch packed for stage 1: [2048, 17·16, 12]. -/
def packIn (xT : FVec Ideal (⟨4, ![2048, 32, 32, 3]⟩ : Shape) .bf16) : FVec Ideal (⟨3, ![2048, 272, 12]⟩ : Shape) .bf16 :=
  shapeCast (⟨3, ![2048, 272, 12]⟩ : Shape)
    (pad (⟨4, ![2048, 17, 16, 12]⟩ : Shape) ![0, 0, 0, 0] ![0, 1, 0, 0] ![0, 0, 0, 0]
      (shapeCast (⟨4, ![2048, 16, 16, 12]⟩ : Shape)
        (transpose (⟨6, ![2048, 16, 16, 2, 2, 3]⟩ : Shape) [0, 1, 3, 2, 4, 5]
          (shapeCast (⟨6, ![2048, 16, 2, 16, 2, 3]⟩ : Shape)
            (pad (⟨4, ![2048, 32, 32, 3]⟩ : Shape) ![0, 0, 0, 0] ![0, 0, 0, 0] ![0, 0, 0, 0] xT padv (by decide) (by decide))
            (by decide))
          (by decide))
        (by decide))
      padv (by decide) (by decide))
    (by decide)

/-- The image batch as stage 1 reads it: NCHW to channels-last, then packed. The change of float format is the
    identity on extended reals, so it may come before or after the transposition (`imageIn_eq`). -/
def imageIn (x : FVec Ideal (⟨4, ![2048, 3, 32, 32]⟩ : Shape) .f32) : FVec Ideal (⟨3, ![2048, 272, 12]⟩ : Shape) .bf16 :=
  packIn (transpose (⟨4, ![2048, 32, 32, 3]⟩ : Shape) [0, 2, 3, 1] (truncf .bf16 x (by decide)) (by decide))

theorem imageIn_eq (x : FVec Ideal (⟨4, ![2048, 3, 32, 32]⟩ : Shape) .f32) :
    imageIn x = packIn (truncf .bf16 (transpose (⟨4, ![2048, 32, 32, 3]⟩ : Shape) [0, 2, 3, 1] x (by decide)) (by decide)) := rfl

/-- Stage 1's output on its 15×16 virtual grid, cut to 15×15, packed for stage 2: [2048, 9·8, 128]. -/
def packMid (y : FVec Ideal (⟨3, ![2048, 240, 32]⟩ : Shape) .bf16) : FVec Ideal (⟨3, ![2048, 72, 128]⟩ : Shape) .bf16 :=
  shapeCast (⟨3, ![2048, 72, 128]⟩ : Shape)
    (pad (⟨4, ![2048, 9, 8, 128]⟩ : Shape) ![0, 0, 0, 0] ![0, 1, 0, 0] ![0, 0, 0, 0]
      (shapeCast (⟨4, ![2048, 8, 8, 128]⟩ : Shape)
        (transpose (⟨6, ![2048, 8, 8, 2, 2, 32]⟩ : Shape) [0, 1, 3, 2, 4, 5]
          (shapeCast (⟨6, ![2048, 8, 2, 8, 2, 32]⟩ : Shape)
            (pad (⟨4, ![2048, 16, 16, 32]⟩ : Shape) ![0, 0, 0, 0] ![0, 1, 1, 0] ![0, 0, 0, 0]
              (extractStridedSlice (⟨4, ![2048, 15, 15, 32]⟩ : Shape) ![0, 0, 0, 0]
                (shapeCast (⟨4, ![2048, 15, 16, 32]⟩ : Shape) y (by decide)) (by decide))
              padv (by decide) (by decide))
            (by decide))
          (by decide))
        (by decide))
      padv (by decide) (by decide))
    (by decide)

/-- Stage 2's output on its 6×8 virtual grid, cut to 6×6 and flattened per image: [2048, 2304]. -/
def flatOut (y : FVec Ideal (⟨3, ![2048, 48, 64]⟩ : Shape) .bf16) : FVec Ideal (⟨2, ![2048, 2304]⟩ : Shape) .bf16 :=
  pad (⟨2, ![2048, 2304]⟩ : Shape) ![0, 0] ![0, 0] ![0, 0]
    (shapeCast (⟨2, ![2048, 2304]⟩ : Shape)
      (extractStridedSlice (⟨4, ![2048, 6, 6, 64]⟩ : Shape) ![0, 0, 0, 0]
        (shapeCast (⟨4, ![2048, 6, 8, 64]⟩ : Shape) y (by decide)) (by decide))
      (by decide))
    padv (by decide) (by decide)

end Glue

end Cert.Spec

end
-- ==== Proof.KHost.lean ====
import proofs.«111038_g2000003154481155_pallasbulk_2_2_alg».proof.Proof.Gen.KernelIdeal.Frame
import proofs.«111038_g2000003154481155_pallasbulk_2_2_alg».proof.Proof.Spec
import Idealize.ShloMosaic.Lib.StableHlo.Run
import Idealize.ShloMosaic.PureOps.Ideal

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Read a buffer at the first region's entry back through the host operations before it. -/
local macro "read_before0" : tactic =>
  `(tactic| (dsimp only [W5, W4, W3, W2, W1, hostOps0, hostOps0_1, hostOps0_2, hostOps0_3, hostOps0_4]; after_results))
/-- Read a buffer at the second region's entry back to the first region's exit. -/
local macro "read_before1" : tactic =>
  `(tactic| (dsimp only [W11, W10, W9, W8, W7, hostOps1, hostOps1_1, hostOps1_2, hostOps1_3, hostOps1_4]; after_results))
/-- Read a buffer at the third region's entry back to the second region's exit. -/
local macro "read_before2" : tactic =>
  `(tactic| (dsimp only [W14, W13, hostOps2, hostOps2_1]; after_results))

/-! ## The first region's arrays -/

/-- The packed image batch the first region reads is the layout glue of the launch image. -/
theorem entry0_x (c : Dev nD) :
    W5 m ρ c (Proc.devRef .tc main_v7) = Spec.imageIn (m ((c : Thread nD τ).loc main_arg10)) := by
  read_before0
  rfl

/-- Its weights are the launch weights' four blocks stacked: a reshape. -/
theorem entry0_w (c : Dev nD) :
    W5 m ρ c (Proc.devRef .tc main_v8)
      = shapeCast S48x128 (m ((c : Thread nD τ).loc main_arg0)) shapeCasts_S4x12x128_S48x128 := by
  read_before0
  rfl

theorem entry0_b (c : Dev nD) : W5 m ρ c (Proc.devRef .tc main_arg1) = m ((c : Thread nD τ).loc main_arg1) := by
  read_before0

/-! ## The second region's arrays -/

/-- The second region reads the first region's output, un-flattened, cut and packed again. -/
theorem entry1_x (c : Dev nD) :
    W11 m ρ c (Proc.devRef .tc main_v17) = Spec.packMid (W6 m ρ c (Proc.devRef .tc main_v9)) := by
  read_before1
  rfl

theorem entry1_w (c : Dev nD) :
    W11 m ρ c (Proc.devRef .tc main_v18)
      = shapeCast S512x256 (m ((c : Thread nD τ).loc main_arg2)) shapeCasts_S4x128x256_S512x256 := by
  read_before1
  rw [W6_of_ne m ρ c main_arg2 (by decide)]
  read_before0
  rfl

theorem entry1_b (c : Dev nD) : W11 m ρ c (Proc.devRef .tc main_arg3) = m ((c : Thread nD τ).loc main_arg3) := by
  read_before1
  rw [W6_of_ne m ρ c main_arg3 (by decide)]
  read_before0

/-! ## The third region's arrays -/

/-- The third region reads the second region's output, un-flattened, cut and flattened per image. -/
theorem entry2_x (c : Dev nD) :
    W14 m ρ c (Proc.devRef .tc main_v23) = Spec.flatOut (W12 m ρ c (Proc.devRef .tc main_v19)) := by
  read_before2
  rfl

theorem entry2_arg4 (c : Dev nD) : W14 m ρ c (Proc.devRef .tc main_arg4) = m ((c : Thread nD τ).loc main_arg4) := by
  read_before2
  rw [W12_of_ne m ρ c main_arg4 (by decide)]
  read_before1
  rw [W6_of_ne m ρ c main_arg4 (by decide)]
  read_before0

theorem entry2_arg5 (c : Dev nD) : W14 m ρ c (Proc.devRef .tc main_arg5) = m ((c : Thread nD τ).loc main_arg5) := by
  read_before2
  rw [W12_of_ne m ρ c main_arg5 (by decide)]
  read_before1
  rw [W6_of_ne m ρ c main_arg5 (by decide)]
  read_before0

theorem entry2_arg6 (c : Dev nD) : W14 m ρ c (Proc.devRef .tc main_arg6) = m ((c : Thread nD τ).loc main_arg6) := by
  read_before2
  rw [W12_of_ne m ρ c main_arg6 (by decide)]
  read_before1
  rw [W6_of_ne m ρ c main_arg6 (by decide)]
  read_before0

theorem entry2_arg7 (c : Dev nD) : W14 m ρ c (Proc.devRef .tc main_arg7) = m ((c : Thread nD τ).loc main_arg7) := by
  read_before2
  rw [W12_of_ne m ρ c main_arg7 (by decide)]
  read_before1
  rw [W6_of_ne m ρ c main_arg7 (by decide)]
  read_before0

theorem entry2_arg8 (c : Dev nD) : W14 m ρ c (Proc.devRef .tc main_arg8) = m ((c : Thread nD τ).loc main_arg8) := by
  read_before2
  rw [W12_of_ne m ρ c main_arg8 (by decide)]
  read_before1
  rw [W6_of_ne m ρ c main_arg8 (by decide)]
  read_before0

theorem entry2_arg9 (c : Dev nD) : W14 m ρ c (Proc.devRef .tc main_arg9) = m ((c : Thread nD τ).loc main_arg9) := by
  read_before2
  rw [W12_of_ne m ρ c main_arg9 (by decide)]
  read_before1
  rw [W6_of_ne m ρ c main_arg9 (by decide)]
  read_before0

end Cert.KernelIdeal.Host

end
-- ==== Proof.KVal0.lean ====
import proofs.«111038_g2000003154481155_pallasbulk_2_2_alg».proof.Proof.Gen.KernelIdeal.Frame
import proofs.«111038_g2000003154481155_pallasbulk_2_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv0

open Cert.KernelIdeal Cert.KernelIdeal.Gen

-- the TensorCore's buffer contents when the region is entered: any contents
variable (V : (c : Dev nD) → (b : Ref sig .tc) → Buf (Elt Ideal) ((c : Thread nD τ).loc b))

/-! ## The body's payload at an entry -/

/-- The body's contraction is the plain product of a 1920×48 by a 48×128 matrix. -/
theorem dot_eq : dot_S1920x48_S48x128_S1920x128_1_0_0_1_n_n = DotDims.plain 1920 48 128 := rfl

/-- The product into the zero splat, read at an entry: the sum over the 48 stacked channels. -/
theorem mm_apply (A : FVec Ideal S1920x48 .bf16) (B : FVec Ideal S48x128 .bf16) (a : Fin 1920) (j : Fin 128) :
    matmul dot_S1920x48_S48x128_S1920x128_1_0_0_1_n_n none A B (constant S1920x128 .f32 0x00000000#32) (ix2 a j)
      = ∑ kk : Fin 48, A (ix2 a kk) * B (ix2 kk j) := by
  rw [matmul_zero_eq_dotGeneral, dot_eq]
  exact StackMember.dotGeneral_plain_apply none A B a j

/-- Rows of eight images flattened: row 240 b + r of the [1920,48] matrix is row r of image b. -/
theorem flat_in (X : FVec Ideal S8x240x48 .bf16) (b : Fin 8) (r : Fin 240) (a : Fin 1920) (ha : a.val = 240 * b.val + r.val)
    (kk : Fin 48) : shapeCast S1920x48 X shapeCasts_S8x240x48_S1920x48 (ix2 a kk) = X (ix3 b r kk) := by
  refine shapeCast_apply X _ (ix2 a kk) (ix3 b r kk) ?_
  rw [Shape.rowMajor_val_two, Shape.rowMajor_val_three]
  show (b.val * 240 + r.val) * 48 + kk.val = a.val * 48 + kk.val
  rw [ha]; ring

/-- and back: entry (b, r, j) of the [8,240,128] result is row 240 b + r of the product. -/
theorem flat_out (Y : FVec Ideal S1920x128 .f32) (b : Fin 8) (r : Fin 240) (a : Fin 1920) (ha : a.val = 240 * b.val + r.val)
    (j : Fin 128) : shapeCast S8x240x128 Y shapeCasts_S1920x128_S8x240x128 (ix3 b r j) = Y (ix2 a j) := by
  refine shapeCast_apply Y _ (ix3 b r j) (ix2 a j) ?_
  rw [Shape.rowMajor_val_two, Shape.rowMajor_val_three]
  show a.val * 128 + j.val = (b.val * 240 + r.val) * 128 + j.val
  rw [ha]; ring

/-- The four loaded pieces as one family over the shift group. -/
def piece (v0 v2 v4 v6 : FVec Ideal S8x240x12 .bf16) : Fin 4 → FVec Ideal S8x240x12 .bf16 := ![v0, v2, v4, v6]

/-- The channel concatenation at stacked channel 12 g + k is piece g at channel k. -/
theorem cat_apply (v0 v2 v4 v6 : FVec Ideal S8x240x12 .bf16) (b : Fin 8) (r : Fin 240) (kk : Fin 48) (g : Fin 4) (k : Fin 12)
    (hk : kk.val = 12 * g.val + k.val) :
    concatenate S8x240x48 2 [⟨S8x240x12, v0⟩, ⟨S8x240x12, v2⟩, ⟨S8x240x12, v4⟩, ⟨S8x240x12, v6⟩]
        concatenates_S8x240x12_S8x240x12_S8x240x12_S8x240x12_S8x240x48_d2 (ix3 b r kk)
      = piece v0 v2 v4 v6 g (ix3 b r k) := by
  have hg := g.isLt
  refine concatenate_apply_piece (2 : Fin 3) _ _ (ix3 b r kk) g.val (by simpa using hg) S8x240x12 (piece v0 v2 v4 v6 g) ?_ rfl
    (12 * g.val) ?_ (ix3 b r k) ?_ ?_
  · match g with
    | ⟨0, _⟩ => rfl
    | ⟨1, _⟩ => rfl
    | ⟨2, _⟩ => rfl
    | ⟨3, _⟩ => rfl
  · match g with
    | ⟨0, _⟩ => rfl
    | ⟨1, _⟩ => rfl
    | ⟨2, _⟩ => rfl
    | ⟨3, _⟩ => rfl
  · intro a ha
    match a with
    | ⟨0, _⟩ => rfl
    | ⟨1, _⟩ => rfl
    | ⟨2, _⟩ => exact absurd rfl ha
  · show 12 * g.val + k.val = kk.val
    omega

/-- A 32-column block of the product: column 32 q + ch. -/
theorem blk_apply (Y : FVec Ideal S8x240x128 .f32) (off : Nat) (h : S8x240x128.Slices ![0, 0, off] S8x240x32)
    (b : Fin 8) (r : Fin 240) (ch : Fin 32) (j : Fin 128) (hj : j.val = off + ch.val) :
    extractStridedSlice S8x240x32 ![0, 0, off] Y h (ix3 b r ch) = Y (ix3 b r j) := by
  refine extractStridedSlice_apply _ Y h (ix3 b r ch) (ix3 b r j) fun a => ?_
  match a with
  | ⟨0, _⟩ => show b.val = 0 + b.val; omega
  | ⟨1, _⟩ => show r.val = 0 + r.val; omega
  | ⟨2, _⟩ => show j.val = off + ch.val; exact hj

/-- The bias row laid along every image and every row. -/
theorem bias_apply (v : FVec Ideal S1x32 .f32) (b : Fin 8) (r : Fin 240) (ch : Fin 32) :
    broadcastTo S8x240x32 (shapeCast S1x1x32 v shapeCasts_S1x32_S1x1x32) broadcasts_S1x1x32_S8x240x32 (ix3 b r ch)
      = v (ix2 0 ch) := by
  refine (broadcastTo_apply _ broadcasts_S1x1x32_S8x240x32 (ix3 b r ch) (ix3 0 0 ch) fun a => ?_).trans ?_
  · match a with
    | ⟨0, _⟩ => rfl
    | ⟨1, _⟩ => rfl
    | ⟨2, _⟩ => rfl
  · refine shapeCast_apply v _ (ix3 0 0 ch) (ix2 0 ch) ?_
    rw [Shape.rowMajor_val_two, Shape.rowMajor_val_three]
    rfl

/-- One column of the body before pooling, at row r of image b: the sum over the 48 stacked channels of the shifted
    pieces against the stacked weights. -/
def colSum (v0 v2 v4 v6 : FVec Ideal S8x240x12 .bf16) (w : FVec Ideal S48x128 .bf16) (b : Fin 8) (r : Fin 240)
    (j : Fin 128) : EReal :=
  ∑ kk : Fin 48, piece v0 v2 v4 v6 (Spec.gk0 kk).1 (ix3 b r (Spec.gk0 kk).2) * w (ix2 kk j)

/-- The body's product, reshaped back to images, at (b, r, j) is that column sum. -/
theorem prod_apply (v0 v2 v4 v6 : FVec Ideal S8x240x12 .bf16) (w : FVec Ideal S48x128 .bf16) (b : Fin 8) (r : Fin 240)
    (j : Fin 128) :
    shapeCast S8x240x128
        (matmul dot_S1920x48_S48x128_S1920x128_1_0_0_1_n_n none
          (shapeCast S1920x48
            (concatenate S8x240x48 2 [⟨S8x240x12, v0⟩, ⟨S8x240x12, v2⟩, ⟨S8x240x12, v4⟩, ⟨S8x240x12, v6⟩]
              concatenates_S8x240x12_S8x240x12_S8x240x12_S8x240x12_S8x240x48_d2)
            shapeCasts_S8x240x48_S1920x48)
          w (constant S1920x128 .f32 0x00000000#32))
        shapeCasts_S1920x128_S8x240x128 (ix3 b r j)
      = colSum v0 v2 v4 v6 w b r j := by
  have hb := b.isLt
  have hr := r.isLt
  refine (flat_out _ b r ⟨240 * b.val + r.val, by omega⟩ rfl j).trans ?_
  rw [mm_apply]
  unfold colSum
  refine Finset.sum_congr rfl fun kk _ => ?_
  rw [flat_in _ b r ⟨240 * b.val + r.val, by omega⟩ rfl kk,
    cat_apply v0 v2 v4 v6 b r kk (Spec.gk0 kk).1 (Spec.gk0 kk).2
      (by rw [Spec.gk0_fst, Spec.gk0_snd]; omega)]

/-- THE BODY'S PAYLOAD AT AN ENTRY: the four column blocks' sums pooled, the bias added, clamped at zero. -/
theorem pay_apply (v0 v2 v4 v6 : Vec Ideal S8x240x12 .bf16) (v10 : Vec Ideal S48x128 .bf16) (v21 : Vec Ideal S1x32 .f32)
    (b : Fin 8) (r : Fin 240) (ch : Fin 32) :
    k0_pay1 (F := Ideal) v0 v2 v4 v6 v10 v21 (ix3 b r ch)
      = Spec.pooled (colSum v0 v2 v4 v6 v10 b r (Spec.col0 0 ch)) (colSum v0 v2 v4 v6 v10 b r (Spec.col0 1 ch))
          (colSum v0 v2 v4 v6 v10 b r (Spec.col0 2 ch)) (colSum v0 v2 v4 v6 v10 b r (Spec.col0 3 ch)) (v21 (ix2 0 ch)) := by
  unfold k0_pay1
  simp only [shapeCast_self, truncf_apply, maximumf_apply, addf_apply, broadcast_apply]
  rw [blk_apply _ 0 slices_S8x240x128_o0_0_0_S8x240x32 b r ch (Spec.col0 0 ch) (by show 32 * 0 + ch.val = 0 + ch.val; omega),
    blk_apply _ 32 slices_S8x240x128_o0_0_32_S8x240x32 b r ch (Spec.col0 1 ch) (by show 32 * 1 + ch.val = 32 + ch.val; omega),
    blk_apply _ 64 slices_S8x240x128_o0_0_64_S8x240x32 b r ch (Spec.col0 2 ch) (by show 32 * 2 + ch.val = 64 + ch.val; omega),
    blk_apply _ 96 slices_S8x240x128_o0_0_96_S8x240x32 b r ch (Spec.col0 3 ch) (by show 32 * 3 + ch.val = 96 + ch.val; omega),
    bias_apply, prod_apply, prod_apply, prod_apply, prod_apply]
  simp only [shapeCast_self]
  rw [show FloatOps.ofBits (F := Ideal) FTy.f32 0x00000000#32 = (0 : EReal) from Ideal.ofBits_zero_f32]
  rfl

/-! ## The blocks read where the arrays say -/

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block indices over the grid: the image windows move with the point along the batch axis and nowhere
    else; the weights' and the bias's windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A shifted load of the image block: row r of the load is row r + s of the block. -/
theorem ld_apply (X : Vec Ideal S8x272x12 .bf16) (s : Nat)
    (inb : ∀ a, (![0, s, 0] : Fin 3 → Nat) a + S8x240x12.size a ≤ S8x272x12.size a)
    (b : Fin 8) (r : Fin 240) (k : Fin 12) (ρ : Fin 272) (hρ : ρ.val = r.val + s) :
    View.ld X (Rect.unit (s := S8x272x12) ![0, s, 0] S8x240x12.size inb) (ix3 b r k) = X (ix3 b ρ k) := by
  show X _ = X _
  congr 1
  funext a; apply Fin.ext
  match a with
  | ⟨0, _⟩ => show 0 + 1 * b.val = b.val; omega
  | ⟨1, _⟩ => show s + 1 * r.val = ρ.val; omega
  | ⟨2, _⟩ => show 0 + 1 * k.val = k.val; omega

/-- The four shifted loads as a family: group g's piece at row r is the block at row r + (0, 1, 16, 17)[g]. -/
theorem piece_apply (X : Vec Ideal S8x272x12 .bf16) (g : Fin 4) (b : Fin 8) (r : Fin 240) (k : Fin 12) :
    piece (View.ld X r0_0) (View.ld X r0_1) (View.ld X r0_2) (View.ld X r0_3) g (ix3 b r k)
      = X (ix3 b (Spec.row0 g r) k) := by
  match g with
  | ⟨0, _⟩ => exact ld_apply X 0 _ b r k _ rfl
  | ⟨1, _⟩ => exact ld_apply X 1 _ b r k _ rfl
  | ⟨2, _⟩ => exact ld_apply X 16 _ b r k _ rfl
  | ⟨3, _⟩ => exact ld_apply X 17 _ b r k _ rfl

/-- The image window's block at point t is images 8 t … 8 t + 7 of the array. -/
theorem img_blk (c : Dev nD) (t : Fin cfg0.N) (b : Fin 8) (ρ : Fin 272) (k : Fin 12) (n : Fin 2048)
    (hn : n.val = 8 * t.val + b.val) :
    (iblk0 V c 0 t : Vec Ideal S8x272x12 .bf16) (ix3 b ρ k) = (V c main_v7 : S2048x272x12.Idx → EReal) (ix3 n ρ k) := by
  obtain ⟨e0, e1, e2, -⟩ := idx_facts t
  unfold iblk0
  rw [View.read_apply]
  show V c main_v7 _ = V c main_v7 _
  congr 1
  funext a; apply Fin.ext
  match a with
  | ⟨0, _⟩ => show win0_0.index t (0 : Fin 3) * 8 + 1 * b.val = n.val; rw [e0, hn]; omega
  | ⟨1, _⟩ => show win0_0.index t (1 : Fin 3) * 272 + 1 * ρ.val = ρ.val; rw [e1]; omega
  | ⟨2, _⟩ => show win0_0.index t (2 : Fin 3) * 12 + 1 * k.val = k.val; rw [e2]; omega

/-- The weights' window is the whole array at every point. -/
theorem wts_blk (c : Dev nD) (t : Fin cfg0.N) :
    (iblk0 V c 1 t : Vec Ideal S48x128 .bf16) = (V c main_v8 : S48x128.Idx → EReal) := by
  obtain ⟨-, -, -, e0, e1, -⟩ := idx_facts t
  funext y
  unfold iblk0
  rw [View.read_apply]
  show V c main_v8 _ = V c main_v8 _
  congr 1
  funext a; apply Fin.ext
  match a with
  | ⟨0, _⟩ => show win0_1.index t (0 : Fin 2) * 48 + 1 * (y 0).val = (y 0).val; rw [e0]; omega
  | ⟨1, _⟩ => show win0_1.index t (1 : Fin 2) * 128 + 1 * (y 1).val = (y 1).val; rw [e1]; omega

/-- The bias's window is the whole array at every point. -/
theorem bias_blk (c : Dev nD) (t : Fin cfg0.N) :
    (iblk0 V c 2 t : Vec Ideal S1x32 .f32) = (V c main_arg1 : S1x32.Idx → EReal) := by
  obtain ⟨-, -, -, -, -, e0, e1, -⟩ := idx_facts t
  funext y
  unfold iblk0
  rw [View.read_apply]
  show V c main_arg1 _ = V c main_arg1 _
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-! ## What a point writes back, and the array after the run -/

/-- One entry of what a point computes, over arrays of literal types: where image b of the block is image n of the
    array, entry (b, r, ch) of the payload is the specification's entry (n, r, ch). -/
theorem point_apply (x0 : Vec Ideal S8x272x12 .bf16) (w : Vec Ideal S48x128 .bf16) (bs : Vec Ideal S1x32 .f32)
    (A : Spec.Arr3 2048 272 12) (n : Fin 2048) (b : Fin 8)
    (hx0 : ∀ (ρ : Fin 272) (k : Fin 12), x0 (ix3 b ρ k) = A (ix3 n ρ k)) (r : Fin 240) (ch : Fin 32) :
    k0_pay1 (F := Ideal) (View.ld x0 r0_0) (View.ld x0 r0_1) (View.ld x0 r0_2) (View.ld x0 r0_3) (View.ld w r0_4)
        (View.ld bs r0_5) (ix3 b r ch)
      = Spec.convPoolFlat Spec.gk0 Spec.row0 Spec.col0 A w bs (ix3 n r ch) := by
  rw [View.ld_unit_zero (S := S48x128) hz2, View.ld_unit_zero (S := S1x32) hz2, pay_apply]
  unfold Spec.convPoolFlat Spec.convAccFlat colSum
  simp only [piece_apply, hx0]

/-- WHAT POINT t WRITES BACK is block t of the specification's array. -/
theorem flushed_eq (c : Dev nD) (t : Fin cfg0.N) :
    (dat0 V c).flushed 3 t = ((cfg0.win 3).blk t).view.read (Elt Ideal)
      (Spec.convPoolFlat Spec.gk0 Spec.row0 Spec.col0 (V c main_v7) (V c main_v8) (V c main_arg1)) := by
  show (cfg0.win 3).cut (grid0.coords t) ((dat0 V c).after 3 t) = _
  rw [after0_3]
  unfold out0_3
  rw [View.canon_unit_zero hz3, wts_blk, bias_blk]
  obtain ⟨-, -, -, -, -, -, -, e0, e1, e2⟩ := idx_facts t
  have hN : cfg0.N = 256 := N_0
  have ht : t.val < 256 := hN ▸ t.isLt
  funext y
  have hb : (y 0).val < 8 := (y 0).isLt
  have hr : (y 1).val < 240 := (y 1).isLt
  have hch : (y 2).val < 32 := (y 2).isLt
  have hy : (cfg0.win 3).xinj (grid0.coords t) y
      = ix3 (n0 := 8) (n1 := 240) (n2 := 32) ⟨(y 0).val, hb⟩ ⟨(y 1).val, hr⟩ ⟨(y 2).val, hch⟩ := by
    funext a
    match a with
    | ⟨0, _⟩ => rfl
    | ⟨1, _⟩ => rfl
    | ⟨2, _⟩ => rfl
  have hi : ((cfg0.win 3).blk t).view.emb y
      = ix3 (n0 := 2048) (n1 := 240) (n2 := 32) ⟨8 * t.val + (y 0).val, by omega⟩ ⟨(y 1).val, hr⟩ ⟨(y 2).val, hch⟩ := by
    funext a; apply Fin.ext
    match a with
    | ⟨0, _⟩ => show win0_3.index t (0 : Fin 3) * 8 + 1 * (y 0).val = 8 * t.val + (y 0).val; rw [e0]; omega
    | ⟨1, _⟩ => show win0_3.index t (1 : Fin 3) * 240 + 1 * (y 1).val = (y 1).val; rw [e1]; omega
    | ⟨2, _⟩ => show win0_3.index t (2 : Fin 3) * 32 + 1 * (y 2).val = (y 2).val; rw [e2]; omega
  show k0_pay1 (F := Ideal) (View.ld (iblk0 V c 0 t) r0_0) (View.ld (iblk0 V c 0 t) r0_1) (View.ld (iblk0 V c 0 t) r0_2)
      (View.ld (iblk0 V c 0 t) r0_3) (View.ld (V c main_v8 : S48x128.Idx → EReal) r0_4)
      (View.ld (V c main_arg1 : S1x32.Idx → EReal) r0_5) ((cfg0.win 3).xinj (grid0.coords t) y)
    = Spec.convPoolFlat Spec.gk0 Spec.row0 Spec.col0 (V c main_v7) (V c main_v8) (V c main_arg1)
        (((cfg0.win 3).blk t).view.emb y)
  rw [hy, hi]
  exact point_apply (iblk0 V c 0 t) (V c main_v8) (V c main_arg1) (V c main_v7) ⟨8 * t.val + (y 0).val, by omega⟩
    ⟨(y 0).val, hb⟩ (fun ρ k => img_blk V c t ⟨(y 0).val, hb⟩ ρ k ⟨8 * t.val + (y 0).val, by omega⟩ rfl)
    ⟨(y 1).val, hr⟩ ⟨(y 2).val, hch⟩

/-- Every image of the output array is in some point's block: image n in point n / 8's. -/
theorem cover (i : S2048x240x32.Idx) :
    ∃ t : Fin cfg0.N, (cfg0.win 3).flush t = true ∧ i ∈ ((cfg0.win 3).blk t).view.set := by
  have hN : cfg0.N = 256 := N_0
  have h0 : (i 0).val < 2048 := (i 0).isLt
  have h1 : (i 1).val < 240 := (i 1).isLt
  have h2 : (i 2).val < 32 := (i 2).isLt
  let t : Fin cfg0.N := ⟨(i 0).val / 8, by rw [hN]; omega⟩
  obtain ⟨-, -, -, -, -, -, -, e0, e1, e2⟩ := idx_facts t
  refine ⟨t, flush0_3 t, ?_⟩
  show i ∈ ((View.whole main_v9).slice (win0_3.rect t)).set
  rw [View.set_slice_whole, Rect.mem_set_unit]
  intro a
  match a with
  | ⟨0, _⟩ =>
    show win0_3.index t (0 : Fin 3) * 8 ≤ (i 0).val ∧ (i 0).val < win0_3.index t (0 : Fin 3) * 8 + 8
    rw [e0]; show (i 0).val / 8 * 8 ≤ (i 0).val ∧ (i 0).val < (i 0).val / 8 * 8 + 8; omega
  | ⟨1, _⟩ =>
    show win0_3.index t (1 : Fin 3) * 240 ≤ (i 1).val ∧ (i 1).val < win0_3.index t (1 : Fin 3) * 240 + 240
    rw [e1]; omega
  | ⟨2, _⟩ =>
    show win0_3.index t (2 : Fin 3) * 32 ≤ (i 2).val ∧ (i 2).val < win0_3.index t (2 : Fin 3) * 32 + 32
    rw [e2]; omega

/-- After the first convolution region its output array holds the stage's pooled output, over weights stacked along
    the contraction axis, of the arrays the region found. -/
theorem arr (c : Dev nD) :
    (dat0 V c).arrAt 3 cfg0.N
      = Spec.convPoolFlat Spec.gk0 Spec.row0 Spec.col0 (V c main_v7) (V c main_v8) (V c main_arg1) :=
  (dat0 V c).arrAt_eq_of_cover 3 _ (fun t _ => flushed_eq V c t) cover

end Cert.KernelIdeal.Conv0

end
-- ==== Proof.KVal1.lean ====
import proofs.«111038_g2000003154481155_pallasbulk_2_2_alg».proof.Proof.Gen.KernelIdeal.Frame
import proofs.«111038_g2000003154481155_pallasbulk_2_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Conv1

open Cert.KernelIdeal Cert.KernelIdeal.Gen

-- the TensorCore's buffer contents when the region is entered: any contents
variable (V : (c : Dev nD) → (b : Ref sig .tc) → Buf (Elt Ideal) ((c : Thread nD τ).loc b))

/-! ## The payload at an index -/

/-- Row `r` of image `b` of an [8, 48, ·] block sits at row `48 b + r` of the flattened [384, ·] matrix. -/
def flatRow (b : Fin 8) (r : Fin 48) : Fin 384 := ⟨48 * b.val + r.val, by have := b.isLt; have := r.isLt; omega⟩

/-- Flattening the two leading axes keeps the row-major position. -/
theorem flatten_apply (x : FVec Ideal S8x48x512 .bf16) (h : S8x48x512.ShapeCasts S384x512) (b : Fin 8) (r : Fin 48) (kk : Fin 512) :
    shapeCast S384x512 x h (ix2 (flatRow b r) kk) = x (ix3 b r kk) :=
  shapeCast_apply x h _ _ (by
    rw [Shape.rowMajor_val_three, Shape.rowMajor_val_two]
    show (b.val * 48 + r.val) * 512 + kk.val = (48 * b.val + r.val) * 512 + kk.val
    omega)

/-- Splitting the rows back into image and row keeps the row-major position. -/
theorem unflatten_apply (x : FVec Ideal S384x256 .f32) (h : S384x256.ShapeCasts S8x48x256) (b : Fin 8) (r : Fin 48) (j : Fin 256) :
    shapeCast S8x48x256 x h (ix3 b r j) = x (ix2 (flatRow b r) j) :=
  shapeCast_apply x h _ _ (by
    rw [Shape.rowMajor_val_three, Shape.rowMajor_val_two]
    show (48 * b.val + r.val) * 256 + j.val = (b.val * 48 + r.val) * 256 + j.val
    omega)

/-- The printed contraction record is the plain product of a 384×512 by a 512×256 matrix. -/
theorem dot_eq : dot_S384x512_S512x256_S384x256_1_0_0_1_n_n = DotDims.plain 384 512 256 := rfl

/-- The matrix product into the zero splat, entry by entry. -/
theorem matmul_apply (A : FVec Ideal S384x512 .bf16) (B : FVec Ideal S512x256 .bf16) (a : Fin 384) (j : Fin 256) :
    matmul dot_S384x512_S512x256_S384x256_1_0_0_1_n_n none A B (constant (F := Ideal) S384x256 .f32 0x00000000#32) (ix2 a j)
      = ∑ kk : Fin 512, A (ix2 a kk) * B (ix2 kk j) := by
  rw [matmul_zero_eq_dotGeneral, dot_eq]
  exact StackMember.dotGeneral_plain_apply none A B a j

/-- A 64-column slice at offset `64 q` reads column `64 q + ch`: pooling candidate `q` of channel `ch`. -/
theorem slice_apply (q : Fin 4) (o : Nat) (ho : o = 64 * q.val) (x : FVec Ideal S8x48x256 .f32)
    (h : S8x48x256.Slices ![0, 0, o] S8x48x64) (b : Fin 8) (r : Fin 48) (ch : Fin 64) :
    extractStridedSlice S8x48x64 ![0, 0, o] x h (ix3 b r ch) = x (ix3 b r (Spec.col1 q ch)) :=
  extractStridedSlice_apply _ x h _ _ (fun a => match a with
    | ⟨0, _⟩ => by show b.val = 0 + b.val; omega
    | ⟨1, _⟩ => by show r.val = 0 + r.val; omega
    | ⟨2, _⟩ => by show 64 * q.val + ch.val = o + ch.val; omega)

/-- The bias row laid along every image and row. -/
theorem bias_apply (v : FVec Ideal S1x64 .f32) (h : S1x64.ShapeCasts S1x1x64) (h' : S1x1x64.Broadcasts S8x48x64)
    (b : Fin 8) (r : Fin 48) (ch : Fin 64) :
    broadcastTo S8x48x64 (shapeCast S1x1x64 v h) h' (ix3 b r ch) = v (ix2 0 ch) := by
  refine (broadcastTo_apply _ h' _ (ix3 (0 : Fin 1) (0 : Fin 1) ch) (fun a => match a with
    | ⟨0, _⟩ => rfl
    | ⟨1, _⟩ => rfl
    | ⟨2, _⟩ => rfl)).trans ?_
  exact shapeCast_apply v h _ _ (by
    rw [Shape.rowMajor_val_three, Shape.rowMajor_val_two]
    show 0 * 64 + ch.val = (0 * 1 + 0) * 64 + ch.val
    omega)

/-- Four [8, 48, 128] pieces laid side by side along the channel axis: lane `128 g + k` is piece `g` at lane `k`. -/
theorem concat_apply (v0 v2 v4 v6 : FVec Ideal S8x48x128 .bf16)
    (h : Shape.Concatenates [S8x48x128, S8x48x128, S8x48x128, S8x48x128] S8x48x512 2)
    (b : Fin 8) (r : Fin 48) (kk : Fin 512) (g : Fin 4) (k : Fin 128) (hkk : kk.val = 128 * g.val + k.val) :
    concatenate S8x48x512 2 [⟨S8x48x128, v0⟩, ⟨S8x48x128, v2⟩, ⟨S8x48x128, v4⟩, ⟨S8x48x128, v6⟩] h (ix3 b r kk)
      = (![v0, v2, v4, v6] : Fin 4 → FVec Ideal S8x48x128 .bf16) g (ix3 b r k) := by
  have hoff : ∀ b' : Fin 3, b'.cast rfl ≠ (2 : Fin 3) → ((ix3 b r k : S8x48x128.Idx) b').val = ((ix3 b r kk : S8x48x512.Idx) (b'.cast rfl)).val :=
    fun b' => match b' with
      | ⟨0, _⟩ => fun _ => rfl
      | ⟨1, _⟩ => fun _ => rfl
      | ⟨2, _⟩ => fun hne => absurd rfl hne
  fin_cases g
  · exact concatenate_apply_piece (t := S8x48x512) (2 : Fin 3) [⟨S8x48x128, v0⟩, ⟨S8x48x128, v2⟩, ⟨S8x48x128, v4⟩, ⟨S8x48x128, v6⟩] h (ix3 b r kk) 0 (by show 0 < 4; omega) S8x48x128 v0 rfl rfl 0 rfl (ix3 b r k) hoff
      (by show 0 + k.val = kk.val; simp at hkk; omega)
  · exact concatenate_apply_piece (t := S8x48x512) (2 : Fin 3) [⟨S8x48x128, v0⟩, ⟨S8x48x128, v2⟩, ⟨S8x48x128, v4⟩, ⟨S8x48x128, v6⟩] h (ix3 b r kk) 1 (by show 1 < 4; omega) S8x48x128 v2 rfl rfl 128 rfl (ix3 b r k) hoff
      (by show 128 + k.val = kk.val; simp at hkk; omega)
  · exact concatenate_apply_piece (t := S8x48x512) (2 : Fin 3) [⟨S8x48x128, v0⟩, ⟨S8x48x128, v2⟩, ⟨S8x48x128, v4⟩, ⟨S8x48x128, v6⟩] h (ix3 b r kk) 2 (by show 2 < 4; omega) S8x48x128 v4 rfl rfl 256 rfl (ix3 b r k) hoff
      (by show 256 + k.val = kk.val; simp at hkk; omega)
  · exact concatenate_apply_piece (t := S8x48x512) (2 : Fin 3) [⟨S8x48x128, v0⟩, ⟨S8x48x128, v2⟩, ⟨S8x48x128, v4⟩, ⟨S8x48x128, v6⟩] h (ix3 b r kk) 3 (by show 3 < 4; omega) S8x48x128 v6 rfl rfl 384 rfl (ix3 b r k) hoff
      (by show 384 + k.val = kk.val; simp at hkk; omega)

/-- The four loaded pieces, by shift group. -/
abbrev pieces (v0 v2 v4 v6 : Vec Ideal S8x48x128 .bf16) : Fin 4 → FVec Ideal S8x48x128 .bf16 := ![v0, v2, v4, v6]

/-- Column `j` of the product at row `r` of image `b`: the stacked contraction axis read as shift group and lane. -/
def accAt (p : Fin 4 → FVec Ideal S8x48x128 .bf16) (w : FVec Ideal S512x256 .bf16) (b : Fin 8) (r : Fin 48) (j : Fin 256) : EReal :=
  ∑ kk : Fin 512, p (Spec.gk1 kk).1 (ix3 b r (Spec.gk1 kk).2) * w (ix2 kk j)

/-- Position `kk` of the stacked axis is `128 ·` its shift group `+` its lane. -/
theorem gk1_split (kk : Fin 512) : kk.val = 128 * ((Spec.gk1 kk).1 : Nat) + ((Spec.gk1 kk).2 : Nat) := by
  rw [Spec.gk1_fst, Spec.gk1_snd]; omega

set_option maxHeartbeats 400000 in
/-- The product before pooling, entry by entry. -/
theorem conv_apply (v0 v2 v4 v6 : FVec Ideal S8x48x128 .bf16) (w : FVec Ideal S512x256 .bf16)
    (hc : Shape.Concatenates [S8x48x128, S8x48x128, S8x48x128, S8x48x128] S8x48x512 2)
    (hf : S8x48x512.ShapeCasts S384x512) (hu : S384x256.ShapeCasts S8x48x256) (b : Fin 8) (r : Fin 48) (j : Fin 256) :
    shapeCast S8x48x256 (matmul dot_S384x512_S512x256_S384x256_1_0_0_1_n_n none
        (shapeCast S384x512 (concatenate S8x48x512 2 [⟨S8x48x128, v0⟩, ⟨S8x48x128, v2⟩, ⟨S8x48x128, v4⟩, ⟨S8x48x128, v6⟩] hc) hf)
        w (constant (F := Ideal) S384x256 .f32 0x00000000#32)) hu (ix3 b r j)
      = accAt (pieces v0 v2 v4 v6) w b r j := by
  rw [unflatten_apply, matmul_apply]
  unfold accAt
  refine Finset.sum_congr rfl fun kk _ => ?_
  rw [flatten_apply, concat_apply v0 v2 v4 v6 hc b r kk (Spec.gk1 kk).1 (Spec.gk1 kk).2 (gk1_split kk)]

set_option maxHeartbeats 400000 in
/-- THE PAYLOAD AT AN INDEX: the four pooling candidates of the product, maxed, the bias added, clamped at zero. -/
theorem pay_apply (v0 v2 v4 v6 : Vec Ideal S8x48x128 .bf16) (v10 : Vec Ideal S512x256 .bf16) (v21 : Vec Ideal S1x64 .f32)
    (b : Fin 8) (r : Fin 48) (ch : Fin 64) :
    k1_pay1 (F := Ideal) v0 v2 v4 v6 v10 v21 (ix3 b r ch)
      = Spec.pooled (accAt (pieces v0 v2 v4 v6) v10 b r (Spec.col1 0 ch)) (accAt (pieces v0 v2 v4 v6) v10 b r (Spec.col1 1 ch))
          (accAt (pieces v0 v2 v4 v6) v10 b r (Spec.col1 2 ch)) (accAt (pieces v0 v2 v4 v6) v10 b r (Spec.col1 3 ch)) (v21 (ix2 0 ch)) := by
  unfold k1_pay1
  simp only [truncf_apply, maximumf_apply, addf_apply, broadcast_apply, shapeCast_self,
    slice_apply 0 0 rfl, slice_apply 1 64 rfl, slice_apply 2 128 rfl, slice_apply 3 192 rfl, bias_apply, conv_apply]
  show max _ (Ideal.ofBits .f32 0x00000000#32) = max _ 0
  rw [Ideal.ofBits_zero_f32]

/-! ## Loads and blocks read where the arrays say -/

theorem hz3 : (![0, 0, 0] : Fin 3 → Nat) = fun _ => 0 := funext fun a => by fin_cases a <;> rfl
theorem hz2 : (![0, 0] : Fin 2 → Nat) = fun _ => 0 := funext fun a => by fin_cases a <;> rfl

/-- The load of shift group `g` reads rows `r + (0, 1, 8, 9)[g]` of the [8, 72, 128] block. -/
theorem ld_apply (x0 : Vec Ideal S8x72x128 .bf16) (g : Fin 4) (b : Fin 8) (r : Fin 48) (k : Fin 128) :
    pieces (View.ld x0 r1_0) (View.ld x0 r1_1) (View.ld x0 r1_2) (View.ld x0 r1_3) g (ix3 b r k) = x0 (ix3 b (Spec.row1 g r) k) := by
  fin_cases g
  · refine congrArg x0 (funext fun a => Fin.ext ?_)
    match a with
    | ⟨0, _⟩ => show 0 + 1 * b.val = b.val; omega
    | ⟨1, _⟩ => show 0 + 1 * r.val = r.val + 0; omega
    | ⟨2, _⟩ => show 0 + 1 * k.val = k.val; omega
  · refine congrArg x0 (funext fun a => Fin.ext ?_)
    match a with
    | ⟨0, _⟩ => show 0 + 1 * b.val = b.val; omega
    | ⟨1, _⟩ => show 1 + 1 * r.val = r.val + 1; omega
    | ⟨2, _⟩ => show 0 + 1 * k.val = k.val; omega
  · refine congrArg x0 (funext fun a => Fin.ext ?_)
    match a with
    | ⟨0, _⟩ => show 0 + 1 * b.val = b.val; omega
    | ⟨1, _⟩ => show 8 + 1 * r.val = r.val + 8; omega
    | ⟨2, _⟩ => show 0 + 1 * k.val = k.val; omega
  · refine congrArg x0 (funext fun a => Fin.ext ?_)
    match a with
    | ⟨0, _⟩ => show 0 + 1 * b.val = b.val; omega
    | ⟨1, _⟩ => show 9 + 1 * r.val = r.val + 9; omega
    | ⟨2, _⟩ => show 0 + 1 * k.val = k.val; omega

/-- The printed index maps over the grid: the image windows' block index is the point along the batch axis and zero
    elsewhere; the weights' and the bias's is zero. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-! ## From the blocks to the array -/

/-- The image window's block at point `t` is images `8 t … 8 t + 7` of the packed input array. -/
theorem blk0_apply (c : Dev nD) (t : Fin cfg1.N) (x : S8x72x128.Idx) (i : S2048x72x128.Idx)
    (h0 : (i 0).val = 8 * t.val + (x 0).val) (h1 : (i 1).val = (x 1).val) (h2 : (i 2).val = (x 2).val) :
    (iblk1 V c 0 t : Vec Ideal S8x72x128 .bf16) x = (V c main_v17 : S2048x72x128.Idx → EReal) i := by
  obtain ⟨e0, e1, e2, -⟩ := idx_facts t
  unfold iblk1
  rw [View.read_apply]
  show V c main_v17 _ = V c main_v17 _
  congr 1
  funext a; apply Fin.ext
  match a with
  | ⟨0, _⟩ => show win1_0.index t 0 * 8 + 1 * (x 0).val = (i 0).val; rw [e0, h0]; omega
  | ⟨1, _⟩ => show win1_0.index t 1 * 72 + 1 * (x 1).val = (i 1).val; rw [e1, h1]; omega
  | ⟨2, _⟩ => show win1_0.index t 2 * 128 + 1 * (x 2).val = (i 2).val; rw [e2, h2]; omega

/-- The weights' block is the whole stacked weight array at every point. -/
theorem blk1_eq (c : Dev nD) (t : Fin cfg1.N) :
    (iblk1 V c 1 t : Vec Ideal S512x256 .bf16) = (V c main_v18 : S512x256.Idx → EReal) := by
  obtain ⟨-, -, -, e3, e4, -⟩ := idx_facts t
  funext x
  unfold iblk1
  rw [View.read_apply]
  show V c main_v18 _ = V c main_v18 x
  congr 1
  funext a; apply Fin.ext
  match a with
  | ⟨0, _⟩ => show win1_1.index t 0 * 512 + 1 * (x 0).val = (x 0).val; rw [e3]; omega
  | ⟨1, _⟩ => show win1_1.index t 1 * 256 + 1 * (x 1).val = (x 1).val; rw [e4]; omega

/-- The bias's block is the whole bias row at every point. -/
theorem blk2_eq (c : Dev nD) (t : Fin cfg1.N) :
    (iblk1 V c 2 t : Vec Ideal S1x64 .f32) = (V c main_arg3 : S1x64.Idx → EReal) := by
  obtain ⟨-, -, -, -, -, e5, e6, -⟩ := idx_facts t
  funext x
  unfold iblk1
  rw [View.read_apply]
  show V c main_arg3 _ = V c main_arg3 x
  congr 1
  funext a; apply Fin.ext
  match a with
  | ⟨0, _⟩ => show win1_2.index t 0 * 1 + 1 * (x 0).val = (x 0).val; rw [e5]; omega
  | ⟨1, _⟩ => show win1_2.index t 1 * 64 + 1 * (x 1).val = (x 1).val; rw [e6]; omega

/-- ONE POINT, ONE IMAGE: when image `b` of the block is image `n` of the array, the payload at row `r`, channel `ch` of
    image `b` is the stage's pooled output at `(n, r, ch)`. -/
theorem point_eq (X : Spec.Arr3 2048 72 128) (wk : Spec.Arr2 512 256) (bias : Spec.Arr2 1 64)
    (x0 : Vec Ideal S8x72x128 .bf16) (n : Fin 2048) (b : Fin 8)
    (hx : ∀ (ρ : Fin 72) (k : Fin 128), x0 (ix3 b ρ k) = X (ix3 n ρ k)) (r : Fin 48) (ch : Fin 64) :
    k1_pay1 (F := Ideal) (View.ld x0 r1_0) (View.ld x0 r1_1) (View.ld x0 r1_2) (View.ld x0 r1_3) wk bias (ix3 b r ch)
      = Spec.convPoolFlat Spec.gk1 Spec.row1 Spec.col1 X wk bias (ix3 n r ch) := by
  rw [pay_apply]
  have hacc : ∀ j : Fin 256, accAt (pieces (View.ld x0 r1_0) (View.ld x0 r1_1) (View.ld x0 r1_2) (View.ld x0 r1_3)) wk b r j
      = Spec.convAccFlat Spec.gk1 Spec.row1 X wk n r j := fun j => by
    unfold accAt Spec.convAccFlat
    refine Finset.sum_congr rfl fun kk _ => ?_
    rw [ld_apply, hx]
  rw [hacc, hacc, hacc, hacc]
  rfl

set_option maxHeartbeats 400000 in
/-- WHAT POINT `t` WRITES BACK is block `t` of the stage's pooled output of the arrays the region found. -/
theorem flushed_eq (c : Dev nD) (t : Fin cfg1.N) :
    (dat1 V c).flushed 3 t = ((cfg1.win 3).blk t).view.read (Elt Ideal)
      (Spec.convPoolFlat Spec.gk1 Spec.row1 Spec.col1 (V c main_v17) (V c main_v18) (V c main_arg3)) := by
  show (cfg1.win 3).cut (grid1.coords t) ((dat1 V c).after 3 t) = _
  rw [after1_3]
  unfold out1_3
  rw [View.canon_unit_zero hz3]
  simp only [View.ld_unit_zero (S := S512x256) hz2, View.ld_unit_zero (S := S1x64) hz2]
  rw [blk1_eq, blk2_eq]
  obtain ⟨-, -, -, -, -, -, -, e7, e8, e9⟩ := idx_facts t
  have ht : t.val < 256 := Nat.lt_of_lt_of_eq t.isLt N_1
  funext j
  have hj0 : (j 0).val < 8 := (j 0).isLt
  have hj1 : (j 1).val < 48 := (j 1).isLt
  have hj2 : (j 2).val < 64 := (j 2).isLt
  have key := point_eq (V c main_v17) (V c main_v18) (V c main_arg3) (iblk1 V c 0 t)
    ⟨8 * t.val + (j 0).val, by omega⟩ ⟨(j 0).val, hj0⟩
    (fun ρ k => blk0_apply V c t (ix3 ⟨(j 0).val, hj0⟩ ρ k) (ix3 ⟨8 * t.val + (j 0).val, by omega⟩ ρ k) rfl rfl rfl)
    ⟨(j 1).val, hj1⟩ ⟨(j 2).val, hj2⟩
  refine Eq.trans ?_ (key.trans ?_)
  · show k1_pay1 _ _ _ _ _ _ _ = k1_pay1 _ _ _ _ _ _ _
    congr 1
    funext a
    match a with
    | ⟨0, _⟩ => rfl
    | ⟨1, _⟩ => rfl
    | ⟨2, _⟩ => rfl
  · rw [View.read_apply]
    show Spec.convPoolFlat _ _ _ _ _ _ _ = Spec.convPoolFlat _ _ _ _ _ _ _
    congr 1
    funext a; apply Fin.ext
    match a with
    | ⟨0, _⟩ => show 8 * t.val + (j 0).val = win1_3.index t 0 * 8 + 1 * (j 0).val; rw [e7]; omega
    | ⟨1, _⟩ => show (j 1).val = win1_3.index t 1 * 48 + 1 * (j 1).val; rw [e8]; omega
    | ⟨2, _⟩ => show (j 2).val = win1_3.index t 2 * 64 + 1 * (j 2).val; rw [e9]; omega

/-- Every index of the output array is in some point's block: image `n` is in point `n / 8`'s. -/
theorem cover (i : S2048x48x64.Idx) :
    ∃ t : Fin cfg1.N, (cfg1.win 3).flush t = true ∧ i ∈ ((cfg1.win 3).blk t).view.set := by
  have hN : cfg1.N = 256 := N_1
  have h0 : (i 0).val < 2048 := (i 0).isLt
  have h1 : (i 1).val < 48 := (i 1).isLt
  have h2 : (i 2).val < 64 := (i 2).isLt
  have hlt : (i 0).val / 8 < cfg1.N := by rw [hN]; omega
  obtain ⟨-, -, -, -, -, -, -, e7, e8, e9⟩ := idx_facts ⟨(i 0).val / 8, hlt⟩
  refine ⟨⟨(i 0).val / 8, hlt⟩, flush1_3 _, ?_⟩
  show i ∈ ((View.whole main_v19).slice (win1_3.rect ⟨(i 0).val / 8, hlt⟩)).set
  rw [View.set_slice_whole, Rect.mem_set_unit]
  intro a
  match a with
  | ⟨0, _⟩ =>
    show win1_3.index ⟨(i 0).val / 8, hlt⟩ 0 * 8 ≤ (i 0).val ∧ (i 0).val < win1_3.index ⟨(i 0).val / 8, hlt⟩ 0 * 8 + 8
    rw [e7]; show (i 0).val / 8 * 8 ≤ (i 0).val ∧ (i 0).val < (i 0).val / 8 * 8 + 8; omega
  | ⟨1, _⟩ =>
    show win1_3.index ⟨(i 0).val / 8, hlt⟩ 1 * 48 ≤ (i 1).val ∧ (i 1).val < win1_3.index ⟨(i 0).val / 8, hlt⟩ 1 * 48 + 48
    rw [e8]; omega
  | ⟨2, _⟩ =>
    show win1_3.index ⟨(i 0).val / 8, hlt⟩ 2 * 64 ≤ (i 2).val ∧ (i 2).val < win1_3.index ⟨(i 0).val / 8, hlt⟩ 2 * 64 + 64
    rw [e9]; omega

/-- After the second convolution region its output array holds the stage's pooled output, over weights stacked along
    the contraction axis, of the arrays the region found. -/
theorem arr (c : Dev nD) :
    (dat1 V c).arrAt 3 cfg1.N
      = Spec.convPoolFlat Spec.gk1 Spec.row1 Spec.col1 (V c main_v17) (V c main_v18) (V c main_arg3) :=
  (dat1 V c).arrAt_eq_of_cover 3 _ (fun t _ => flushed_eq V c t) cover

end Cert.KernelIdeal.Conv1

end
-- ==== Proof.KVal2.lean ====
import proofs.«111038_g2000003154481155_pallasbulk_2_2_alg».proof.Proof.Gen.KernelIdeal.Frame
import proofs.«111038_g2000003154481155_pallasbulk_2_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fc

open Cert.KernelIdeal Cert.KernelIdeal.Gen

-- the TensorCore's buffer contents when the region is entered: any contents
variable (V : (c : Dev nD) → (b : Ref sig .tc) → Buf (Elt Ideal) ((c : Thread nD τ).loc b))

/-! ## The three products' dimension records are the plain matrix product's -/

theorem dot1_eq : dot_S256x2304_S2304x128_S256x128_1_0_0_1_n_n = DotDims.plain 256 2304 128 := rfl
theorem dot2_eq : dot_S256x128_S128x84_S256x84_1_0_0_1_n_n = DotDims.plain 256 128 84 := rfl
theorem dot3_eq : dot_S256x84_S84x10_S256x10_1_0_0_1_n_n = DotDims.plain 256 84 10 := rfl

/-! ## One layer at an index -/

/-- A product accumulated into the zero array, read at an index: the sum over the contracted coordinate. -/
theorem matmul_plain_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant (F := Ideal) ⟨2, ![m, n]⟩ .f32 0x00000000#32) (ix2 a b)
      = ∑ c : Fin k, A (ix2 a c) * B (ix2 c b) := by
  rw [matmul_zero_eq_dotGeneral, StackMember.dotGeneral_plain_apply]

/-- A product plus a bias row, read at an index. -/
theorem affine_apply {m k n : Nat} {φ₁ φ₂ : FTy} (A : FVec Ideal ⟨2, ![m, k]⟩ φ₁) (B : FVec Ideal ⟨2, ![k, n]⟩ φ₂)
    (bias : FVec Ideal ⟨2, ![1, n]⟩ .f32) (h : (⟨2, ![1, n]⟩ : Shape).Broadcasts ⟨2, ![m, n]⟩) (a : Fin m) (b : Fin n) :
    addf (matmul (DotDims.plain m k n) none A B (constant (F := Ideal) ⟨2, ![m, n]⟩ .f32 0x00000000#32))
        (broadcastTo ⟨2, ![m, n]⟩ bias h) (ix2 a b)
      = (∑ c : Fin k, A (ix2 a c) * B (ix2 c b)) + bias (ix2 0 b) := by
  rw [addf_apply, matmul_plain_apply, broadcastTo_1b_ab_apply]

/-- A product plus a bias row, clamped at zero, read at an index. -/
theorem relu_affine_apply {m k n : Nat} {φ₁ φ₂ : FTy} (A : FVec Ideal ⟨2, ![m, k]⟩ φ₁) (B : FVec Ideal ⟨2, ![k, n]⟩ φ₂)
    (bias : FVec Ideal ⟨2, ![1, n]⟩ .f32) (h : (⟨2, ![1, n]⟩ : Shape).Broadcasts ⟨2, ![m, n]⟩) (a : Fin m) (b : Fin n) :
    maximumf (addf (matmul (DotDims.plain m k n) none A B (constant (F := Ideal) ⟨2, ![m, n]⟩ .f32 0x00000000#32))
        (broadcastTo ⟨2, ![m, n]⟩ bias h)) (broadcast ⟨2, ![m, n]⟩ (FloatOps.ofBits (F := Ideal) .f32 0x00000000#32)) (ix2 a b)
      = max ((∑ c : Fin k, A (ix2 a c) * B (ix2 c b)) + bias (ix2 0 b)) 0 := by
  rw [maximumf_apply, affine_apply, broadcast_apply]
  show max _ (Ideal.ofBits .f32 0x00000000#32) = _
  rw [Ideal.ofBits_zero_f32]

/-! ## The two payloads at an index -/

/-- The hidden activations' block at (r, ch), of the loaded blocks. -/
theorem pay1_apply (v0 : Vec Ideal S256x2304 .bf16) (v2 : Vec Ideal S2304x128 .bf16) (v4 : Vec Ideal S1x128 .f32)
    (v9 : Vec Ideal S128x84 .f32) (v11 : Vec Ideal S1x84 .f32) (r : Fin 256) (ch : Fin 84) :
    k2_pay1 v0 v2 v4 v9 v11 (ix2 r ch) = Spec.fcH2 (N := 256) (D := 2304) (H := 128) (P := 84) v0 v2 v4 v9 v11 r ch := by
  unfold k2_pay1 Spec.fcH2 Spec.fcH1
  rw [dot1_eq, dot2_eq, shapeCast_self]
  refine (relu_affine_apply _ v9 v11 _ r ch).trans ?_
  refine congrArg (fun s => max (s + v11 (ix2 0 ch)) 0) (Finset.sum_congr rfl fun k _ => ?_)
  rw [relu_affine_apply]

/-- The logits' block at (r, q), of the loaded blocks. -/
theorem pay2_apply (v0 : Vec Ideal S256x2304 .bf16) (v2 : Vec Ideal S2304x128 .bf16) (v4 : Vec Ideal S1x128 .f32)
    (v9 : Vec Ideal S128x84 .f32) (v11 : Vec Ideal S1x84 .f32) (v16 : Vec Ideal S84x10 .f32) (v18 : Vec Ideal S1x10 .f32)
    (r : Fin 256) (q : Fin 10) :
    k2_pay2 v0 v2 v4 v9 v11 v16 v18 (ix2 r q)
      = Spec.fcOut (N := 256) (D := 2304) (H := 128) (P := 84) (Q := 10) v0 v2 v4 v9 v11 v16 v18 r q := by
  unfold k2_pay2 Spec.fcOut
  rw [dot3_eq]
  refine (affine_apply _ v16 v18 _ r q).trans ?_
  refine congrArg (fun s => s + v18 (ix2 0 q)) (Finset.sum_congr rfl fun k _ => ?_)
  rw [pay1_apply]

/-! ## The windows' blocks as rows of the arrays -/

theorem hz : (![0, 0] : Fin 2 → Nat) = fun _ => 0 := funext fun a => by fin_cases a <;> rfl

/-- The index maps over the eight grid points: the activations' window and the two outputs' move one block of rows per
    point; the six parameter windows stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The activations' block at point t is rows 256 t … 256 t + 255 of the array. -/
theorem blk0_apply (c : Dev nD) (t : Fin cfg2.N) (x : S256x2304.Idx) (k : S2048x2304.Idx)
    (hk0 : (k 0).val = 256 * t.val + (x 0).val) (hk1 : (k 1).val = (x 1).val) :
    (iblk2 V c 0 t : Vec Ideal S256x2304 .bf16) x = (V c main_v23 : S2048x2304.Idx → EReal) k := by
  obtain ⟨e0, e1, -⟩ := idx_facts t
  unfold iblk2
  rw [View.read_apply]
  show V c main_v23 _ = V c main_v23 _
  congr 1
  funext a
  apply Fin.ext
  match a with
  | ⟨0, _⟩ => show win2_0.index t (0 : Fin 2) * 256 + 1 * (x 0).val = (k 0).val; rw [e0, hk0]; omega
  | ⟨1, _⟩ => show win2_0.index t (1 : Fin 2) * 2304 + 1 * (x 1).val = (k 1).val; rw [e1, hk1]; omega

/-- The first layer's weights are loaded whole at every point. -/
theorem blk1_eq (c : Dev nD) (t : Fin cfg2.N) : (iblk2 V c 1 t : Vec Ideal S2304x128 .bf16) = V c main_arg4 := by
  obtain ⟨-, -, e0, e1, -⟩ := idx_facts t
  funext x
  unfold iblk2
  rw [View.read_apply]
  show V c main_arg4 _ = V c main_arg4 x
  congr 1
  funext a
  apply Fin.ext
  match a with
  | ⟨0, _⟩ => show win2_1.index t (0 : Fin 2) * 2304 + 1 * (x 0).val = (x 0).val; rw [e0]; omega
  | ⟨1, _⟩ => show win2_1.index t (1 : Fin 2) * 128 + 1 * (x 1).val = (x 1).val; rw [e1]; omega

/-- The first layer's bias row is loaded whole at every point. -/
theorem blk2_eq (c : Dev nD) (t : Fin cfg2.N) : (iblk2 V c 2 t : Vec Ideal S1x128 .f32) = V c main_arg5 := by
  obtain ⟨-, -, -, -, e0, e1, -⟩ := idx_facts t
  funext x
  unfold iblk2
  rw [View.read_apply]
  show V c main_arg5 _ = V c main_arg5 x
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- The second layer's weights are loaded whole at every point. -/
theorem blk3_eq (c : Dev nD) (t : Fin cfg2.N) : (iblk2 V c 3 t : Vec Ideal S128x84 .f32) = V c main_arg6 := by
  obtain ⟨-, -, -, -, -, -, e0, e1, -⟩ := idx_facts t
  funext x
  unfold iblk2
  rw [View.read_apply]
  show V c main_arg6 _ = V c main_arg6 x
  congr 1
  funext a
  apply Fin.ext
  match a with
  | ⟨0, _⟩ => show win2_3.index t (0 : Fin 2) * 128 + 1 * (x 0).val = (x 0).val; rw [e0]; omega
  | ⟨1, _⟩ => show win2_3.index t (1 : Fin 2) * 84 + 1 * (x 1).val = (x 1).val; rw [e1]; omega

/-- The second layer's bias row is loaded whole at every point. -/
theorem blk4_eq (c : Dev nD) (t : Fin cfg2.N) : (iblk2 V c 4 t : Vec Ideal S1x84 .f32) = V c main_arg7 := by
  obtain ⟨-, -, -, -, -, -, -, -, e0, e1, -⟩ := idx_facts t
  funext x
  unfold iblk2
  rw [View.read_apply]
  show V c main_arg7 _ = V c main_arg7 x
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 84 + 1 * (x 1).val = (x 1).val; rw [e1]; omega

/-- The third layer's weights are loaded whole at every point. -/
theorem blk5_eq (c : Dev nD) (t : Fin cfg2.N) : (iblk2 V c 5 t : Vec Ideal S84x10 .f32) = V c main_arg8 := by
  obtain ⟨-, -, -, -, -, -, -, -, -, -, e0, e1, -⟩ := idx_facts t
  funext x
  unfold iblk2
  rw [View.read_apply]
  show V c main_arg8 _ = V c main_arg8 x
  congr 1
  funext a
  apply Fin.ext
  match a with
  | ⟨0, _⟩ => show win2_5.index t (0 : Fin 2) * 84 + 1 * (x 0).val = (x 0).val; rw [e0]; omega
  | ⟨1, _⟩ => show win2_5.index t (1 : Fin 2) * 10 + 1 * (x 1).val = (x 1).val; rw [e1]; omega

/-- The third layer's bias row is loaded whole at every point. -/
theorem blk6_eq (c : Dev nD) (t : Fin cfg2.N) : (iblk2 V c 6 t : Vec Ideal S1x10 .f32) = V c main_arg9 := by
  obtain ⟨-, -, -, -, -, -, -, -, -, -, -, -, e0, e1, -⟩ := idx_facts t
  funext x
  unfold iblk2
  rw [View.read_apply]
  show V c main_arg9 _ = V c main_arg9 x
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 10 + 1 * (x 1).val = (x 1).val; rw [e1]; omega

/-! ## The specification row by row -/

/-- The hidden activations of a row depend only on that row of the input. -/
theorem fcH2_row {N N' D H P : Nat} (x : Spec.Arr2 N D) (x' : Spec.Arr2 N' D) (w1 : Spec.Arr2 D H) (b1 : Spec.Arr2 1 H)
    (w2 : Spec.Arr2 H P) (b2 : Spec.Arr2 1 P) (r : Fin N) (r' : Fin N') (h : ∀ j : Fin D, x (ix2 r j) = x' (ix2 r' j))
    (ch : Fin P) : Spec.fcH2 x w1 b1 w2 b2 r ch = Spec.fcH2 x' w1 b1 w2 b2 r' ch := by
  unfold Spec.fcH2 Spec.fcH1
  simp only [h]

/-- The logits of a row depend only on that row of the input. -/
theorem fcOut_row {N N' D H P Q : Nat} (x : Spec.Arr2 N D) (x' : Spec.Arr2 N' D) (w1 : Spec.Arr2 D H) (b1 : Spec.Arr2 1 H)
    (w2 : Spec.Arr2 H P) (b2 : Spec.Arr2 1 P) (w3 : Spec.Arr2 P Q) (b3 : Spec.Arr2 1 Q) (r : Fin N) (r' : Fin N')
    (h : ∀ j : Fin D, x (ix2 r j) = x' (ix2 r' j)) (q : Fin Q) :
    Spec.fcOut x w1 b1 w2 b2 w3 b3 r q = Spec.fcOut x' w1 b1 w2 b2 w3 b3 r' q := by
  unfold Spec.fcOut
  simp only [fcH2_row x x' w1 b1 w2 b2 r r' h]

/-! ## What each point writes back -/

/-- Point t writes back block t of the hidden activations of the arrays the region found. -/
theorem flushed7_eq (c : Dev nD) (t : Fin cfg2.N) :
    (dat2 V c).flushed 7 t = ((cfg2.win 7).blk t).view.read (Elt Ideal)
      (Spec.h2Arr (V c main_v23) (V c main_arg4) (V c main_arg5) (V c main_arg6) (V c main_arg7)) := by
  show (cfg2.win 7).cut (grid2.coords t) ((dat2 V c).after 7 t) = _
  rw [after2_7]
  unfold out2_7
  rw [View.canon_unit_zero hz]
  simp only [View.ld_unit_zero (S := S256x2304) hz, View.ld_unit_zero (S := S2304x128) hz,
    View.ld_unit_zero (S := S1x128) hz, View.ld_unit_zero (S := S128x84) hz, View.ld_unit_zero (S := S1x84) hz]
  rw [blk1_eq, blk2_eq, blk3_eq, blk4_eq]
  funext y
  obtain ⟨r, ch, rfl⟩ : ∃ (r : Fin 256) (ch : Fin 84), y = ix2 r ch := ⟨y 0, y 1, eq_ix2 y⟩
  show k2_pay1 (iblk2 V c 0 t) (V c main_arg4) (V c main_arg5) (V c main_arg6) (V c main_arg7) (ix2 r ch)
      = Spec.fcH2 (N := 2048) (D := 2304) (H := 128) (P := 84) (V c main_v23) (V c main_arg4) (V c main_arg5) (V c main_arg6) (V c main_arg7)
          ((((cfg2.win 7).blk t).view.emb (ix2 r ch)) 0) ((((cfg2.win 7).blk t).view.emb (ix2 r ch)) 1)
  rw [pay1_apply]
  obtain ⟨-, -, -, -, -, -, -, -, -, -, -, -, -, -, e0, e1, -⟩ := idx_facts t
  have hrow : ((((cfg2.win 7).blk t).view.emb (ix2 r ch)) 0 : Nat) = 256 * t.val + r.val := by
    show win2_7.index t (0 : Fin 2) * 256 + 1 * r.val = _
    rw [e0]; omega
  have hcol : (((cfg2.win 7).blk t).view.emb (ix2 r ch)) 1 = ch := Fin.ext (by
    show win2_7.index t (1 : Fin 2) * 84 + 1 * ch.val = ch.val
    rw [e1]; omega)
  rw [hcol]
  exact fcH2_row (N := 256) (N' := 2048) (D := 2304) (H := 128) (P := 84) (iblk2 V c 0 t) (V c main_v23) _ _ _ _ r _
    (fun j => blk0_apply V c t (ix2 r j) (ix2 _ j) hrow rfl) ch

/-- Point t writes back block t of the logits of the arrays the region found. -/
theorem flushed8_eq (c : Dev nD) (t : Fin cfg2.N) :
    (dat2 V c).flushed 8 t = ((cfg2.win 8).blk t).view.read (Elt Ideal)
      (Spec.outArr (V c main_v23) (V c main_arg4) (V c main_arg5) (V c main_arg6) (V c main_arg7) (V c main_arg8) (V c main_arg9)) := by
  show (cfg2.win 8).cut (grid2.coords t) ((dat2 V c).after 8 t) = _
  rw [after2_8]
  unfold out2_8
  rw [View.canon_unit_zero hz]
  simp only [View.ld_unit_zero (S := S256x2304) hz, View.ld_unit_zero (S := S2304x128) hz,
    View.ld_unit_zero (S := S1x128) hz, View.ld_unit_zero (S := S128x84) hz, View.ld_unit_zero (S := S1x84) hz,
    View.ld_unit_zero (S := S84x10) hz, View.ld_unit_zero (S := S1x10) hz]
  rw [blk1_eq, blk2_eq, blk3_eq, blk4_eq, blk5_eq, blk6_eq]
  funext y
  obtain ⟨r, q, rfl⟩ : ∃ (r : Fin 256) (q : Fin 10), y = ix2 r q := ⟨y 0, y 1, eq_ix2 y⟩
  show k2_pay2 (iblk2 V c 0 t) (V c main_arg4) (V c main_arg5) (V c main_arg6) (V c main_arg7) (V c main_arg8) (V c main_arg9) (ix2 r q)
      = Spec.fcOut (N := 2048) (D := 2304) (H := 128) (P := 84) (Q := 10) (V c main_v23) (V c main_arg4) (V c main_arg5) (V c main_arg6)
          (V c main_arg7) (V c main_arg8) (V c main_arg9)
          ((((cfg2.win 8).blk t).view.emb (ix2 r q)) 0) ((((cfg2.win 8).blk t).view.emb (ix2 r q)) 1)
  rw [pay2_apply]
  obtain ⟨-, -, -, -, -, -, -, -, -, -, -, -, -, -, -, -, e0, e1⟩ := idx_facts t
  have hrow : ((((cfg2.win 8).blk t).view.emb (ix2 r q)) 0 : Nat) = 256 * t.val + r.val := by
    show win2_8.index t (0 : Fin 2) * 256 + 1 * r.val = _
    rw [e0]; omega
  have hcol : (((cfg2.win 8).blk t).view.emb (ix2 r q)) 1 = q := Fin.ext (by
    show win2_8.index t (1 : Fin 2) * 10 + 1 * q.val = q.val
    rw [e1]; omega)
  rw [hcol]
  exact fcOut_row (N := 256) (N' := 2048) (D := 2304) (H := 128) (P := 84) (Q := 10) (iblk2 V c 0 t) (V c main_v23) _ _ _ _ _ _ r _
    (fun j => blk0_apply V c t (ix2 r j) (ix2 _ j) hrow rfl) q

/-! ## The blocks cover the arrays -/

/-- An index of the hidden activations' array is in point t's block iff each coordinate is in the block's range. -/
theorem mem_blk7 (t : Fin cfg2.N) (i : S2048x84.Idx) :
    i ∈ ((cfg2.win 7).blk t).view.set ↔ ∀ a : Fin 2, win2_7.index t a * S256x84.size a ≤ (i a).val
      ∧ (i a).val < win2_7.index t a * S256x84.size a + S256x84.size a := by
  show i ∈ ((View.whole main_v24_0).slice (win2_7.rect t)).set ↔ _
  rw [View.set_slice_whole, Rect.mem_set_unit]
  exact Iff.rfl

/-- An index of the logits' array is in point t's block iff each coordinate is in the block's range. -/
theorem mem_blk8 (t : Fin cfg2.N) (i : S2048x10.Idx) :
    i ∈ ((cfg2.win 8).blk t).view.set ↔ ∀ a : Fin 2, win2_8.index t a * S256x10.size a ≤ (i a).val
      ∧ (i a).val < win2_8.index t a * S256x10.size a + S256x10.size a := by
  show i ∈ ((View.whole main_v24_1).slice (win2_8.rect t)).set ↔ _
  rw [View.set_slice_whole, Rect.mem_set_unit]
  exact Iff.rfl

/-- Row n of the hidden activations' array is in the block of point n / 256. -/
theorem cover7 (i : S2048x84.Idx) : ∃ t : Fin cfg2.N, (cfg2.win 7).flush t = true ∧ i ∈ ((cfg2.win 7).blk t).view.set := by
  have hN : cfg2.N = 8 := N_2
  have h0 : (i 0).val < 2048 := (i 0).isLt
  have h1 : (i 1).val < 84 := (i 1).isLt
  refine ⟨⟨(i 0).val / 256, by rw [hN]; omega⟩, flush2_7 _, ?_⟩
  rw [mem_blk7]
  obtain ⟨-, -, -, -, -, -, -, -, -, -, -, -, -, -, e0, e1, -⟩ := idx_facts ⟨(i 0).val / 256, by rw [hN]; omega⟩
  intro a
  match a with
  | ⟨0, _⟩ =>
    show win2_7.index _ (0 : Fin 2) * 256 ≤ (i 0).val ∧ (i 0).val < win2_7.index _ (0 : Fin 2) * 256 + 256
    rw [e0]; show (i 0).val / 256 * 256 ≤ (i 0).val ∧ (i 0).val < (i 0).val / 256 * 256 + 256; omega
  | ⟨1, _⟩ =>
    show win2_7.index _ (1 : Fin 2) * 84 ≤ (i 1).val ∧ (i 1).val < win2_7.index _ (1 : Fin 2) * 84 + 84
    rw [e1]; omega

/-- Row n of the logits' array is in the block of point n / 256. -/
theorem cover8 (i : S2048x10.Idx) : ∃ t : Fin cfg2.N, (cfg2.win 8).flush t = true ∧ i ∈ ((cfg2.win 8).blk t).view.set := by
  have hN : cfg2.N = 8 := N_2
  have h0 : (i 0).val < 2048 := (i 0).isLt
  have h1 : (i 1).val < 10 := (i 1).isLt
  refine ⟨⟨(i 0).val / 256, by rw [hN]; omega⟩, flush2_8 _, ?_⟩
  rw [mem_blk8]
  obtain ⟨-, -, -, -, -, -, -, -, -, -, -, -, -, -, -, -, e0, e1⟩ := idx_facts ⟨(i 0).val / 256, by rw [hN]; omega⟩
  intro a
  match a with
  | ⟨0, _⟩ =>
    show win2_8.index _ (0 : Fin 2) * 256 ≤ (i 0).val ∧ (i 0).val < win2_8.index _ (0 : Fin 2) * 256 + 256
    rw [e0]; show (i 0).val / 256 * 256 ≤ (i 0).val ∧ (i 0).val < (i 0).val / 256 * 256 + 256; omega
  | ⟨1, _⟩ =>
    show win2_8.index _ (1 : Fin 2) * 10 ≤ (i 1).val ∧ (i 1).val < win2_8.index _ (1 : Fin 2) * 10 + 10
    rw [e1]; omega

/-! ## The two arrays after the region -/

/-- After the fully connected region its first output array holds the hidden activations of the arrays it found. -/
theorem arr_h2 (c : Dev nD) :
    (dat2 V c).arrAt 7 cfg2.N
      = Spec.h2Arr (V c main_v23) (V c main_arg4) (V c main_arg5) (V c main_arg6) (V c main_arg7) :=
  (dat2 V c).arrAt_eq_of_cover 7 _ (fun t _ => flushed7_eq V c t) cover7

/-- … and its second output array the logits. -/
theorem arr_out (c : Dev nD) :
    (dat2 V c).arrAt 8 cfg2.N
      = Spec.outArr (V c main_v23) (V c main_arg4) (V c main_arg5) (V c main_arg6) (V c main_arg7) (V c main_arg8) (V c main_arg9) :=
  (dat2 V c).arrAt_eq_of_cover 8 _ (fun t _ => flushed8_eq V c t) cover8

end Cert.KernelIdeal.Fc

end
-- ==== Proof.Net.lean ====
/-
  The whole network as one function of the launch arrays, and the one layout fact the stacked-weights form needs:
  reshaping the four weight blocks [4, K, J] to [4K, J] puts block g's row k at row g·K + k, which is the stacking
  `Spec.stackW` along the bijection kk ↦ (kk / K, kk % K).
-/
import proofs.«111038_g2000003154481155_pallasbulk_2_2_alg».proof.Proof.Spec
import Idealize.ShloMosaic.Lib.Pipeline.Value

noncomputable section

namespace Cert.Spec

open Idealize.ShloMosaic Idealize.ShloMosaic.ValueIdx

/-- Row kk of the reshaped stage-1 weights is row kk % 12 of block kk / 12. -/
theorem reshape_stack0 (w : Arr3 4 12 128) (h : (⟨3, ![4, 12, 128]⟩ : Shape).ShapeCasts (⟨2, ![48, 128]⟩ : Shape)) :
    shapeCast (⟨2, ![48, 128]⟩ : Shape) w h = stackW gk0 w := by
  funext q
  obtain ⟨a, b, rfl⟩ : ∃ (a : Fin 48) (b : Fin 128), q = ix2 a b := ⟨q 0, q 1, eq_ix2 q⟩
  show shapeCast _ w h (ix2 a b) = w (ix3 (gk0 a).1 (gk0 a).2 b)
  refine shapeCast_apply w h (ix2 a b) _ ?_
  rw [Shape.rowMajor_val_three, Shape.rowMajor_val_two]
  show ((gk0 a).1.val * 12 + (gk0 a).2.val) * 128 + b.val = a.val * 128 + b.val
  rw [gk0_fst, gk0_snd]
  omega

/-- Row kk of the reshaped stage-2 weights is row kk % 128 of block kk / 128. -/
theorem reshape_stack1 (w : Arr3 4 128 256) (h : (⟨3, ![4, 128, 256]⟩ : Shape).ShapeCasts (⟨2, ![512, 256]⟩ : Shape)) :
    shapeCast (⟨2, ![512, 256]⟩ : Shape) w h = stackW gk1 w := by
  funext q
  obtain ⟨a, b, rfl⟩ : ∃ (a : Fin 512) (b : Fin 256), q = ix2 a b := ⟨q 0, q 1, eq_ix2 q⟩
  show shapeCast _ w h (ix2 a b) = w (ix3 (gk1 a).1 (gk1 a).2 b)
  refine shapeCast_apply w h (ix2 a b) _ ?_
  rw [Shape.rowMajor_val_three, Shape.rowMajor_val_two]
  show ((gk1 a).1.val * 128 + (gk1 a).2.val) * 256 + b.val = a.val * 256 + b.val
  rw [gk1_fst, gk1_snd]
  omega

/-- What the fully connected stack reads: both convolution stages over the packed image batch, flattened per image. -/
def features (w0 : Arr3 4 12 128) (b0 : Arr2 1 32) (w1 : Arr3 4 128 256) (b1 : Arr2 1 64)
    (x : FVec Ideal (⟨4, ![2048, 3, 32, 32]⟩ : Shape) .f32) : Arr2 2048 2304 :=
  flatOut (convPool row1 col1 (packMid (convPool row0 col0 (imageIn x) w0 b0)) w1 b1)

/-- The network's hidden activations. -/
def netH2 (w0 : Arr3 4 12 128) (b0 : Arr2 1 32) (w1 : Arr3 4 128 256) (b1 : Arr2 1 64) (f1 : Arr2 2304 128) (c1 : Arr2 1 128)
    (f2 : Arr2 128 84) (c2 : Arr2 1 84) (x : FVec Ideal (⟨4, ![2048, 3, 32, 32]⟩ : Shape) .f32) : Arr2 2048 84 :=
  h2Arr (features w0 b0 w1 b1 x) f1 c1 f2 c2

/-- The network's logits. -/
def netOut (w0 : Arr3 4 12 128) (b0 : Arr2 1 32) (w1 : Arr3 4 128 256) (b1 : Arr2 1 64) (f1 : Arr2 2304 128) (c1 : Arr2 1 128)
    (f2 : Arr2 128 84) (c2 : Arr2 1 84) (f3 : Arr2 84 10) (c3 : Arr2 1 10)
    (x : FVec Ideal (⟨4, ![2048, 3, 32, 32]⟩ : Shape) .f32) : Arr2 2048 10 :=
  outArr (features w0 b0 w1 b1 x) f1 c1 f2 c2 f3 c3

end Cert.Spec

end
-- ==== Proof.KValue.lean ====
/-
  The kernel program's two results as the network's function of the launch arrays: each region's output array is the stage's
  function of the arrays the region found; those are the layout glue of the previous region's output, or launch
  arguments (the stacked weights a reshape of the four weight blocks, over which the stacked sum is the iterated one); composed from the last boundary back to the launch.
-/
import proofs.«111038_g2000003154481155_pallasbulk_2_2_alg».proof.Proof.KRun
import proofs.«111038_g2000003154481155_pallasbulk_2_2_alg».proof.Proof.KHost
import proofs.«111038_g2000003154481155_pallasbulk_2_2_alg».proof.Proof.KVal0
import proofs.«111038_g2000003154481155_pallasbulk_2_2_alg».proof.Proof.KVal1
import proofs.«111038_g2000003154481155_pallasbulk_2_2_alg».proof.Proof.KVal2
import proofs.«111038_g2000003154481155_pallasbulk_2_2_alg».proof.Proof.Net

set_option maxRecDepth 16384

noncomputable section

namespace Cert.KernelIdeal.Results

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first region leaves stage 1's pooled output of the packed launch image. -/
theorem stage0 (c : Dev nD) :
    W6 m ρ c (Proc.devRef .tc main_v9)
      = Spec.convPool Spec.row0 Spec.col0 (Spec.imageIn (m ((c : Thread nD τ).loc main_arg10)))
          (m ((c : Thread nD τ).loc main_arg0)) (m ((c : Thread nD τ).loc main_arg1)) := by
  refine (W6_arr m ρ c 3).trans ?_
  refine (Conv0.arr (V5 m ρ) c).trans ?_
  have e1 : V5 m ρ c main_v7 = Spec.imageIn (m ((c : Thread nD τ).loc main_arg10)) := Host.entry0_x m ρ c
  have e2 : V5 m ρ c main_v8 = Spec.stackW Spec.gk0 (m ((c : Thread nD τ).loc main_arg0)) :=
    (Host.entry0_w m ρ c).trans (Spec.reshape_stack0 _ _)
  have e3 : V5 m ρ c main_arg1 = m ((c : Thread nD τ).loc main_arg1) := Host.entry0_b m ρ c
  rw [e1, e2, e3]
  exact Spec.convPoolFlat_eq _ _ _ _ _ _

/-- The second region leaves stage 2's pooled output of stage 1's output, packed again. -/
theorem stage1 (c : Dev nD) :
    W12 m ρ c (Proc.devRef .tc main_v19)
      = Spec.convPool Spec.row1 Spec.col1
          (Spec.packMid (Spec.convPool Spec.row0 Spec.col0 (Spec.imageIn (m ((c : Thread nD τ).loc main_arg10)))
            (m ((c : Thread nD τ).loc main_arg0)) (m ((c : Thread nD τ).loc main_arg1))))
          (m ((c : Thread nD τ).loc main_arg2)) (m ((c : Thread nD τ).loc main_arg3)) := by
  refine (W12_arr m ρ c 3).trans ?_
  refine (Conv1.arr (V11 m ρ) c).trans ?_
  have e1 : V11 m ρ c main_v17 = Spec.packMid (Spec.convPool Spec.row0 Spec.col0 (Spec.imageIn (m ((c : Thread nD τ).loc main_arg10)))
      (m ((c : Thread nD τ).loc main_arg0)) (m ((c : Thread nD τ).loc main_arg1))) :=
    (Host.entry1_x m ρ c).trans (congrArg Spec.packMid (stage0 m ρ c))
  have e2 : V11 m ρ c main_v18 = Spec.stackW Spec.gk1 (m ((c : Thread nD τ).loc main_arg2)) :=
    (Host.entry1_w m ρ c).trans (Spec.reshape_stack1 _ _)
  have e3 : V11 m ρ c main_arg3 = m ((c : Thread nD τ).loc main_arg3) := Host.entry1_b m ρ c
  rw [e1, e2, e3]
  exact Spec.convPoolFlat_eq _ _ _ _ _ _

/-- The third region reads the network's features. -/
theorem feats (c : Dev nD) :
    V14 m ρ c main_v23
      = Spec.features (m ((c : Thread nD τ).loc main_arg0)) (m ((c : Thread nD τ).loc main_arg1))
          (m ((c : Thread nD τ).loc main_arg2)) (m ((c : Thread nD τ).loc main_arg3)) (m ((c : Thread nD τ).loc main_arg10)) :=
  (Host.entry2_x m ρ c).trans (congrArg Spec.flatOut (stage1 m ρ c))

/-- The first result: the hidden activations. -/
theorem result_h2 (c : Dev nD) :
    W15 m ρ c (Proc.devRef .tc main_v24_0)
      = Spec.netH2 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg10)) := by
  refine (W15_arr m ρ c 7).trans ?_
  refine (Fc.arr_h2 (V14 m ρ) c).trans ?_
  have e0 := feats m ρ c
  have e4 : V14 m ρ c main_arg4 = m ((c : Thread nD τ).loc main_arg4) := Host.entry2_arg4 m ρ c
  have e5 : V14 m ρ c main_arg5 = m ((c : Thread nD τ).loc main_arg5) := Host.entry2_arg5 m ρ c
  have e6 : V14 m ρ c main_arg6 = m ((c : Thread nD τ).loc main_arg6) := Host.entry2_arg6 m ρ c
  have e7 : V14 m ρ c main_arg7 = m ((c : Thread nD τ).loc main_arg7) := Host.entry2_arg7 m ρ c
  rw [e0, e4, e5, e6, e7]
  rfl

/-- The second result: the logits. -/
theorem result_out (c : Dev nD) :
    W15 m ρ c (Proc.devRef .tc main_v24_1)
      = Spec.netOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  refine (W15_arr m ρ c 8).trans ?_
  refine (Fc.arr_out (V14 m ρ) c).trans ?_
  have e0 := feats m ρ c
  have e4 : V14 m ρ c main_arg4 = m ((c : Thread nD τ).loc main_arg4) := Host.entry2_arg4 m ρ c
  have e5 : V14 m ρ c main_arg5 = m ((c : Thread nD τ).loc main_arg5) := Host.entry2_arg5 m ρ c
  have e6 : V14 m ρ c main_arg6 = m ((c : Thread nD τ).loc main_arg6) := Host.entry2_arg6 m ρ c
  have e7 : V14 m ρ c main_arg7 = m ((c : Thread nD τ).loc main_arg7) := Host.entry2_arg7 m ρ c
  have e8 : V14 m ρ c main_arg8 = m ((c : Thread nD τ).loc main_arg8) := Host.entry2_arg8 m ρ c
  have e9 : V14 m ρ c main_arg9 = m ((c : Thread nD τ).loc main_arg9) := Host.entry2_arg9 m ρ c
  rw [e0, e4, e5, e6, e7, e8, e9]
  rfl

/-- The run, read: both results at the network's function of the launch arrays, the arguments unchanged. -/
theorem run : θ_run defs (onTc (τ := τ) (main (F := Ideal))) ⟨m, fun _ => 0, ρ⟩ (fun r => ∀ c : Dev nD,
      r.2.mem ((c.tc : Thread nD τ).loc main_v24_0)
        = Spec.netH2 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg10))
      ∧ r.2.mem ((c.tc : Thread nD τ).loc main_v24_1)
        = Spec.netOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun r h c => ⟨(h c).1.trans (result_h2 m ρ c), (h c).2.1.trans (result_out m ρ c), (h c).2.2⟩)
    (Gen.run_results (F := Ideal) m ρ)

end Cert.KernelIdeal.Results

end
-- ==== Proof.RHost.lean ====
import proofs.«111038_g2000003154481155_pallasbulk_2_2_alg».proof.Proof.Gen.ReferenceIdeal.Frame
import proofs.«111038_g2000003154481155_pallasbulk_2_2_alg».proof.Proof.Spec
import Idealize.ShloMosaic.Lib.StableHlo.Run
import Idealize.ShloMosaic.PureOps.Ideal

set_option maxRecDepth 16384

noncomputable section

namespace Cert.ReferenceIdeal.Host

open Idealize.ShloMosaic Idealize.ShloMosaic.TcCoe Idealize.SL.Sem Idealize.ShloMosaic.StableHlo
open Cert.ReferenceIdeal Cert.ReferenceIdeal.Gen

variable (m : (ℓ : Loc nD τ sig) → Buf (Elt Ideal) ℓ) (ρ : Dev nD → PrngReg)

/-- Read a buffer at the first region's entry back through the host operations before it. -/
local macro "read_before0" : tactic =>
  `(tactic| (dsimp only [W5, W4, W3, W2, W1, hostOps0, hostOps0_1, hostOps0_2, hostOps0_3, hostOps0_4]; after_results))
/-- Read a buffer at the second region's entry back to the first region's exit. -/
local macro "read_before1" : tactic =>
  `(tactic| (dsimp only [W11, W10, W9, W8, W7, hostOps1, hostOps1_1, hostOps1_2, hostOps1_3, hostOps1_4]; after_results))
/-- Read a buffer at the third region's entry back to the second region's exit. -/
local macro "read_before2" : tactic =>
  `(tactic| (dsimp only [W14, W13, hostOps2, hostOps2_1]; after_results))

/-! ## The first region's arrays -/

/-- The packed image batch the first region reads is the layout glue of the launch image (the change of float
    format after the transposition instead of before it: the same array). -/
theorem entry0_x (c : Dev nD) :
    W5 m ρ c (Proc.devRef .tc main_v7) = Spec.imageIn (m ((c : Thread nD τ).loc main_arg10)) := by
  read_before0
  rw [Spec.imageIn_eq]
  rfl

theorem entry0_w (c : Dev nD) : W5 m ρ c (Proc.devRef .tc main_arg0) = m ((c : Thread nD τ).loc main_arg0) := by
  read_before0

theorem entry0_b (c : Dev nD) : W5 m ρ c (Proc.devRef .tc main_arg1) = m ((c : Thread nD τ).loc main_arg1) := by
  read_before0

/-! ## The second region's arrays -/

/-- The second region reads the first region's output, un-flattened, cut and packed again. -/
theorem entry1_x (c : Dev nD) :
    W11 m ρ c (Proc.devRef .tc main_v16) = Spec.packMid (W6 m ρ c (Proc.devRef .tc main_v8)) := by
  read_before1
  rfl

theorem entry1_w (c : Dev nD) : W11 m ρ c (Proc.devRef .tc main_arg2) = m ((c : Thread nD τ).loc main_arg2) := by
  read_before1
  rw [W6_of_ne m ρ c main_arg2 (by decide)]
  read_before0

theorem entry1_b (c : Dev nD) : W11 m ρ c (Proc.devRef .tc main_arg3) = m ((c : Thread nD τ).loc main_arg3) := by
  read_before1
  rw [W6_of_ne m ρ c main_arg3 (by decide)]
  read_before0

/-! ## The third region's arrays -/

/-- The third region reads the second region's output, un-flattened, cut and flattened per image. -/
theorem entry2_x (c : Dev nD) :
    W14 m ρ c (Proc.devRef .tc main_v21) = Spec.flatOut (W12 m ρ c (Proc.devRef .tc main_v17)) := by
  read_before2
  rfl

theorem entry2_arg4 (c : Dev nD) : W14 m ρ c (Proc.devRef .tc main_arg4) = m ((c : Thread nD τ).loc main_arg4) := by
  read_before2
  rw [W12_of_ne m ρ c main_arg4 (by decide)]
  read_before1
  rw [W6_of_ne m ρ c main_arg4 (by decide)]
  read_before0

theorem entry2_arg5 (c : Dev nD) : W14 m ρ c (Proc.devRef .tc main_arg5) = m ((c : Thread nD τ).loc main_arg5) := by
  read_before2
  rw [W12_of_ne m ρ c main_arg5 (by decide)]
  read_before1
  rw [W6_of_ne m ρ c main_arg5 (by decide)]
  read_before0

theorem entry2_arg6 (c : Dev nD) : W14 m ρ c (Proc.devRef .tc main_arg6) = m ((c : Thread nD τ).loc main_arg6) := by
  read_before2
  rw [W12_of_ne m ρ c main_arg6 (by decide)]
  read_before1
  rw [W6_of_ne m ρ c main_arg6 (by decide)]
  read_before0

theorem entry2_arg7 (c : Dev nD) : W14 m ρ c (Proc.devRef .tc main_arg7) = m ((c : Thread nD τ).loc main_arg7) := by
  read_before2
  rw [W12_of_ne m ρ c main_arg7 (by decide)]
  read_before1
  rw [W6_of_ne m ρ c main_arg7 (by decide)]
  read_before0

theorem entry2_arg8 (c : Dev nD) : W14 m ρ c (Proc.devRef .tc main_arg8) = m ((c : Thread nD τ).loc main_arg8) := by
  read_before2
  rw [W12_of_ne m ρ c main_arg8 (by decide)]
  read_before1
  rw [W6_of_ne m ρ c main_arg8 (by decide)]
  read_before0

theorem entry2_arg9 (c : Dev nD) : W14 m ρ c (Proc.devRef .tc main_arg9) = m ((c : Thread nD τ).loc main_arg9) := by
  read_before2
  rw [W12_of_ne m ρ c main_arg9 (by decide)]
  read_before1
  rw [W6_of_ne m ρ c main_arg9 (by decide)]
  read_before0

end Cert.ReferenceIdeal.Host

end
-- ==== Proof.RVal0.lean ====
import proofs.«111038_g2000003154481155_pallasbulk_2_2_alg».proof.Proof.Gen.ReferenceIdeal.Frame
import proofs.«111038_g2000003154481155_pallasbulk_2_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Conv0

open Cert.ReferenceIdeal Cert.ReferenceIdeal.Gen

-- the TensorCore's buffer contents when the region is entered: any contents
variable (V : (c : Dev nD) → (b : Ref sig .tc) → Buf (Elt Ideal) ((c : Thread nD τ).loc b))

theorem dot_eq : dot_S240x12_S12x128_S240x128_1_0_0_1_n_n = DotDims.plain 240 12 128 := rfl

/-- One shift group's product at (r, j): the image rows times the weight block, summed over the packed channels. -/
theorem prod_apply (v0 : FVec Ideal S1x240x12 .bf16) (v2 : FVec Ideal S1x12x128 .bf16) (r : Fin 240) (j : Fin 128) :
    matmul dot_S240x12_S12x128_S240x128_1_0_0_1_n_n none
        (shapeCast S240x12 v0 shapeCasts_S1x240x12_S240x12) (shapeCast S12x128 v2 shapeCasts_S1x12x128_S12x128)
        (constant (F := Ideal) S240x128 .f32 0x00000000#32) (ix2 r j)
      = ∑ k : Fin 12, v0 (ix3 0 r k) * v2 (ix3 0 k j) := by
  rw [matmul_zero_eq_dotGeneral, dot_eq, StackMember.dotGeneral_plain_apply]
  refine Finset.sum_congr rfl fun k _ => ?_
  rw [shapeCast_1ab_ab_apply, shapeCast_1ab_ab_apply]

/-- The four groups' products added, at column j of row r. -/
def acc4 (v0 v5 v11 v17 : FVec Ideal S1x240x12 .bf16) (v2 v7 v13 v19 : FVec Ideal S1x12x128 .bf16) (r : Fin 240) (j : Fin 128) : EReal :=
  (((∑ k : Fin 12, v0 (ix3 0 r k) * v2 (ix3 0 k j)) + (∑ k : Fin 12, v5 (ix3 0 r k) * v7 (ix3 0 k j)))
    + (∑ k : Fin 12, v11 (ix3 0 r k) * v13 (ix3 0 k j))) + (∑ k : Fin 12, v17 (ix3 0 r k) * v19 (ix3 0 k j))

/-- The first payload at (r, ch): the maximum over the four column blocks of the added products. -/
theorem pay2_apply (v0 v5 v11 v17 : FVec Ideal S1x240x12 .bf16) (v2 v7 v13 v19 : FVec Ideal S1x12x128 .bf16)
    (r : Fin 240) (ch : Fin 32) :
    k0_pay2 (F := Ideal) v0 v2 v5 v7 v11 v13 v17 v19 (ix2 r ch)
      = max (max (acc4 v0 v5 v11 v17 v2 v7 v13 v19 r (Spec.col0 0 ch)) (acc4 v0 v5 v11 v17 v2 v7 v13 v19 r (Spec.col0 1 ch)))
          (max (acc4 v0 v5 v11 v17 v2 v7 v13 v19 r (Spec.col0 2 ch)) (acc4 v0 v5 v11 v17 v2 v7 v13 v19 r (Spec.col0 3 ch))) := by
  unfold k0_pay2
  simp only [maximumf_apply]
  rw [slice2_axis1_apply 0 _ _ r ch (Spec.col0 0 ch) (by rw [Spec.col0_val]; simp),
    slice2_axis1_apply 32 _ _ r ch (Spec.col0 1 ch) (by rw [Spec.col0_val]; simp),
    slice2_axis1_apply 64 _ _ r ch (Spec.col0 2 ch) (by rw [Spec.col0_val]; simp),
    slice2_axis1_apply 96 _ _ r ch (Spec.col0 3 ch) (by rw [Spec.col0_val]; simp)]
  simp only [addf_apply, prod_apply]
  rfl

/-- The second payload at (0, r, ch): the bias of channel ch added, clamped at zero. -/
theorem pay1_apply (v29 : FVec Ideal S240x32 .f32) (v30 : FVec Ideal S1x32 .f32) (r : Fin 240) (ch : Fin 32) :
    k0_pay1 (F := Ideal) v29 v30 (ix3 0 r ch) = max (v29 (ix2 r ch) + v30 (ix2 0 ch)) 0 := by
  unfold k0_pay1
  rw [shapeCast_ab_1ab_apply]
  simp only [truncf_apply, maximumf_apply, addf_apply, broadcast_apply]
  rw [broadcastTo_1b_ab_apply]
  exact congrArg (max _) Ideal.ofBits_zero_f32

/-- The body's stored value at (0, r, ch): the stage's pooled output of the loaded blocks. -/
theorem pay_apply (v0 v5 v11 v17 : FVec Ideal S1x240x12 .bf16) (v2 v7 v13 v19 : FVec Ideal S1x12x128 .bf16)
    (v30 : FVec Ideal S1x32 .f32) (r : Fin 240) (ch : Fin 32) :
    k0_pay1 (F := Ideal) (k0_pay2 (F := Ideal) v0 v2 v5 v7 v11 v13 v17 v19) v30 (ix3 0 r ch)
      = Spec.pooled (acc4 v0 v5 v11 v17 v2 v7 v13 v19 r (Spec.col0 0 ch)) (acc4 v0 v5 v11 v17 v2 v7 v13 v19 r (Spec.col0 1 ch))
          (acc4 v0 v5 v11 v17 v2 v7 v13 v19 r (Spec.col0 2 ch)) (acc4 v0 v5 v11 v17 v2 v7 v13 v19 r (Spec.col0 3 ch)) (v30 (ix2 0 ch)) := by
  rw [pay1_apply, pay2_apply]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- A point of the grid is below 2048. -/
theorem pt_lt (t : Fin cfg0.N) : t.val < 2048 := by
  have h : t.val < cfg0.N := t.isLt
  have e : cfg0.N = 2048 := N_0
  omega

/-- The grid has one axis, so a point's one coordinate is the point's number. -/
theorem coord_val (t : Fin cfg0.N) : ((grid0.coords t) 0).val = t.val := by
  show t.val / grid0.stride 0 % 2048 = t.val
  rw [show grid0.stride 0 = 1 from by decide, Nat.div_one, Nat.mod_eq_of_lt (pt_lt t)]

/-- The image window's block index at point t is (t, 0, 0): a 32-bit word holds any number below 2048. -/
theorem idx_img (t : Fin cfg0.N) : win0_0.index t = ![t.val, 0, 0] := by
  have ht := pt_lt t
  show cc0_transform_0 (grid0.coords t) = _
  unfold cc0_transform_0
  dsimp only
  rw [coord_val, BitVec.toNat_ofNat, Nat.mod_eq_of_lt (by omega)]
  rfl

/-- The output window's block index at point t is (t, 0, 0). -/
theorem idx_out (t : Fin cfg0.N) : win0_3.index t = ![t.val, 0, 0] := by
  have ht := pt_lt t
  show cc0_transform_3 (grid0.coords t) = _
  unfold cc0_transform_3
  dsimp only
  rw [coord_val, BitVec.toNat_ofNat, Nat.mod_eq_of_lt (by omega)]
  rfl

/-- The weight window's block index is (0, 0, 0) at every point. -/
theorem idx_wt (t : Fin cfg0.N) : win0_1.index t = ![0, 0, 0] := rfl

/-- The bias window's block index is (0, 0) at every point. -/
theorem idx_bias (t : Fin cfg0.N) : win0_2.index t = ![0, 0] := rfl

/-- A load of 240 rows from row s of the staged image reads, at (0, r, k), the image at (0, r + s, k). -/
theorem ld_img (x0 : Vec Ideal S1x272x12 .bf16) (s : Nat)
    (inb : ∀ a, (![0, s, 0] : Fin 3 → Nat) a + S1x240x12.size a ≤ S1x272x12.size a)
    (r : Fin 240) (k : Fin 12) (ρ : Fin 272) (hρ : ρ.val = r.val + s) :
    View.ld x0 (Rect.unit (s := S1x272x12) ![0, s, 0] S1x240x12.size inb) (ix3 0 r k) = x0 (ix3 0 ρ k) := by
  show x0 _ = x0 _
  congr 1
  funext a
  apply Fin.ext
  match a with
  | ⟨0, _⟩ => rfl
  | ⟨1, _⟩ => show s + 1 * r.val = ρ.val; omega
  | ⟨2, _⟩ => show 0 + 1 * k.val = k.val; omega

/-- A load of weight block g reads, at (0, k, j), the weights at (g, k, j). -/
theorem ld_wt (x1 : Vec Ideal S4x12x128 .bf16) (g : Nat)
    (inb : ∀ a, (![g, 0, 0] : Fin 3 → Nat) a + S1x12x128.size a ≤ S4x12x128.size a)
    (k : Fin 12) (j : Fin 128) (γ : Fin 4) (hγ : γ.val = g) :
    View.ld x1 (Rect.unit (s := S4x12x128) ![g, 0, 0] S1x12x128.size inb) (ix3 0 k j) = x1 (ix3 γ k j) := by
  show x1 _ = x1 _
  congr 1
  funext a
  apply Fin.ext
  match a with
  | ⟨0, _⟩ => show g + 1 * 0 = γ.val; omega
  | ⟨1, _⟩ => show 0 + 1 * k.val = k.val; omega
  | ⟨2, _⟩ => show 0 + 1 * j.val = j.val; omega

theorem ld_img0 (x0 : Vec Ideal S1x272x12 .bf16) (r : Fin 240) (k : Fin 12) :
    View.ld x0 r0_0 (ix3 0 r k) = x0 (ix3 0 (Spec.row0 0 r) k) := ld_img x0 0 _ r k _ rfl
theorem ld_img1 (x0 : Vec Ideal S1x272x12 .bf16) (r : Fin 240) (k : Fin 12) :
    View.ld x0 r0_2 (ix3 0 r k) = x0 (ix3 0 (Spec.row0 1 r) k) := ld_img x0 1 _ r k _ rfl
theorem ld_img2 (x0 : Vec Ideal S1x272x12 .bf16) (r : Fin 240) (k : Fin 12) :
    View.ld x0 r0_4 (ix3 0 r k) = x0 (ix3 0 (Spec.row0 2 r) k) := ld_img x0 16 _ r k _ rfl
theorem ld_img3 (x0 : Vec Ideal S1x272x12 .bf16) (r : Fin 240) (k : Fin 12) :
    View.ld x0 r0_6 (ix3 0 r k) = x0 (ix3 0 (Spec.row0 3 r) k) := ld_img x0 17 _ r k _ rfl
theorem ld_wt0 (x1 : Vec Ideal S4x12x128 .bf16) (k : Fin 12) (j : Fin 128) :
    View.ld x1 r0_1 (ix3 0 k j) = x1 (ix3 0 k j) := ld_wt x1 0 _ k j 0 rfl
theorem ld_wt1 (x1 : Vec Ideal S4x12x128 .bf16) (k : Fin 12) (j : Fin 128) :
    View.ld x1 r0_3 (ix3 0 k j) = x1 (ix3 1 k j) := ld_wt x1 1 _ k j 1 rfl
theorem ld_wt2 (x1 : Vec Ideal S4x12x128 .bf16) (k : Fin 12) (j : Fin 128) :
    View.ld x1 r0_5 (ix3 0 k j) = x1 (ix3 2 k j) := ld_wt x1 2 _ k j 2 rfl
theorem ld_wt3 (x1 : Vec Ideal S4x12x128 .bf16) (k : Fin 12) (j : Fin 128) :
    View.ld x1 r0_7 (ix3 0 k j) = x1 (ix3 3 k j) := ld_wt x1 3 _ k j 3 rfl

/-- The four loaded groups' added products are the stage's sum over shift groups and packed channels. -/
theorem acc4_ld (x0 : Vec Ideal S1x272x12 .bf16) (x1 : Vec Ideal S4x12x128 .bf16) (r : Fin 240) (j : Fin 128) :
    acc4 (View.ld x0 r0_0) (View.ld x0 r0_2) (View.ld x0 r0_4) (View.ld x0 r0_6)
        (View.ld x1 r0_1) (View.ld x1 r0_3) (View.ld x1 r0_5) (View.ld x1 r0_7) r j
      = ∑ g : Fin 4, ∑ k : Fin 12, x0 (ix3 0 (Spec.row0 g r) k) * x1 (ix3 g k j) := by
  unfold acc4
  rw [Fin.sum_univ_four]
  refine congrArg₂ (· + ·) (congrArg₂ (· + ·) (congrArg₂ (· + ·) ?_ ?_) ?_) ?_ <;> refine Finset.sum_congr rfl fun k _ => ?_
  · exact congrArg₂ (· * ·) (ld_img0 x0 r k) (ld_wt0 x1 k j)
  · exact congrArg₂ (· * ·) (ld_img1 x0 r k) (ld_wt1 x1 k j)
  · exact congrArg₂ (· * ·) (ld_img2 x0 r k) (ld_wt2 x1 k j)
  · exact congrArg₂ (· * ·) (ld_img3 x0 r k) (ld_wt3 x1 k j)

/-- The body's stored value at (0, r, ch), from the staged blocks. -/
theorem body_apply (x0 : Vec Ideal S1x272x12 .bf16) (x1 : Vec Ideal S4x12x128 .bf16) (x2 : Vec Ideal S1x32 .f32)
    (r : Fin 240) (ch : Fin 32) :
    k0_pay1 (F := Ideal) (k0_pay2 (F := Ideal) (View.ld x0 r0_0) (View.ld x1 r0_1) (View.ld x0 r0_2) (View.ld x1 r0_3)
        (View.ld x0 r0_4) (View.ld x1 r0_5) (View.ld x0 r0_6) (View.ld x1 r0_7)) (View.ld x2 r0_8) (ix3 0 r ch)
      = Spec.pooled (∑ g : Fin 4, ∑ k : Fin 12, x0 (ix3 0 (Spec.row0 g r) k) * x1 (ix3 g k (Spec.col0 0 ch)))
          (∑ g : Fin 4, ∑ k : Fin 12, x0 (ix3 0 (Spec.row0 g r) k) * x1 (ix3 g k (Spec.col0 1 ch)))
          (∑ g : Fin 4, ∑ k : Fin 12, x0 (ix3 0 (Spec.row0 g r) k) * x1 (ix3 g k (Spec.col0 2 ch)))
          (∑ g : Fin 4, ∑ k : Fin 12, x0 (ix3 0 (Spec.row0 g r) k) * x1 (ix3 g k (Spec.col0 3 ch)))
          (x2 (ix2 0 ch)) := by
  rw [pay_apply, acc4_ld, acc4_ld, acc4_ld, acc4_ld, View.ld_unit_zero (S := S1x32) hz2]

/-- The body's stored value at (0, r, ch) is the stage's pooled output at (n, r, ch) of any arrays whose row n,
    weights and bias the staged blocks are. -/
theorem point_apply (x0 : Vec Ideal S1x272x12 .bf16) (x1 : Vec Ideal S4x12x128 .bf16) (x2 : Vec Ideal S1x32 .f32)
    (X : Spec.Arr3 2048 272 12) (W : Spec.Arr3 4 12 128) (B : Spec.Arr2 1 32) (n : Fin 2048) (r : Fin 240) (ch : Fin 32)
    (h0 : ∀ (ρ : Fin 272) (k : Fin 12), x0 (ix3 0 ρ k) = X (ix3 n ρ k))
    (h1 : ∀ (g : Fin 4) (k : Fin 12) (j : Fin 128), x1 (ix3 g k j) = W (ix3 g k j))
    (h2 : x2 (ix2 0 ch) = B (ix2 0 ch)) :
    k0_pay1 (F := Ideal) (k0_pay2 (F := Ideal) (View.ld x0 r0_0) (View.ld x1 r0_1) (View.ld x0 r0_2) (View.ld x1 r0_3)
        (View.ld x0 r0_4) (View.ld x1 r0_5) (View.ld x0 r0_6) (View.ld x1 r0_7)) (View.ld x2 r0_8) (ix3 0 r ch)
      = Spec.convPool Spec.row0 Spec.col0 X W B (ix3 n r ch) := by
  rw [body_apply]
  have hacc : ∀ j : Fin 128,
      (∑ g : Fin 4, ∑ k : Fin 12, x0 (ix3 0 (Spec.row0 g r) k) * x1 (ix3 g k j)) = Spec.convAcc Spec.row0 X W n r j := by
    intro j
    unfold Spec.convAcc
    exact Finset.sum_congr rfl fun g _ => Finset.sum_congr rfl fun k _ => congrArg₂ (· * ·) (h0 _ k) (h1 g k j)
  exact congr (congr (congr (congr (congrArg Spec.pooled (hacc _)) (hacc _)) (hacc _)) (hacc _)) h2

/-- The image window's block at point t, at (0, ρ, k), is the image array at (t, ρ, k). -/
theorem img_blk (c : Dev nD) (t : Fin cfg0.N) (n : Fin 2048) (hn : n.val = t.val) (ρ : Fin 272) (k : Fin 12) :
    (iblk0 V c 0 t : Vec Ideal S1x272x12 .bf16) (ix3 0 ρ k) = (V c main_v7 : S2048x272x12.Idx → EReal) (ix3 n ρ k) := by
  unfold iblk0
  rw [View.read_apply]
  show V c main_v7 _ = V c main_v7 _
  congr 1
  funext a
  apply Fin.ext
  match a with
  | ⟨0, _⟩ => show win0_0.index t 0 * 1 + 1 * 0 = n.val; rw [idx_img, hn]; simp
  | ⟨1, _⟩ => show win0_0.index t 1 * 272 + 1 * ρ.val = ρ.val; rw [idx_img]; simp
  | ⟨2, _⟩ => show win0_0.index t 2 * 12 + 1 * k.val = k.val; rw [idx_img]; simp

/-- The weight window's block is the whole weight array. -/
theorem wt_blk (c : Dev nD) (t : Fin cfg0.N) (g : Fin 4) (k : Fin 12) (j : Fin 128) :
    (iblk0 V c 1 t : Vec Ideal S4x12x128 .bf16) (ix3 g k j) = (V c main_arg0 : S4x12x128.Idx → EReal) (ix3 g k j) := by
  unfold iblk0
  rw [View.read_apply]
  show V c main_arg0 _ = V c main_arg0 _
  congr 1
  funext a
  apply Fin.ext
  match a with
  | ⟨0, _⟩ => show 0 * 4 + 1 * g.val = g.val; omega
  | ⟨1, _⟩ => show 0 * 12 + 1 * k.val = k.val; omega
  | ⟨2, _⟩ => show 0 * 128 + 1 * j.val = j.val; omega

/-- The bias window's block is the whole bias array. -/
theorem bias_blk (c : Dev nD) (t : Fin cfg0.N) (ch : Fin 32) :
    (iblk0 V c 2 t : Vec Ideal S1x32 .f32) (ix2 0 ch) = (V c main_arg1 : S1x32.Idx → EReal) (ix2 0 ch) := by
  unfold iblk0
  rw [View.read_apply]
  show V c main_arg1 _ = V c main_arg1 _
  congr 1
  funext a
  apply Fin.ext
  match a with
  | ⟨0, _⟩ => rfl
  | ⟨1, _⟩ => show 0 * 32 + 1 * ch.val = ch.val; omega

/-- The output window's block at point t of a whole-array function G reads, at (·, r, ch), G at (t, r, ch). -/
theorem out_blk (G : S2048x240x32.Idx → EReal) (t : Fin cfg0.N) (n : Fin 2048) (hn : n.val = t.val) :
    ((cfg0.win 3).blk t).view.read (Elt Ideal) G = fun y : S1x240x32.Idx => G (ix3 n (y 1) (y 2)) := by
  refine funext (α := S1x240x32.Idx) (β := fun _ => EReal) fun y => ?_
  rw [View.read_apply]
  show G _ = G _
  congr 1
  funext a
  apply Fin.ext
  match a with
  | ⟨0, _⟩ =>
    show win0_3.index t 0 * 1 + 1 * (y 0).val = n.val
    have h0 : (y 0).val < 1 := (y 0).isLt
    rw [idx_out, hn]; simp; omega
  | ⟨1, _⟩ => show win0_3.index t 1 * 240 + 1 * (y 1).val = (y 1).val; rw [idx_out]; simp
  | ⟨2, _⟩ => show win0_3.index t 2 * 32 + 1 * (y 2).val = (y 2).val; rw [idx_out]; simp

/-- What point t writes back is block t of the stage's pooled output of the arrays the region found. -/
theorem flushed_eq (c : Dev nD) (t : Fin cfg0.N) :
    (dat0 V c).flushed 3 t = ((cfg0.win 3).blk t).view.read (Elt Ideal)
      (Spec.convPool Spec.row0 Spec.col0 (V c main_v7) (V c main_arg0) (V c main_arg1)) := by
  show (cfg0.win 3).cut (grid0.coords t) ((dat0 V c).after 3 t) = _
  rw [after0_3]
  unfold out0_3
  rw [View.canon_unit_zero hz3]
  refine Eq.trans ?_ (out_blk _ t ⟨t.val, pt_lt t⟩ rfl).symm
  refine funext (α := S1x240x32.Idx) (β := fun _ => EReal) fun y => ?_
  obtain ⟨u, r, ch, rfl⟩ : ∃ (u : Fin 1) (r : Fin 240) (ch : Fin 32), y = ix3 u r ch := ⟨y 0, y 1, y 2, eq_ix3 y⟩
  obtain rfl : u = 0 := Subsingleton.elim _ _
  exact point_apply _ _ _ _ _ _ ⟨t.val, pt_lt t⟩ r ch (img_blk V c t _ rfl) (wt_blk V c t) (bias_blk V c t ch)

/-- Row n of the output array is point n's block: every index is in some point's block. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 2048 := (i 0).isLt
  have hi1 : (i 1).val < 240 := (i 1).isLt
  have hi2 : (i 2).val < 32 := (i 2).isLt
  have hN : cfg0.N = 2048 := N_0
  obtain ⟨t, ht⟩ : ∃ t : Fin cfg0.N, t.val = (i 0).val := ⟨⟨(i 0).val, by omega⟩, rfl⟩
  refine ⟨t, flush0_3 t, ?_⟩
  show i ∈ ((View.whole main_v8).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [idx_out, ht]; simp
  | ⟨1, _⟩ =>
    show win0_3.index t 1 * 240 ≤ (i 1).val ∧ (i 1).val < win0_3.index t 1 * 240 + 240
    rw [idx_out]; simp; omega
  | ⟨2, _⟩ =>
    show win0_3.index t 2 * 32 ≤ (i 2).val ∧ (i 2).val < win0_3.index t 2 * 32 + 32
    rw [idx_out]; simp; omega

/-- After the first convolution region its output array holds the stage's pooled output of the arrays the region found. -/
theorem arr (c : Dev nD) :
    (dat0 V c).arrAt 3 cfg0.N
      = Spec.convPool Spec.row0 Spec.col0 (V c main_v7) (V c main_arg0) (V c main_arg1) := by
  exact (dat0 V c).arrAt_eq_of_cover 3 _ (fun t _ => flushed_eq V c t) (cover c)

end Cert.ReferenceIdeal.Conv0

end
-- ==== Proof.RVal1.lean ====
import proofs.«111038_g2000003154481155_pallasbulk_2_2_alg».proof.Proof.Gen.ReferenceIdeal.Frame
import proofs.«111038_g2000003154481155_pallasbulk_2_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Conv1

open Cert.ReferenceIdeal Cert.ReferenceIdeal.Gen

-- the TensorCore's buffer contents when the region is entered: any contents
variable (V : (c : Dev nD) → (b : Ref sig .tc) → Buf (Elt Ideal) ((c : Thread nD τ).loc b))

/-- The printed contraction record is the plain product of a 48×128 by a 128×256 matrix. -/
theorem dot_eq : dot_S48x128_S128x256_S48x256_1_0_0_1_n_n = DotDims.plain 48 128 256 := rfl

/-- One shift group's block product at row r, column j: the sum over the packed channels. -/
theorem prod_apply (x : Vec Ideal S1x48x128 .bf16) (w : Vec Ideal S1x128x256 .bf16) (r : Fin 48) (j : Fin 256) :
    (matmul (F := Ideal) (φ₁ := .bf16) (φ₂ := .bf16) dot_S48x128_S128x256_S48x256_1_0_0_1_n_n none
        (shapeCast S48x128 x shapeCasts_S1x48x128_S48x128) (shapeCast S128x256 w shapeCasts_S1x128x256_S128x256)
        (constant (F := Ideal) S48x256 .f32 0x00000000#32) (ix2 r j) : EReal)
      = ∑ k : Fin 128, (x (ix3 0 r k) : EReal) * (w (ix3 0 k j) : EReal) := by
  rw [dot_eq, matmul_zero_eq_dotGeneral, StackMember.dotGeneral_plain_apply]
  refine Finset.sum_congr rfl fun k _ => ?_
  rw [shapeCast_1ab_ab_apply, shapeCast_1ab_ab_apply]

/-- The four shift groups' block products at row r, column j, added left to right. -/
def acc4 (v0 v5 v11 v17 : Vec Ideal S1x48x128 .bf16) (v2 v7 v13 v19 : Vec Ideal S1x128x256 .bf16)
    (r : Fin 48) (j : Fin 256) : EReal :=
  (∑ k : Fin 128, (v0 (ix3 0 r k) : EReal) * (v2 (ix3 0 k j) : EReal)) + (∑ k : Fin 128, (v5 (ix3 0 r k) : EReal) * (v7 (ix3 0 k j) : EReal))
    + (∑ k : Fin 128, (v11 (ix3 0 r k) : EReal) * (v13 (ix3 0 k j) : EReal)) + (∑ k : Fin 128, (v17 (ix3 0 r k) : EReal) * (v19 (ix3 0 k j) : EReal))

/-- The pooled maximum of the four column blocks, before the bias, at row r, channel ch. -/
theorem pay2_apply (v0 v5 v11 v17 : Vec Ideal S1x48x128 .bf16) (v2 v7 v13 v19 : Vec Ideal S1x128x256 .bf16)
    (r : Fin 48) (ch : Fin 64) :
    (k1_pay2 (F := Ideal) v0 v2 v5 v7 v11 v13 v17 v19 (ix2 r ch) : EReal)
      = max (max (acc4 v0 v5 v11 v17 v2 v7 v13 v19 r (Spec.col1 0 ch)) (acc4 v0 v5 v11 v17 v2 v7 v13 v19 r (Spec.col1 1 ch)))
          (max (acc4 v0 v5 v11 v17 v2 v7 v13 v19 r (Spec.col1 2 ch)) (acc4 v0 v5 v11 v17 v2 v7 v13 v19 r (Spec.col1 3 ch))) := by
  unfold k1_pay2
  simp only [maximumf_apply]
  rw [slice2_axis1_apply 0 _ _ r ch (Spec.col1 0 ch) (by show 64 * 0 + ch.val = 0 + ch.val; omega),
    slice2_axis1_apply 64 _ _ r ch (Spec.col1 1 ch) (by show 64 * 1 + ch.val = 64 + ch.val; omega),
    slice2_axis1_apply 128 _ _ r ch (Spec.col1 2 ch) (by show 64 * 2 + ch.val = 128 + ch.val; omega),
    slice2_axis1_apply 192 _ _ r ch (Spec.col1 3 ch) (by show 64 * 3 + ch.val = 192 + ch.val; omega)]
  simp only [addf_apply, prod_apply]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- A load of 48 rows from row s of an image's packed rows reads row r + s. -/
theorem ld_rows (x0 : Vec Ideal S1x72x128 .bf16) (s : Nat)
    (inb : ∀ a, (![0, s, 0] : Fin 3 → Nat) a + S1x48x128.size a ≤ S1x72x128.size a)
    (r : Fin 48) (k : Fin 128) (ρ : Fin 72) (hρ : ρ.val = r.val + s) :
    (View.ld (Val := Elt Ideal) (e' := .bf16) x0 (Rect.unit (s := S1x72x128) ![0, s, 0] S1x48x128.size inb) (ix3 0 r k) : EReal)
      = x0 (ix3 0 ρ k) := by
  show x0 _ = x0 _
  congr 1
  funext a; apply Fin.ext
  match a with
  | ⟨0, _⟩ => rfl
  | ⟨1, _⟩ => show s + 1 * r.val = ρ.val; omega
  | ⟨2, _⟩ => show 0 + 1 * k.val = k.val; omega

/-- A load of weight block g reads the stack at g. -/
theorem ld_wblock (x1 : Vec Ideal S4x128x256 .bf16) (g : Nat)
    (inb : ∀ a, (![g, 0, 0] : Fin 3 → Nat) a + S1x128x256.size a ≤ S4x128x256.size a)
    (k : Fin 128) (j : Fin 256) (γ : Fin 4) (hγ : γ.val = g) :
    (View.ld (Val := Elt Ideal) (e' := .bf16) x1 (Rect.unit (s := S4x128x256) ![g, 0, 0] S1x128x256.size inb) (ix3 0 k j) : EReal)
      = x1 (ix3 γ k j) := by
  show x1 _ = x1 _
  congr 1
  funext a; apply Fin.ext
  match a with
  | ⟨0, _⟩ => show g + 1 * 0 = γ.val; omega
  | ⟨1, _⟩ => show 0 + 1 * k.val = k.val; omega
  | ⟨2, _⟩ => show 0 + 1 * j.val = j.val; omega

/-- One group's sum over the packed channels, through the two loads: rows shifted by s, weight block g. -/
theorem sum_ld (x0 : Vec Ideal S1x72x128 .bf16) (x1 : Vec Ideal S4x128x256 .bf16) (s g : Nat)
    (inbx : ∀ a, (![0, s, 0] : Fin 3 → Nat) a + S1x48x128.size a ≤ S1x72x128.size a)
    (inbw : ∀ a, (![g, 0, 0] : Fin 3 → Nat) a + S1x128x256.size a ≤ S4x128x256.size a)
    (r : Fin 48) (j : Fin 256) (γ : Fin 4) (hγ : γ.val = g) (hs : (Spec.row1 γ r).val = r.val + s) :
    (∑ k : Fin 128, (View.ld (Val := Elt Ideal) (e' := .bf16) x0 (Rect.unit (s := S1x72x128) ![0, s, 0] S1x48x128.size inbx) (ix3 0 r k) : EReal)
        * (View.ld (Val := Elt Ideal) (e' := .bf16) x1 (Rect.unit (s := S4x128x256) ![g, 0, 0] S1x128x256.size inbw) (ix3 0 k j) : EReal))
      = ∑ k : Fin 128, (x0 (ix3 0 (Spec.row1 γ r) k) : EReal) * (x1 (ix3 γ k j) : EReal) :=
  Finset.sum_congr rfl fun k _ => by rw [ld_rows x0 s inbx r k _ hs, ld_wblock x1 g inbw k j γ hγ]

/-- The four groups' sums for one image are the stage's accumulator at that image. -/
theorem acc4_eq (x0 : Vec Ideal S1x72x128 .bf16) (x1 : Vec Ideal S4x128x256 .bf16) (r : Fin 48) (j : Fin 256) :
    acc4 (View.ld x0 r1_0) (View.ld x0 r1_2) (View.ld x0 r1_4) (View.ld x0 r1_6)
        (View.ld x1 r1_1) (View.ld x1 r1_3) (View.ld x1 r1_5) (View.ld x1 r1_7) r j
      = Spec.convAcc Spec.row1 (x0 : Spec.Arr3 1 72 128) (x1 : Spec.Arr3 4 128 256) 0 r j := by
  unfold acc4 Spec.convAcc
  rw [Fin.sum_univ_four, sum_ld x0 x1 0 0 _ _ r j 0 rfl rfl, sum_ld x0 x1 1 1 _ _ r j 1 rfl rfl,
    sum_ld x0 x1 8 2 _ _ r j 2 rfl rfl, sum_ld x0 x1 9 3 _ _ r j 3 rfl rfl]

/-- The body's stored value at row r, channel ch is the stage's output for the one image it loaded. -/
theorem body_apply (x0 : Vec Ideal S1x72x128 .bf16) (x1 : Vec Ideal S4x128x256 .bf16) (x2 : Vec Ideal S1x64 .f32)
    (u : Fin 1) (r : Fin 48) (ch : Fin 64) :
    (k1_pay1 (F := Ideal) (k1_pay2 (View.ld x0 r1_0) (View.ld x1 r1_1) (View.ld x0 r1_2) (View.ld x1 r1_3)
        (View.ld x0 r1_4) (View.ld x1 r1_5) (View.ld x0 r1_6) (View.ld x1 r1_7)) x2 (ix3 u r ch) : EReal)
      = Spec.convPool Spec.row1 Spec.col1 (x0 : Spec.Arr3 1 72 128) (x1 : Spec.Arr3 4 128 256) (x2 : Spec.Arr2 1 64) (ix3 0 r ch) := by
  unfold k1_pay1
  rw [shapeCast_ab_1ab_apply]
  simp only [truncf_apply, maximumf_apply, addf_apply, broadcast_apply]
  rw [broadcastTo_1b_ab_apply, pay2_apply]
  simp only [acc4_eq]
  rw [show (FloatOps.ofBits (F := Ideal) FTy.f32 0x00000000#32 : EReal) = 0 from Ideal.ofBits_zero_f32]
  rfl

/-- What the body leaves in the output block: the stage's output for the one image in its input block. -/
theorem body_eq (x0 : Vec Ideal S1x72x128 .bf16) (x1 : Vec Ideal S4x128x256 .bf16) (x2 : Vec Ideal S1x64 .f32) :
    out1_3 (F := Ideal) x0 x1 x2
      = Spec.convPool Spec.row1 Spec.col1 (x0 : Spec.Arr3 1 72 128) (x1 : Spec.Arr3 4 128 256) (x2 : Spec.Arr2 1 64) := by
  unfold out1_3
  rw [View.canon_unit_zero hz3, View.ld_unit_zero (S := S1x64) hz2]
  funext y
  obtain ⟨u, r, ch, rfl⟩ : ∃ (u : Fin 1) (r : Fin 48) (ch : Fin 64), y = ix3 u r ch := ⟨y 0, y 1, y 2, eq_ix3 y⟩
  obtain rfl : u = 0 := Subsingleton.elim _ _
  exact body_apply x0 x1 x2 0 r ch

/-- The stage's output at image n reads only image n's packed rows. -/
theorem convPool_image (X : Spec.Arr3 2048 72 128) (W : Spec.Arr3 4 128 256) (B : Spec.Arr2 1 64)
    (x0 : Spec.Arr3 1 72 128) (n : Fin 2048) (hx0 : ∀ (ρ : Fin 72) (k : Fin 128), x0 (ix3 0 ρ k) = X (ix3 n ρ k))
    (r : Fin 48) (ch : Fin 64) :
    Spec.convPool Spec.row1 Spec.col1 x0 W B (ix3 0 r ch) = Spec.convPool Spec.row1 Spec.col1 X W B (ix3 n r ch) := by
  unfold Spec.convPool Spec.convAcc
  simp only [hx0]

/-- The one grid coordinate of point t is t. -/
theorem coord_val (t : Fin cfg1.N) : ((grid1.coords t) 0).val = t.val := by
  have ht : t.val < 2048 := lt_of_lt_of_eq t.isLt N_1
  show t.val / grid1.stride 0 % 2048 = t.val
  rw [show grid1.stride 0 = 1 from by decide, Nat.div_one, Nat.mod_eq_of_lt ht]

/-- The block index of the packed input at point t: image t, the whole image. -/
theorem idx_in (t : Fin cfg1.N) : win1_0.index t 0 = t.val ∧ win1_0.index t 1 = 0 ∧ win1_0.index t 2 = 0 := by
  have ht : t.val < 2048 := lt_of_lt_of_eq t.isLt N_1
  refine ⟨?_, rfl, rfl⟩
  show (BitVec.ofNat 32 ((grid1.coords t) 0).val).toNat = t.val
  rw [coord_val, BitVec.toNat_ofNat, Nat.mod_eq_of_lt (by omega)]

/-- The block index of the output at point t: image t, the whole image. -/
theorem idx_out (t : Fin cfg1.N) : win1_3.index t 0 = t.val ∧ win1_3.index t 1 = 0 ∧ win1_3.index t 2 = 0 := by
  have ht : t.val < 2048 := lt_of_lt_of_eq t.isLt N_1
  refine ⟨?_, rfl, rfl⟩
  show (BitVec.ofNat 32 ((grid1.coords t) 0).val).toNat = t.val
  rw [coord_val, BitVec.toNat_ofNat, Nat.mod_eq_of_lt (by omega)]

/-- The packed input's block at point t is image t of the array. -/
theorem blk_in_apply (c : Dev nD) (t : Fin cfg1.N) (n : Fin 2048) (hn : n.val = t.val) (ρ : Fin 72) (k : Fin 128) :
    ((iblk1 V c 0 t : Vec Ideal S1x72x128 .bf16) (ix3 0 ρ k) : EReal)
      = (V c main_v16 : S2048x72x128.Idx → EReal) (ix3 n ρ k) := by
  obtain ⟨e0, e1, e2⟩ := idx_in t
  unfold iblk1
  rw [View.read_apply]
  show V c main_v16 _ = V c main_v16 _
  congr 1
  funext a; apply Fin.ext
  match a with
  | ⟨0, _⟩ => show win1_0.index t 0 * 1 + 1 * 0 = n.val; rw [e0, hn]; omega
  | ⟨1, _⟩ => show win1_0.index t 1 * 72 + 1 * ρ.val = ρ.val; rw [e1]; omega
  | ⟨2, _⟩ => show win1_0.index t 2 * 128 + 1 * k.val = k.val; rw [e2]; omega

/-- The weight window's block is the whole weight stack. -/
theorem blk_w_eq (c : Dev nD) (t : Fin cfg1.N) :
    (iblk1 V c 1 t : Vec Ideal S4x128x256 .bf16) = (V c main_arg2 : S4x128x256.Idx → EReal) := by
  funext j
  unfold iblk1
  rw [View.read_apply]
  show V c main_arg2 _ = V c main_arg2 j
  congr 1
  funext a; apply Fin.ext
  match a with
  | ⟨0, _⟩ => show win1_1.index t 0 * 4 + 1 * (j 0).val = (j 0).val; rw [show win1_1.index t 0 = 0 from rfl]; omega
  | ⟨1, _⟩ => show win1_1.index t 1 * 128 + 1 * (j 1).val = (j 1).val; rw [show win1_1.index t 1 = 0 from rfl]; omega
  | ⟨2, _⟩ => show win1_1.index t 2 * 256 + 1 * (j 2).val = (j 2).val; rw [show win1_1.index t 2 = 0 from rfl]; omega

/-- The bias window's block is the whole bias row. -/
theorem blk_b_eq (c : Dev nD) (t : Fin cfg1.N) :
    (iblk1 V c 2 t : Vec Ideal S1x64 .f32) = (V c main_arg3 : S1x64.Idx → EReal) := by
  funext j
  unfold iblk1
  rw [View.read_apply]
  show V c main_arg3 _ = V c main_arg3 j
  congr 1
  funext a; apply Fin.ext
  match a with
  | ⟨0, _⟩ => show win1_2.index t 0 * 1 + 1 * (j 0).val = (j 0).val; rw [show win1_2.index t 0 = 0 from rfl]; omega
  | ⟨1, _⟩ => show win1_2.index t 1 * 64 + 1 * (j 1).val = (j 1).val; rw [show win1_2.index t 1 = 0 from rfl]; omega

/-- What point t writes back is block t of the stage's output of the arrays the region found. -/
theorem flushed_eq (c : Dev nD) (t : Fin cfg1.N) :
    (dat1 V c).flushed 3 t = ((cfg1.win 3).blk t).view.read (Elt Ideal)
      (Spec.convPool Spec.row1 Spec.col1 (V c main_v16) (V c main_arg2) (V c main_arg3)) := by
  have ht : t.val < 2048 := lt_of_lt_of_eq t.isLt N_1
  obtain ⟨e0, e1, e2⟩ := idx_out t
  show (cfg1.win 3).cut (grid1.coords t) ((dat1 V c).after 3 t) = _
  rw [after1_3]
  have hb := body_eq (iblk1 V c 0 t) (iblk1 V c 1 t) (iblk1 V c 2 t)
  rw [hb, blk_w_eq V c t, blk_b_eq V c t]
  funext y
  obtain ⟨u, r, ch, rfl⟩ : ∃ (u : Fin 1) (r : Fin 48) (ch : Fin 64), y = ix3 u r ch := ⟨y 0, y 1, y 2, eq_ix3 y⟩
  obtain rfl : u = 0 := Subsingleton.elim _ _
  refine (convPool_image (V c main_v16) (V c main_arg2) (V c main_arg3) (iblk1 V c 0 t) ⟨t.val, ht⟩
    (fun ρ k => blk_in_apply V c t ⟨t.val, ht⟩ rfl ρ k) r ch).trans ?_
  rw [View.read_apply]
  show Spec.convPool Spec.row1 Spec.col1 (V c main_v16) (V c main_arg2) (V c main_arg3) _
    = Spec.convPool Spec.row1 Spec.col1 (V c main_v16) (V c main_arg2) (V c main_arg3) _
  congr 1
  funext a; apply Fin.ext
  match a with
  | ⟨0, _⟩ => show t.val = win1_3.index t 0 * 1 + 1 * 0; rw [e0]; omega
  | ⟨1, _⟩ => show r.val = win1_3.index t 1 * 48 + 1 * r.val; rw [e1]; omega
  | ⟨2, _⟩ => show ch.val = win1_3.index t 2 * 64 + 1 * ch.val; rw [e2]; omega

/-- Image n of the output array is point n's block: the blocks cover the array. -/
theorem cover (i : S2048x48x64.Idx) :
    ∃ t : Fin cfg1.N, (cfg1.win 3).flush t = true ∧ i ∈ ((cfg1.win 3).blk t).view.set := by
  have hi0 : (i 0).val < 2048 := (i 0).isLt
  have hi1 : (i 1).val < 48 := (i 1).isLt
  have hi2 : (i 2).val < 64 := (i 2).isLt
  obtain ⟨t, htv⟩ : ∃ t : Fin cfg1.N, t.val = (i 0).val := ⟨⟨(i 0).val, lt_of_lt_of_eq hi0 N_1.symm⟩, rfl⟩
  obtain ⟨e0, e1, e2⟩ := idx_out t
  refine ⟨t, flush1_3 t, ?_⟩
  show i ∈ ((View.whole main_v17).slice (win1_3.rect t)).set
  rw [View.set_slice_whole, Rect.mem_set_unit]
  intro a
  match a with
  | ⟨0, _⟩ => show win1_3.index t 0 * 1 ≤ (i 0).val ∧ (i 0).val < win1_3.index t 0 * 1 + 1; rw [e0, htv]; omega
  | ⟨1, _⟩ => show win1_3.index t 1 * 48 ≤ (i 1).val ∧ (i 1).val < win1_3.index t 1 * 48 + 48; rw [e1]; omega
  | ⟨2, _⟩ => show win1_3.index t 2 * 64 ≤ (i 2).val ∧ (i 2).val < win1_3.index t 2 * 64 + 64; rw [e2]; omega

/-- After the second convolution region its output array holds the stage's pooled output of the arrays the region found. -/
theorem arr (c : Dev nD) :
    (dat1 V c).arrAt 3 cfg1.N
      = Spec.convPool Spec.row1 Spec.col1 (V c main_v16) (V c main_arg2) (V c main_arg3) := by
  exact (dat1 V c).arrAt_eq_of_cover 3 _ (fun t _ => flushed_eq V c t) cover

end Cert.ReferenceIdeal.Conv1

end
-- ==== Proof.RVal2.lean ====
import proofs.«111038_g2000003154481155_pallasbulk_2_2_alg».proof.Proof.Gen.ReferenceIdeal.Frame
import proofs.«111038_g2000003154481155_pallasbulk_2_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Fc

open Cert.ReferenceIdeal Cert.ReferenceIdeal.Gen

-- the TensorCore's buffer contents when the region is entered: any contents
variable (V : (c : Dev nD) → (b : Ref sig .tc) → Buf (Elt Ideal) ((c : Thread nD τ).loc b))

/-! The three matrix products' dimension records are plain row-by-column products. -/

theorem dot1_eq : dot_S128x2304_S2304x128_S128x128_1_0_0_1_n_n = DotDims.plain 128 2304 128 := rfl
theorem dot2_eq : dot_S128x128_S128x84_S128x84_1_0_0_1_n_n = DotDims.plain 128 128 84 := rfl
theorem dot3_eq : dot_S128x84_S84x10_S128x10_1_0_0_1_n_n = DotDims.plain 128 84 10 := rfl

/-- A plain matrix product into the zero accumulator, read at an index, is the sum of products over the contracted axis. -/
theorem mm_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant _ .f32 0x00000000#32) (ix2 a b) = ∑ c : Fin k, A (ix2 a c) * B (ix2 c b) := by
  rw [matmul_zero_eq_dotGeneral]
  exact StackMember.dotGeneral_plain_apply none A B a b

/-- The first layer at an index: the row's product with the weights, plus the bias, clamped at zero. -/
theorem layer1_apply (v0 : Vec Ideal S128x2304 .bf16) (v2 : Vec Ideal S2304x128 .bf16) (v4 : Vec Ideal S1x128 .f32)
    (r : Fin 128) (k : Fin 128) :
    maximumf
      (addf
        (matmul (φ₁ := .bf16) (φ₂ := .bf16) dot_S128x2304_S2304x128_S128x128_1_0_0_1_n_n none
          (shapeCast S128x2304 v0 shapeCasts_S128x2304_S128x2304) v2 (constant S128x128 .f32 0x00000000#32))
        (broadcastTo S128x128 v4 broadcasts_S1x128_S128x128))
      (broadcast S128x128 (FloatOps.ofBits (F := Ideal) .f32 0x00000000#32)) (ix2 r k)
      = max ((∑ j : Fin 2304, v0 (ix2 r j) * v2 (ix2 j k)) + v4 (ix2 0 k)) 0 := by
  rw [maximumf_apply, addf_apply, broadcast_apply, shapeCast_self, dot1_eq, mm_apply, broadcastTo_1b_ab_apply]
  show max _ (Ideal.ofBits .f32 0x00000000#32) = _
  rw [Ideal.ofBits_zero_f32]

/-- The second layer at an index: the first layer's row times the second weights, plus the bias, clamped at zero. -/
theorem pay1_apply (v0 : Vec Ideal S128x2304 .bf16) (v2 : Vec Ideal S2304x128 .bf16) (v4 : Vec Ideal S1x128 .f32)
    (v9 : Vec Ideal S128x84 .f32) (v11 : Vec Ideal S1x84 .f32) (r : Fin 128) (ch : Fin 84) :
    k2_pay1 v0 v2 v4 v9 v11 (ix2 r ch)
      = max ((∑ k : Fin 128, (max ((∑ j : Fin 2304, v0 (ix2 r j) * v2 (ix2 j k)) + v4 (ix2 0 k)) 0) * v9 (ix2 k ch)) + v11 (ix2 0 ch)) 0 := by
  unfold k2_pay1
  rw [maximumf_apply, addf_apply, broadcast_apply, dot2_eq, mm_apply, broadcastTo_1b_ab_apply]
  show max _ (Ideal.ofBits .f32 0x00000000#32) = _
  rw [Ideal.ofBits_zero_f32]
  simp only [layer1_apply]

/-- The logits at an index: the second layer's row times the third weights, plus the bias. -/
theorem pay2_apply (v0 : Vec Ideal S128x2304 .bf16) (v2 : Vec Ideal S2304x128 .bf16) (v4 : Vec Ideal S1x128 .f32)
    (v9 : Vec Ideal S128x84 .f32) (v11 : Vec Ideal S1x84 .f32) (v16 : Vec Ideal S84x10 .f32) (v18 : Vec Ideal S1x10 .f32)
    (r : Fin 128) (q : Fin 10) :
    k2_pay2 v0 v2 v4 v9 v11 v16 v18 (ix2 r q)
      = (∑ p : Fin 84, k2_pay1 v0 v2 v4 v9 v11 (ix2 r p) * v16 (ix2 p q)) + v18 (ix2 0 q) := by
  unfold k2_pay2
  rw [addf_apply, dot3_eq, mm_apply, broadcastTo_1b_ab_apply]

/-- The zero offset of a whole-block rectangle. -/
theorem hz : (![0, 0] : Fin 2 → Nat) = fun _ => 0 := funext fun a => by fin_cases a <;> rfl

/-- The printed index maps over the sixteen grid points: the row-blocked windows sit at block (t, 0), the weights and
    biases at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The grid has sixteen points. -/
theorem t_lt (t : Fin cfg2.N) : t.val < 16 := Nat.lt_of_lt_of_eq t.isLt N_2

/-- The activations' block at point t is rows 128 t … 128 t + 127 of the array. -/
theorem iblk0_apply (c : Dev nD) (t : Fin cfg2.N) (r : Fin 128) (j : Fin 2304) (n : Fin 2048) (hn : n.val = 128 * t.val + r.val) :
    (iblk2 V c 0 t : Vec Ideal S128x2304 .bf16) (ix2 r j) = (V c main_v21 : S2048x2304.Idx → EReal) (ix2 n j) := by
  obtain ⟨e0, e1, -⟩ := idx_facts t
  unfold iblk2
  rw [View.read_apply]
  show V c main_v21 _ = V c main_v21 _
  congr 1
  funext a
  apply Fin.ext
  match a with
  | ⟨0, _⟩ => show win2_0.index t (0 : Fin 2) * 128 + 1 * r.val = n.val; rw [e0, hn]; omega
  | ⟨1, _⟩ => show win2_0.index t (1 : Fin 2) * 2304 + 1 * j.val = j.val; rw [e1]; omega

/-- A window whose block is its whole array at every point: the block is the array. -/
theorem iblk1_eq (c : Dev nD) (t : Fin cfg2.N) :
    (iblk2 V c 1 t : S2304x128.Idx → EReal) = (V c main_arg4 : S2304x128.Idx → EReal) := by
  obtain ⟨-, -, e0, e1, -⟩ := idx_facts t
  funext y
  unfold iblk2
  rw [View.read_apply]
  show V c main_arg4 _ = V c main_arg4 _
  congr 1
  funext a
  apply Fin.ext
  match a with
  | ⟨0, _⟩ => show win2_1.index t (0 : Fin 2) * 2304 + 1 * (y 0).val = (y 0).val; rw [e0]; omega
  | ⟨1, _⟩ => show win2_1.index t (1 : Fin 2) * 128 + 1 * (y 1).val = (y 1).val; rw [e1]; omega

theorem iblk2_eq (c : Dev nD) (t : Fin cfg2.N) :
    (iblk2 V c 2 t : S1x128.Idx → EReal) = (V c main_arg5 : S1x128.Idx → EReal) := by
  obtain ⟨-, -, -, -, e0, e1, -⟩ := idx_facts t
  funext y
  unfold iblk2
  rw [View.read_apply]
  show V c main_arg5 _ = V c main_arg5 _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

theorem iblk3_eq (c : Dev nD) (t : Fin cfg2.N) :
    (iblk2 V c 3 t : S128x84.Idx → EReal) = (V c main_arg6 : S128x84.Idx → EReal) := by
  obtain ⟨-, -, -, -, -, -, e0, e1, -⟩ := idx_facts t
  funext y
  unfold iblk2
  rw [View.read_apply]
  show V c main_arg6 _ = V c main_arg6 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 84 + 1 * (y 1).val = (y 1).val; rw [e1]; omega

theorem iblk4_eq (c : Dev nD) (t : Fin cfg2.N) :
    (iblk2 V c 4 t : S1x84.Idx → EReal) = (V c main_arg7 : S1x84.Idx → EReal) := by
  obtain ⟨-, -, -, -, -, -, -, -, e0, e1, -⟩ := idx_facts t
  funext y
  unfold iblk2
  rw [View.read_apply]
  show V c main_arg7 _ = V c main_arg7 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 84 + 1 * (y 1).val = (y 1).val; rw [e1]; omega

theorem iblk5_eq (c : Dev nD) (t : Fin cfg2.N) :
    (iblk2 V c 5 t : S84x10.Idx → EReal) = (V c main_arg8 : S84x10.Idx → EReal) := by
  obtain ⟨-, -, -, -, -, -, -, -, -, -, e0, e1, -⟩ := idx_facts t
  funext y
  unfold iblk2
  rw [View.read_apply]
  show V c main_arg8 _ = V c main_arg8 _
  congr 1
  funext a
  apply Fin.ext
  match a with
  | ⟨0, _⟩ => show win2_5.index t (0 : Fin 2) * 84 + 1 * (y 0).val = (y 0).val; rw [e0]; omega
  | ⟨1, _⟩ => show win2_5.index t (1 : Fin 2) * 10 + 1 * (y 1).val = (y 1).val; rw [e1]; omega

theorem iblk6_eq (c : Dev nD) (t : Fin cfg2.N) :
    (iblk2 V c 6 t : S1x10.Idx → EReal) = (V c main_arg9 : S1x10.Idx → EReal) := by
  obtain ⟨-, -, -, -, -, -, -, -, -, -, -, -, e0, e1, -⟩ := idx_facts t
  funext y
  unfold iblk2
  rw [View.read_apply]
  show V c main_arg9 _ = V c main_arg9 _
  congr 1
  funext a
  apply Fin.ext
  match a with
  | ⟨0, _⟩ => show win2_6.index t (0 : Fin 2) * 1 + 1 * (y 0).val = (y 0).val; rw [e0]; omega
  | ⟨1, _⟩ => show win2_6.index t (1 : Fin 2) * 10 + 1 * (y 1).val = (y 1).val; rw [e1]; omega

/-- A block row's second hidden layer is that of the array's row it was cut from. -/
theorem h2_block (X : S2048x2304.Idx → EReal) (B0 : Vec Ideal S128x2304 .bf16) (W1 : Vec Ideal S2304x128 .bf16)
    (b1 : Vec Ideal S1x128 .f32) (W2 : Vec Ideal S128x84 .f32) (b2 : Vec Ideal S1x84 .f32)
    (r : Fin 128) (ch : Fin 84) (n : Fin 2048) (hB : ∀ j, B0 (ix2 r j) = X (ix2 n j)) :
    k2_pay1 B0 W1 b1 W2 b2 (ix2 r ch) = Spec.h2Arr X W1 b1 W2 b2 (ix2 n ch) := by
  rw [pay1_apply]
  show _ = Spec.fcH2 X W1 b1 W2 b2 n ch
  unfold Spec.fcH2 Spec.fcH1
  simp only [hB]

/-- … and its logits are those of that row. -/
theorem out_block (X : S2048x2304.Idx → EReal) (B0 : Vec Ideal S128x2304 .bf16) (W1 : Vec Ideal S2304x128 .bf16)
    (b1 : Vec Ideal S1x128 .f32) (W2 : Vec Ideal S128x84 .f32) (b2 : Vec Ideal S1x84 .f32)
    (W3 : Vec Ideal S84x10 .f32) (b3 : Vec Ideal S1x10 .f32)
    (r : Fin 128) (q : Fin 10) (n : Fin 2048) (hB : ∀ j, B0 (ix2 r j) = X (ix2 n j)) :
    k2_pay2 B0 W1 b1 W2 b2 W3 b3 (ix2 r q) = Spec.outArr X W1 b1 W2 b2 W3 b3 (ix2 n q) := by
  rw [pay2_apply]
  show _ = Spec.fcOut X W1 b1 W2 b2 W3 b3 n q
  unfold Spec.fcOut
  simp only [fun p => h2_block X B0 W1 b1 W2 b2 r p n hB]
  rfl

/-- What point t writes back to the hidden-activation array is block t of the specification's array. -/
theorem flushed7_eq (c : Dev nD) (t : Fin cfg2.N) :
    (dat2 V c).flushed 7 t = ((cfg2.win 7).blk t).view.read (Elt Ideal)
      (Spec.h2Arr (V c main_v21) (V c main_arg4) (V c main_arg5) (V c main_arg6) (V c main_arg7)) := by
  show (cfg2.win 7).cut (grid2.coords t) ((dat2 V c).after 7 t) = _
  rw [after2_7]
  unfold out2_7
  rw [View.canon_unit_zero hz]
  simp only [View.ld_unit_zero (S := S128x2304) hz, View.ld_unit_zero (S := S2304x128) hz,
    View.ld_unit_zero (S := S1x128) hz, View.ld_unit_zero (S := S128x84) hz, View.ld_unit_zero (S := S1x84) hz]
  rw [iblk1_eq V c t, iblk2_eq V c t, iblk3_eq V c t, iblk4_eq V c t]
  obtain ⟨-, -, -, -, -, -, -, -, -, -, -, -, -, -, e0, e1, -, -⟩ := idx_facts t
  have ht := t_lt t
  funext y
  have hy0 : (y 0).val < 128 := (y 0).isLt
  have hy1 : (y 1).val < 84 := (y 1).isLt
  have ex : (cfg2.win 7).xinj (grid2.coords t) y = ix2 (⟨(y 0).val, hy0⟩ : Fin 128) (⟨(y 1).val, hy1⟩ : Fin 84) :=
    funext fun a => by match a with | ⟨0, _⟩ => rfl | ⟨1, _⟩ => rfl
  have ee : ((cfg2.win 7).blk t).view.emb y
      = ix2 (⟨128 * t.val + (y 0).val, by omega⟩ : Fin 2048) (⟨(y 1).val, hy1⟩ : Fin 84) := by
    funext a; apply Fin.ext
    match a with
    | ⟨0, _⟩ => show win2_7.index t (0 : Fin 2) * 128 + 1 * (y 0).val = 128 * t.val + (y 0).val; rw [e0]; omega
    | ⟨1, _⟩ => show win2_7.index t (1 : Fin 2) * 84 + 1 * (y 1).val = (y 1).val; rw [e1]; omega
  show k2_pay1 (F := Ideal) _ _ _ _ _ ((cfg2.win 7).xinj (grid2.coords t) y) = Spec.h2Arr _ _ _ _ _ (((cfg2.win 7).blk t).view.emb y)
  rw [ex, ee]
  exact h2_block _ _ _ _ _ _ _ _ _ (fun j => iblk0_apply V c t _ j _ rfl)

/-- What point t writes back to the logits array is block t of the specification's array. -/
theorem flushed8_eq (c : Dev nD) (t : Fin cfg2.N) :
    (dat2 V c).flushed 8 t = ((cfg2.win 8).blk t).view.read (Elt Ideal)
      (Spec.outArr (V c main_v21) (V c main_arg4) (V c main_arg5) (V c main_arg6) (V c main_arg7) (V c main_arg8) (V c main_arg9)) := by
  show (cfg2.win 8).cut (grid2.coords t) ((dat2 V c).after 8 t) = _
  rw [after2_8]
  unfold out2_8
  rw [View.canon_unit_zero hz]
  simp only [View.ld_unit_zero (S := S128x2304) hz, View.ld_unit_zero (S := S2304x128) hz,
    View.ld_unit_zero (S := S1x128) hz, View.ld_unit_zero (S := S128x84) hz, View.ld_unit_zero (S := S1x84) hz,
    View.ld_unit_zero (S := S84x10) hz, View.ld_unit_zero (S := S1x10) hz]
  rw [iblk1_eq V c t, iblk2_eq V c t, iblk3_eq V c t, iblk4_eq V c t, iblk5_eq V c t, iblk6_eq V c t]
  obtain ⟨-, -, -, -, -, -, -, -, -, -, -, -, -, -, -, -, e0, e1⟩ := idx_facts t
  have ht := t_lt t
  funext y
  have hy0 : (y 0).val < 128 := (y 0).isLt
  have hy1 : (y 1).val < 10 := (y 1).isLt
  have ex : (cfg2.win 8).xinj (grid2.coords t) y = ix2 (⟨(y 0).val, hy0⟩ : Fin 128) (⟨(y 1).val, hy1⟩ : Fin 10) :=
    funext fun a => by match a with | ⟨0, _⟩ => rfl | ⟨1, _⟩ => rfl
  have ee : ((cfg2.win 8).blk t).view.emb y
      = ix2 (⟨128 * t.val + (y 0).val, by omega⟩ : Fin 2048) (⟨(y 1).val, hy1⟩ : Fin 10) := by
    funext a; apply Fin.ext
    match a with
    | ⟨0, _⟩ => show win2_8.index t (0 : Fin 2) * 128 + 1 * (y 0).val = 128 * t.val + (y 0).val; rw [e0]; omega
    | ⟨1, _⟩ => show win2_8.index t (1 : Fin 2) * 10 + 1 * (y 1).val = (y 1).val; rw [e1]; omega
  show k2_pay2 (F := Ideal) _ _ _ _ _ _ _ ((cfg2.win 8).xinj (grid2.coords t) y) = Spec.outArr _ _ _ _ _ _ _ (((cfg2.win 8).blk t).view.emb y)
  rw [ex, ee]
  exact out_block _ _ _ _ _ _ _ _ _ _ _ (fun j => iblk0_apply V c t _ j _ rfl)

/-- An index of the hidden-activation array lies in point t's block iff each coordinate lies in the block's range. -/
theorem mem_blk7 (t : Fin cfg2.N) (i : S2048x84.Idx) :
    i ∈ ((cfg2.win 7).blk t).view.set ↔ ∀ a : Fin 2, win2_7.index t a * S128x84.size a ≤ (i a).val
      ∧ (i a).val < win2_7.index t a * S128x84.size a + S128x84.size a := by
  show i ∈ ((View.whole main_v22_0).slice (win2_7.rect t)).set ↔ _
  rw [View.set_slice_whole, Rect.mem_set_unit]
  exact Iff.rfl

/-- The same for the logits array. -/
theorem mem_blk8 (t : Fin cfg2.N) (i : S2048x10.Idx) :
    i ∈ ((cfg2.win 8).blk t).view.set ↔ ∀ a : Fin 2, win2_8.index t a * S128x10.size a ≤ (i a).val
      ∧ (i a).val < win2_8.index t a * S128x10.size a + S128x10.size a := by
  show i ∈ ((View.whole main_v22_1).slice (win2_8.rect t)).set ↔ _
  rw [View.set_slice_whole, Rect.mem_set_unit]
  exact Iff.rfl

/-- Row n of the hidden-activation array lies in the block of point n / 128. -/
theorem cover7 (i : S2048x84.Idx) :
    ∃ t : Fin cfg2.N, (cfg2.win 7).flush t = true ∧ i ∈ ((cfg2.win 7).blk t).view.set := by
  have hi0 : (i 0).val < 2048 := (i 0).isLt
  have hi1 : (i 1).val < 84 := (i 1).isLt
  let t : Fin cfg2.N := ⟨(i 0).val / 128, Nat.lt_of_lt_of_eq (by omega : (i 0).val / 128 < 16) N_2.symm⟩
  have htv : t.val = (i 0).val / 128 := rfl
  obtain ⟨-, -, -, -, -, -, -, -, -, -, -, -, -, -, e0, e1, -, -⟩ := idx_facts t
  refine ⟨t, flush2_7 t, ?_⟩
  rw [mem_blk7]
  intro a
  match a with
  | ⟨0, _⟩ => show win2_7.index t (0 : Fin 2) * 128 ≤ (i 0).val ∧ (i 0).val < win2_7.index t (0 : Fin 2) * 128 + 128; rw [e0, htv]; omega
  | ⟨1, _⟩ => show win2_7.index t (1 : Fin 2) * 84 ≤ (i 1).val ∧ (i 1).val < win2_7.index t (1 : Fin 2) * 84 + 84; rw [e1]; omega

/-- Row n of the logits array lies in the block of point n / 128. -/
theorem cover8 (i : S2048x10.Idx) :
    ∃ t : Fin cfg2.N, (cfg2.win 8).flush t = true ∧ i ∈ ((cfg2.win 8).blk t).view.set := by
  have hi0 : (i 0).val < 2048 := (i 0).isLt
  have hi1 : (i 1).val < 10 := (i 1).isLt
  let t : Fin cfg2.N := ⟨(i 0).val / 128, Nat.lt_of_lt_of_eq (by omega : (i 0).val / 128 < 16) N_2.symm⟩
  have htv : t.val = (i 0).val / 128 := rfl
  obtain ⟨-, -, -, -, -, -, -, -, -, -, -, -, -, -, -, -, e0, e1⟩ := idx_facts t
  refine ⟨t, flush2_8 t, ?_⟩
  rw [mem_blk8]
  intro a
  match a with
  | ⟨0, _⟩ => show win2_8.index t (0 : Fin 2) * 128 ≤ (i 0).val ∧ (i 0).val < win2_8.index t (0 : Fin 2) * 128 + 128; rw [e0, htv]; omega
  | ⟨1, _⟩ => show win2_8.index t (1 : Fin 2) * 10 ≤ (i 1).val ∧ (i 1).val < win2_8.index t (1 : Fin 2) * 10 + 10; rw [e1]; omega

/-- After the fully connected region its first output array holds the hidden activations of the arrays it found. -/
theorem arr_h2 (c : Dev nD) :
    (dat2 V c).arrAt 7 cfg2.N
      = Spec.h2Arr (V c main_v21) (V c main_arg4) (V c main_arg5) (V c main_arg6) (V c main_arg7) := by
  exact (dat2 V c).arrAt_eq_of_cover 7 _ (fun t _ => flushed7_eq V c t) cover7

/-- … and its second output array the logits. -/
theorem arr_out (c : Dev nD) :
    (dat2 V c).arrAt 8 cfg2.N
      = Spec.outArr (V c main_v21) (V c main_arg4) (V c main_arg5) (V c main_arg6) (V c main_arg7) (V c main_arg8) (V c main_arg9) := by
  exact (dat2 V c).arrAt_eq_of_cover 8 _ (fun t _ => flushed8_eq V c t) cover8

end Cert.ReferenceIdeal.Fc

end
-- ==== Proof.RValue.lean ====
/-
  The reference program's two results as the network's function of the launch arrays: each region's output array is the stage's
  function of the arrays the region found; those are the layout glue of the previous region's output, or launch
  arguments; composed from the last boundary back to the launch.
-/
import proofs.«111038_g2000003154481155_pallasbulk_2_2_alg».proof.Proof.RRun
import proofs.«111038_g2000003154481155_pallasbulk_2_2_alg».proof.Proof.RHost
import proofs.«111038_g2000003154481155_pallasbulk_2_2_alg».proof.Proof.RVal0
import proofs.«111038_g2000003154481155_pallasbulk_2_2_alg».proof.Proof.RVal1
import proofs.«111038_g2000003154481155_pallasbulk_2_2_alg».proof.Proof.RVal2
import proofs.«111038_g2000003154481155_pallasbulk_2_2_alg».proof.Proof.Net

set_option maxRecDepth 16384

noncomputable section

namespace Cert.ReferenceIdeal.Results

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The first region leaves stage 1's pooled output of the packed launch image. -/
theorem stage0 (c : Dev nD) :
    W6 m ρ c (Proc.devRef .tc main_v8)
      = Spec.convPool Spec.row0 Spec.col0 (Spec.imageIn (m ((c : Thread nD τ).loc main_arg10)))
          (m ((c : Thread nD τ).loc main_arg0)) (m ((c : Thread nD τ).loc main_arg1)) := by
  refine (W6_arr m ρ c 3).trans ?_
  refine (Conv0.arr (V5 m ρ) c).trans ?_
  have e1 : V5 m ρ c main_v7 = Spec.imageIn (m ((c : Thread nD τ).loc main_arg10)) := Host.entry0_x m ρ c
  have e2 : V5 m ρ c main_arg0 = m ((c : Thread nD τ).loc main_arg0) := Host.entry0_w m ρ c
  have e3 : V5 m ρ c main_arg1 = m ((c : Thread nD τ).loc main_arg1) := Host.entry0_b m ρ c
  rw [e1, e2, e3]

/-- The second region leaves stage 2's pooled output of stage 1's output, packed again. -/
theorem stage1 (c : Dev nD) :
    W12 m ρ c (Proc.devRef .tc main_v17)
      = Spec.convPool Spec.row1 Spec.col1
          (Spec.packMid (Spec.convPool Spec.row0 Spec.col0 (Spec.imageIn (m ((c : Thread nD τ).loc main_arg10)))
            (m ((c : Thread nD τ).loc main_arg0)) (m ((c : Thread nD τ).loc main_arg1))))
          (m ((c : Thread nD τ).loc main_arg2)) (m ((c : Thread nD τ).loc main_arg3)) := by
  refine (W12_arr m ρ c 3).trans ?_
  refine (Conv1.arr (V11 m ρ) c).trans ?_
  have e1 : V11 m ρ c main_v16 = Spec.packMid (Spec.convPool Spec.row0 Spec.col0 (Spec.imageIn (m ((c : Thread nD τ).loc main_arg10)))
      (m ((c : Thread nD τ).loc main_arg0)) (m ((c : Thread nD τ).loc main_arg1))) :=
    (Host.entry1_x m ρ c).trans (congrArg Spec.packMid (stage0 m ρ c))
  have e2 : V11 m ρ c main_arg2 = m ((c : Thread nD τ).loc main_arg2) := Host.entry1_w m ρ c
  have e3 : V11 m ρ c main_arg3 = m ((c : Thread nD τ).loc main_arg3) := Host.entry1_b m ρ c
  rw [e1, e2, e3]

/-- The third region reads the network's features. -/
theorem feats (c : Dev nD) :
    V14 m ρ c main_v21
      = Spec.features (m ((c : Thread nD τ).loc main_arg0)) (m ((c : Thread nD τ).loc main_arg1))
          (m ((c : Thread nD τ).loc main_arg2)) (m ((c : Thread nD τ).loc main_arg3)) (m ((c : Thread nD τ).loc main_arg10)) :=
  (Host.entry2_x m ρ c).trans (congrArg Spec.flatOut (stage1 m ρ c))

/-- The first result: the hidden activations. -/
theorem result_h2 (c : Dev nD) :
    W15 m ρ c (Proc.devRef .tc main_v22_0)
      = Spec.netH2 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg10)) := by
  refine (W15_arr m ρ c 7).trans ?_
  refine (Fc.arr_h2 (V14 m ρ) c).trans ?_
  have e0 := feats m ρ c
  have e4 : V14 m ρ c main_arg4 = m ((c : Thread nD τ).loc main_arg4) := Host.entry2_arg4 m ρ c
  have e5 : V14 m ρ c main_arg5 = m ((c : Thread nD τ).loc main_arg5) := Host.entry2_arg5 m ρ c
  have e6 : V14 m ρ c main_arg6 = m ((c : Thread nD τ).loc main_arg6) := Host.entry2_arg6 m ρ c
  have e7 : V14 m ρ c main_arg7 = m ((c : Thread nD τ).loc main_arg7) := Host.entry2_arg7 m ρ c
  rw [e0, e4, e5, e6, e7]
  rfl

/-- The second result: the logits. -/
theorem result_out (c : Dev nD) :
    W15 m ρ c (Proc.devRef .tc main_v22_1)
      = Spec.netOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  refine (W15_arr m ρ c 8).trans ?_
  refine (Fc.arr_out (V14 m ρ) c).trans ?_
  have e0 := feats m ρ c
  have e4 : V14 m ρ c main_arg4 = m ((c : Thread nD τ).loc main_arg4) := Host.entry2_arg4 m ρ c
  have e5 : V14 m ρ c main_arg5 = m ((c : Thread nD τ).loc main_arg5) := Host.entry2_arg5 m ρ c
  have e6 : V14 m ρ c main_arg6 = m ((c : Thread nD τ).loc main_arg6) := Host.entry2_arg6 m ρ c
  have e7 : V14 m ρ c main_arg7 = m ((c : Thread nD τ).loc main_arg7) := Host.entry2_arg7 m ρ c
  have e8 : V14 m ρ c main_arg8 = m ((c : Thread nD τ).loc main_arg8) := Host.entry2_arg8 m ρ c
  have e9 : V14 m ρ c main_arg9 = m ((c : Thread nD τ).loc main_arg9) := Host.entry2_arg9 m ρ c
  rw [e0, e4, e5, e6, e7, e8, e9]
  rfl

/-- The run, read: both results at the network's function of the launch arrays, the arguments unchanged. -/
theorem run : θ_run defs (onTc (τ := τ) (main (F := Ideal))) ⟨m, fun _ => 0, ρ⟩ (fun r => ∀ c : Dev nD,
      r.2.mem ((c.tc : Thread nD τ).loc main_v22_0)
        = Spec.netH2 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg10))
      ∧ r.2.mem ((c.tc : Thread nD τ).loc main_v22_1)
        = Spec.netOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun r h c => ⟨(h c).1.trans (result_h2 m ρ c), (h c).2.1.trans (result_out m ρ c), (h c).2.2⟩)
    (Gen.run_results (F := Ideal) m ρ)

end Cert.ReferenceIdeal.Results

end
-- ==== Proof.lean ====
/-
  The certificate of a small convolutional network (two fused 3×3 conv + bias + relu + 2×2 max-pool stages over
  space-to-depth packed images, then fc1+relu → fc2+relu → fc3; results: the hidden activations and the logits)
  against its reference. Both programs are three kernel regions among the same layout glue. They differ in three ways,
  none of which changes a value over the extended reals:
    * the image batch's change of float format comes before the NCHW → channels-last transposition in one program and
      after it in the other: the change of format is the identity on extended reals;
    * one program concatenates the four shifted windows of the packed image along the contraction axis and multiplies
      once by the four weight blocks stacked along that axis (a reshape), the other multiplies each window by its block
      and adds the four products: a sum over the stacked axis is the sum over the blocks of the sums within a block
      (commutativity and associativity of + alone, so no finiteness of the inputs is used);
    * the grids tile the batch differently (8 images per point against 1; 256 rows per point against 128): each
      output array is one function of the arrays its region found, whatever the tiling.
  So each program's two results are the SAME function of the launch arrays (`Spec.netH2`, `Spec.netOut`), and the
  reference's run, from a memory that agrees on the arguments, ends at the kernel program's values.
  The three frames are the generated ones; the idealization rewrote nothing, so `preserves` is `True`.
-/
import proofs.«111038_g2000003154481155_pallasbulk_2_2_alg».proof.Defs
import proofs.«111038_g2000003154481155_pallasbulk_2_2_alg».proof.Proof.Gen.Kernel
import proofs.«111038_g2000003154481155_pallasbulk_2_2_alg».proof.Proof.Gen.Kernel.Skeleton
import proofs.«111038_g2000003154481155_pallasbulk_2_2_alg».proof.Proof.Gen.Kernel.Launch
import proofs.«111038_g2000003154481155_pallasbulk_2_2_alg».proof.Proof.Gen.Kernel.Points
import proofs.«111038_g2000003154481155_pallasbulk_2_2_alg».proof.Proof.Gen.Kernel.Frame
import proofs.«111038_g2000003154481155_pallasbulk_2_2_alg».proof.Proof.Gen.KernelIdeal
import proofs.«111038_g2000003154481155_pallasbulk_2_2_alg».proof.Proof.Gen.KernelIdeal.Skeleton
import proofs.«111038_g2000003154481155_pallasbulk_2_2_alg».proof.Proof.Gen.KernelIdeal.Launch
import proofs.«111038_g2000003154481155_pallasbulk_2_2_alg».proof.Proof.Gen.KernelIdeal.Points
import proofs.«111038_g2000003154481155_pallasbulk_2_2_alg».proof.Proof.Gen.KernelIdeal.Frame
import proofs.«111038_g2000003154481155_pallasbulk_2_2_alg».proof.Proof.Gen.ReferenceIdeal
import proofs.«111038_g2000003154481155_pallasbulk_2_2_alg».proof.Proof.Gen.ReferenceIdeal.Skeleton
import proofs.«111038_g2000003154481155_pallasbulk_2_2_alg».proof.Proof.Gen.ReferenceIdeal.Launch
import proofs.«111038_g2000003154481155_pallasbulk_2_2_alg».proof.Proof.Gen.ReferenceIdeal.Points
import proofs.«111038_g2000003154481155_pallasbulk_2_2_alg».proof.Proof.Gen.ReferenceIdeal.Frame
import proofs.«111038_g2000003154481155_pallasbulk_2_2_alg».proof.Proof.Gen.Pre_finite_inputs
import proofs.«111038_g2000003154481155_pallasbulk_2_2_alg».proof.Proof.KValue
import proofs.«111038_g2000003154481155_pallasbulk_2_2_alg».proof.Proof.RValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- The idealization rewrote no operation. -/
theorem preserves : Cert.preserves_Kernel_KernelIdeal := trivial

/-- Both programs, from memories agreeing on the arguments, end with the network's hidden activations and logits
    of those arguments. -/
theorem algebraic : Cert.algebraic_KernelIdeal_ReferenceIdeal := by
  intro m ρ m' ρ' _ hagree
  refine ⟨fun c => Cert.Spec.netH2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)),
    fun c => Cert.Spec.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Results.run m ρ, ?_⟩
  refine (θ_run Cert.ReferenceIdeal.defs _ _).mono (fun r h c => ?_) (Cert.ReferenceIdeal.Results.run m' ρ')
  obtain ⟨a0, a1, a2, a3, a4, a5, a6, a7, a8, a9, a10⟩ := hagree c
  refine ⟨(h c).1.trans ?_, (h c).2.1.trans ?_, (h c).2.2⟩
  · show Cert.Spec.netH2 _ _ _ _ _ _ _ _ _ = Cert.Spec.netH2 _ _ _ _ _ _ _ _ _
    rw [a0, a1, a2, a3, a4, a5, a6, a7, a10]
  · show Cert.Spec.netOut _ _ _ _ _ _ _ _ _ _ _ = Cert.Spec.netOut _ _ _ _ _ _ _ _ _ _ _
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
